-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x32 : Shape := ⟨2, ![32768, 32]⟩
abbrev S32768x1 : Shape := ⟨2, ![32768, 1]⟩
abbrev S40960x256 : Shape := ⟨2, ![40960, 256]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S32768x1 : S_.BroadcastsInDim S32768x1 (![] : Fin 0 → Fin S32768x1.rank)
  reducesTo_S32768x1_S_d0_1 : S32768x1.ReducesTo [0, 1] S_
  h_S_ : 0 < S_.numel
  bcast_S_S40960x256 : S_.BroadcastsInDim S40960x256 (![] : Fin 0 → Fin S40960x256.rank)
  reducesTo_S40960x256_S_d0_1 : S40960x256.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S32768x32 : S_.BroadcastsInDim S32768x32 (![] : Fin 0 → Fin S32768x32.rank)
  reducesTo_S32768x32_S_d0_1 : S32768x32.ReducesTo [0, 1] S_

variable [Facts]

def fn_part3 {F : FTy → Type} [FloatOps F] (main_arg1 : IVec S32768x32 32) (main_v47 : IVec S_ 1) (main_v49 : IVec S32768x32 1) (main_c_19 : IVec S_ 1) : IVec S_ 1 :=
  let main_v50 : IVec S_ 1 := (fun x v => Host.reduce IntOp.andi x v reducesTo_S32768x32_S_d0_1 h_S_) main_v49 main_c_19
  let main_v51 : IVec S_ 1 := andi main_v47 main_v50
  let main_c_20 : IVec S_ 32 := constantI S_ 32 0#32
  let main_v52 : IVec S32768x32 32 := broadcastInDim S32768x32 ![] bcast_S_S32768x32 main_c_20
  let main_v53 : IVec S32768x32 1 := cmpi .sge main_arg1 main_v52
  let main_c_21 : IVec S_ 1 := constantI S_ 1 1#1
  let main_v54 : IVec S_ 1 := (fun x v => Host.reduce IntOp.andi x v reducesTo_S32768x32_S_d0_1 h_S_) main_v53 main_c_21
  let main_v55 : IVec S_ 1 := andi main_v51 main_v54
  let main_c_22 : IVec S_ 32 := constantI S_ 32 40960#32
  let main_v56 : IVec S32768x32 32 := broadcastInDim S32768x32 ![] bcast_S_S32768x32 main_c_22
  let main_v57 : IVec S32768x32 1 := cmpi .slt main_arg1 main_v56
  let main_c_23 : IVec S_ 1 := constantI S_ 1 1#1
  let main_v58 : IVec S_ 1 := (fun x v => Host.reduce IntOp.andi x v reducesTo_S32768x32_S_d0_1 h_S_) main_v57 main_c_23
  let main_v59 : IVec S_ 1 := andi main_v55 main_v58
  main_v59

def fn_part2 {F : FTy → Type} [FloatOps F] (main_arg0 : IVec S32768x32 32) (main_arg1 : IVec S32768x32 32) (main_arg9 : FVec F S1x32 .f32) (main_arg10 : FVec F S1 .f32) (main_v33 : IVec S_ 1) : IVec S_ 1 :=
  let main_v34 : FVec F S1x32 .f32 := Host.absf main_arg9
  let main_cst_12 : FVec F S_ .f32 := constant S_ .f32 0x7F800000#32
  let main_v35 : FVec F S1x32 .f32 := broadcastInDim S1x32 ![] bcast_S_S1x32 main_cst_12
  let main_v36 : IVec S1x32 1 := cmpf .olt main_v34 main_v35
  let main_c_13 : IVec S_ 1 := constantI S_ 1 1#1
  let main_v37 : IVec S_ 1 := (fun x v => Host.reduce IntOp.andi x v reducesTo_S1x32_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S32768x32 32 := broadcastInDim S32768x32 ![] bcast_S_S32768x32 main_c_16
  let main_v45 : IVec S32768x32 1 := cmpi .sge main_arg0 main_v44
  let main_c_17 : IVec S_ 1 := constantI S_ 1 1#1
  let main_v46 : IVec S_ 1 := (fun x v => Host.reduce IntOp.andi x v reducesTo_S32768x32_S_d0_1 h_S_) main_v45 main_c_17
  let main_v47 : IVec S_ 1 := andi main_v43 main_v46
  let main_c_18 : IVec S_ 32 := constantI S_ 32 40960#32
  let main_v48 : IVec S32768x32 32 := broadcastInDim S32768x32 ![] bcast_S_S32768x32 main_c_18
  let main_v49 : IVec S32768x32 1 := cmpi .slt main_arg0 main_v48
  let main_c_19 : IVec S_ 1 := constantI S_ 1 1#1
  fn_part3 (F := F) main_arg1 main_v47 main_v49 main_c_19

def fn_part1 {F : FTy → Type} [FloatOps F] (main_arg0 : IVec S32768x32 32) (main_arg1 : IVec S32768x32 32) (main_arg6 : FVec F S32 .f32) (main_arg7 : FVec F S32x32 .f32) (main_arg8 : FVec F S32 .f32) (main_arg9 : FVec F S1x32 .f32) (main_arg10 : FVec F S1 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg0 main_arg1 main_arg9 main_arg10 main_v33

def fn {F : FTy → Type} [FloatOps F] (main_arg0 : IVec S32768x32 32) (main_arg1 : IVec S32768x32 32) (main_arg2 : FVec F S32768x1 .f32) (main_arg3 : FVec F S40960x256 .f32) (main_arg4 : FVec F S256 .f32) (main_arg5 : FVec F S32x512 .f32) (main_arg6 : FVec F S32 .f32) (main_arg7 : FVec F S32x32 .f32) (main_arg8 : FVec F S32 .f32) (main_arg9 : FVec F S1x32 .f32) (main_arg10 : FVec F S1 .f32) : IVec S_ 1 :=
  let main_v0 : FVec F S32768x1 .f32 := Host.absf main_arg2
  let main_cst : FVec F S_ .f32 := constant S_ .f32 0x7F800000#32
  let main_v1 : FVec F S32768x1 .f32 := broadcastInDim S32768x1 ![] bcast_S_S32768x1 main_cst
  let main_v2 : IVec S32768x1 1 := cmpf .olt main_v0 main_v1
  let main_c : IVec S_ 1 := constantI S_ 1 1#1
  let main_v3 : IVec S_ 1 := (fun x v => Host.reduce IntOp.andi x v reducesTo_S32768x1_S_d0_1 h_S_) main_v2 main_c
  let main_v4 : FVec F S40960x256 .f32 := Host.absf main_arg3
  let main_cst_0 : FVec F S_ .f32 := constant S_ .f32 0x7F800000#32
  let main_v5 : FVec F S40960x256 .f32 := broadcastInDim S40960x256 ![] bcast_S_S40960x256 main_cst_0
  let main_v6 : IVec S40960x256 1 := cmpf .olt main_v4 main_v5
  let main_c_1 : IVec S_ 1 := constantI S_ 1 1#1
  let main_v7 : IVec S_ 1 := (fun x v => Host.reduce IntOp.andi x v reducesTo_S40960x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S32x512 .f32 := Host.absf main_arg5
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg0 main_arg1 main_arg6 main_arg7 main_arg8 main_arg9 main_arg10 main_v13 main_v16
-- ==== Kernel.lean ====
abbrev S32768x32 : Shape := ⟨2, ![32768, 32]⟩
abbrev S32768x1 : Shape := ⟨2, ![32768, 1]⟩
abbrev S40960x256 : Shape := ⟨2, ![40960, 256]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S32768x256 : Shape := ⟨2, ![32768, 256]⟩
abbrev S1024x32 : Shape := ⟨2, ![1024, 32]⟩
abbrev S1024x256 : Shape := ⟨2, ![1024, 256]⟩
abbrev S1024x1024 : Shape := ⟨2, ![1024, 1024]⟩
abbrev S1024x1 : Shape := ⟨2, ![1024, 1]⟩
abbrev S1x256 : Shape := ⟨2, ![1, 256]⟩
abbrev S2048x256 : Shape := ⟨2, ![2048, 256]⟩
abbrev S2048x1 : Shape := ⟨2, ![2048, 1]⟩
abbrev S2048x512 : Shape := ⟨2, ![2048, 512]⟩
abbrev S512x32 : Shape := ⟨2, ![512, 32]⟩
abbrev S2048x32 : Shape := ⟨2, ![2048, 32]⟩
abbrev S32x1 : Shape := ⟨2, ![32, 1]⟩
abbrev S1x1 : Shape := ⟨2, ![1, 1]⟩

abbrev nBuf : Space → Nat
  | .hbm => 15
  | .vmem => 30
  | .smem => 0
  | _ => 0

abbrev bufTy : (tb : Table) → Fin (tcTables nBuf tb) → BufTy
  | .hbm, ⟨0, _⟩ => ⟨S32768x32, .i32⟩
  | .hbm, ⟨1, _⟩ => ⟨S32768x32, .i32⟩
  | .hbm, ⟨2, _⟩ => ⟨S32768x1, .f32⟩
  | .hbm, ⟨3, _⟩ => ⟨S40960x256, .f32⟩
  | .hbm, ⟨4, _⟩ => ⟨S256, .f32⟩
  | .hbm, ⟨5, _⟩ => ⟨S32x512, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S40960x256, .bf16⟩
  | .hbm, ⟨12, _⟩ => ⟨S32768x256, .f32⟩
  | .hbm, ⟨13, _⟩ => ⟨S32768x256, .f32⟩
  | .hbm, ⟨14, _⟩ => ⟨S32768x1, .f32⟩
  | .local _ .vmem, ⟨0, _⟩ => ⟨S1024x32, .i32⟩
  | .local _ .vmem, ⟨1, _⟩ => ⟨S1024x32, .i32⟩
  | .local _ .vmem, ⟨2, _⟩ => ⟨S1024x256, .bf16⟩
  | .local _ .vmem, ⟨3, _⟩ => ⟨S1024x256, .bf16⟩
  | .local _ .vmem, ⟨4, _⟩ => ⟨S256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x32, .i32⟩
  | .local _ .vmem, ⟨9, _⟩ => ⟨S1024x32, .i32⟩
  | .local _ .vmem, ⟨10, _⟩ => ⟨S1024x256, .bf16⟩
  | .local _ .vmem, ⟨11, _⟩ => ⟨S1024x256, .bf16⟩
  | .local _ .vmem, ⟨12, _⟩ => ⟨S256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x1, .f32⟩
  | .local _ .vmem, ⟨21, _⟩ => ⟨S2048x1, .f32⟩
  | .local _ .vmem, ⟨22, _⟩ => ⟨S32x512, .f32⟩
  | .local _ .vmem, ⟨23, _⟩ => ⟨S32, .f32⟩
  | .local _ .vmem, ⟨24, _⟩ => ⟨S32x32, .f32⟩
  | .local _ .vmem, ⟨25, _⟩ => ⟨S32, .f32⟩
  | .local _ .vmem, ⟨26, _⟩ => ⟨S1x32, .f32⟩
  | .local _ .vmem, ⟨27, _⟩ => ⟨S1, .f32⟩
  | .local _ .vmem, ⟨28, _⟩ => ⟨S2048x1, .f32⟩
  | .local _ .vmem, ⟨29, _⟩ => ⟨S2048x1, .f32⟩
  | _, _ => ⟨S32768x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27

abbrev nD : Nat := 1
abbrev τ : Topo := Topo.v7x

variable {F : FTy → Type} [FloatOps F]

abbrev grid0 : Pipeline.Grid := ⟨2, ![32, 40], ![false, false]⟩

def k0_cond2 (i : grid0.Coords) : BitVec 1 :=
  let arg1 : BitVec 32 := BitVec.ofNat 32 (i 1).val
  let c39_i32 : BitVec 32 := 39#32
  let v209 : BitVec 1 := Scalar.cmpi .eq arg1 c39_i32
  let v210 : BitVec 32 := Scalar.extui v209
  let c0_i32_40 : BitVec 32 := 0#32
  let v211 : BitVec 1 := Scalar.cmpi .ne v210 c0_i32_40
  v211

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![32, 40], ![false, false]⟩

def k1_cond2 (i : grid1.Coords) : BitVec 1 :=
  let arg1 : BitVec 32 := BitVec.ofNat 32 (i 1).val
  let c39_i32 : BitVec 32 := 39#32
  let v209 : BitVec 1 := Scalar.cmpi .eq arg1 c39_i32
  let v210 : BitVec 32 := Scalar.extui v209
  let c0_i32_40 : BitVec 32 := 0#32
  let v211 : BitVec 1 := Scalar.cmpi .ne v210 c0_i32_40
  v211

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x32 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1024x1024_d1_w32 : S1024x1024.Iotas .tc 32 [1]
  inb_S1024x32_S1024x1_0_0 : ∀ a, (![0, 0] : Fin 2 → Nat) a + S1024x1.size a ≤ S1024x32.size a
  h_S1024x1 : 0 < S1024x1.numel
  broadcasts_S1024x1_S1024x1024 : S1024x1.Broadcasts S1024x1024
  natLt_1_32 : 1 < 32
  inb_S1024x32_S1024x1_0_1 : ∀ a, (![0, 1] : Fin 2 → Nat) a + S1024x1.size a ≤ S1024x32.size a
  inb_S1024x32_S1024x1_0_2 : ∀ a, (![0, 2] : Fin 2 → Nat) a + S1024x1.size a ≤ S1024x32.size a
  inb_S1024x32_S1024x1_0_3 : ∀ a, (![0, 3] : Fin 2 → Nat) a + S1024x1.size a ≤ S1024x32.size a
  inb_S1024x32_S1024x1_0_4 : ∀ a, (![0, 4] : Fin 2 → Nat) a + S1024x1.size a ≤ S1024x32.size a
  inb_S1024x32_S1024x1_0_5 : ∀ a, (![0, 5] : Fin 2 → Nat) a + S1024x1.size a ≤ S1024x32.size a
  inb_S1024x32_S1024x1_0_6 : ∀ a, (![0, 6] : Fin 2 → Nat) a + S1024x1.size a ≤ S1024x32.size a
  inb_S1024x32_S1024x1_0_7 : ∀ a, (![0, 7] : Fin 2 → Nat) a + S1024x1.size a ≤ S1024x32.size a
  inb_S1024x32_S1024x1_0_8 : ∀ a, (![0, 8] : Fin 2 → Nat) a + S1024x1.size a ≤ S1024x32.size a
  inb_S1024x32_S1024x1_0_9 : ∀ a, (![0, 9] : Fin 2 → Nat) a + S1024x1.size a ≤ S1024x32.size a
  inb_S1024x32_S1024x1_0_10 : ∀ a, (![0, 10] : Fin 2 → Nat) a + S1024x1.size a ≤ S1024x32.size a
  inb_S1024x32_S1024x1_0_11 : ∀ a, (![0, 11] : Fin 2 → Nat) a + S1024x1.size a ≤ S1024x32.size a
  inb_S1024x32_S1024x1_0_12 : ∀ a, (![0, 12] : Fin 2 → Nat) a + S1024x1.size a ≤ S1024x32.size a
  inb_S1024x32_S1024x1_0_13 : ∀ a, (![0, 13] : Fin 2 → Nat) a + S1024x1.size a ≤ S1024x32.size a
  inb_S1024x32_S1024x1_0_14 : ∀ a, (![0, 14] : Fin 2 → Nat) a + S1024x1.size a ≤ S1024x32.size a
  inb_S1024x32_S1024x1_0_15 : ∀ a, (![0, 15] : Fin 2 → Nat) a + S1024x1.size a ≤ S1024x32.size a
  inb_S1024x32_S1024x1_0_16 : ∀ a, (![0, 16] : Fin 2 → Nat) a + S1024x1.size a ≤ S1024x32.size a
  inb_S1024x32_S1024x1_0_17 : ∀ a, (![0, 17] : Fin 2 → Nat) a + S1024x1.size a ≤ S1024x32.size a
  inb_S1024x32_S1024x1_0_18 : ∀ a, (![0, 18] : Fin 2 → Nat) a + S1024x1.size a ≤ S1024x32.size a
  inb_S1024x32_S1024x1_0_19 : ∀ a, (![0, 19] : Fin 2 → Nat) a + S1024x1.size a ≤ S1024x32.size a
  inb_S1024x32_S1024x1_0_20 : ∀ a, (![0, 20] : Fin 2 → Nat) a + S1024x1.size a ≤ S1024x32.size a
  inb_S1024x32_S1024x1_0_21 : ∀ a, (![0, 21] : Fin 2 → Nat) a + S1024x1.size a ≤ S1024x32.size a
  inb_S1024x32_S1024x1_0_22 : ∀ a, (![0, 22] : Fin 2 → Nat) a + S1024x1.size a ≤ S1024x32.size a
  inb_S1024x32_S1024x1_0_23 : ∀ a, (![0, 23] : Fin 2 → Nat) a + S1024x1.size a ≤ S1024x32.size a
  inb_S1024x32_S1024x1_0_24 : ∀ a, (![0, 24] : Fin 2 → Nat) a + S1024x1.size a ≤ S1024x32.size a
  inb_S1024x32_S1024x1_0_25 : ∀ a, (![0, 25] : Fin 2 → Nat) a + S1024x1.size a ≤ S1024x32.size a
  inb_S1024x32_S1024x1_0_26 : ∀ a, (![0, 26] : Fin 2 → Nat) a + S1024x1.size a ≤ S1024x32.size a
  inb_S1024x32_S1024x1_0_27 : ∀ a, (![0, 27] : Fin 2 → Nat) a + S1024x1.size a ≤ S1024x32.size a
  inb_S1024x32_S1024x1_0_28 : ∀ a, (![0, 28] : Fin 2 → Nat) a + S1024x1.size a ≤ S1024x32.size a
  inb_S1024x32_S1024x1_0_29 : ∀ a, (![0, 29] : Fin 2 → Nat) a + S1024x1.size a ≤ S1024x32.size a
  inb_S1024x32_S1024x1_0_30 : ∀ a, (![0, 30] : Fin 2 → Nat) a + S1024x1.size a ≤ S1024x32.size a
  inb_S1024x32_S1024x1_0_31 : ∀ a, (![0, 31] : Fin 2 → Nat) a + S1024x1.size a ≤ S1024x32.size a
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  concatenates_S2048x256_S2048x256_S2048x512_d1 : Shape.Concatenates [S2048x256, S2048x256] S2048x512 1
  broadcasts_S2048x1_S2048x512 : S2048x1.Broadcasts S2048x512
  inb_S32x512_S32x512_0_0 : ∀ a, (![0, 0] : Fin 2 → Nat) a + S32x512.size a ≤ S32x512.size a
  h_S32x512 : 0 < S32x512.numel
  transposes_S32x512_p1_0_S512x32 : S32x512.Transposes [1, 0] S512x32
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S1x32_S1x32_0_0 : ∀ a, (![0, 0] : Fin 2 → Nat) a + S1x32.size a ≤ S1x32.size a
  h_S1x32 : 0 < S1x32.numel
  transposes_S1x32_p1_0_S32x1 : S1x32.Transposes [1, 0] S32x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  dot_S1024x1024_S1024x256_S1024x256_1_0_0_1_n_n_wf : DotDims.WF S1024x1024 S1024x256 S1024x256 [1] [0] [0] [1] [] []
  dot_S2048x512_S512x32_S2048x32_1_0_0_1_n_n_wf : DotDims.WF S2048x512 S512x32 S2048x32 [1] [0] [0] [1] [] []
  dot_S2048x32_S32x32_S2048x32_1_0_0_1_n_n_wf : DotDims.WF S2048x32 S32x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S32768x32.size a
  hwx0_0 : ∀ i : grid0.Coords, EltTy.bits .i32 = 32 ∨ (Rect.block (s := S32768x32) S1024x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S40960x256.size a
  hwx0_1 : ∀ i : grid0.Coords, EltTy.bits .bf16 = 32 ∨ (Rect.block (s := S40960x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S32768x256.size a
  hwx0_3 : ∀ i : grid0.Coords, EltTy.bits .f32 = 32 ∨ (Rect.block (s := S32768x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x32.size a ≤ S32768x32.size a
  hwx1_0 : ∀ i : grid1.Coords, EltTy.bits .i32 = 32 ∨ (Rect.block (s := S32768x32) S1024x32.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S40960x256.size a
  hwx1_1 : ∀ i : grid1.Coords, EltTy.bits .bf16 = 32 ∨ (Rect.block (s := S40960x256) S1024x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S32768x256.size a
  hwx1_3 : ∀ i : grid1.Coords, EltTy.bits .f32 = 32 ∨ (Rect.block (s := S32768x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S32768x256.size a
  hwx2_0 : ∀ i : grid2.Coords, EltTy.bits .f32 = 32 ∨ (Rect.block (s := S32768x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S32768x256.size a
  hwx2_1 : ∀ i : grid2.Coords, EltTy.bits .f32 = 32 ∨ (Rect.block (s := S32768x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S32768x1.size a
  hwx2_2 : ∀ i : grid2.Coords, EltTy.bits .f32 = 32 ∨ (Rect.block (s := S32768x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x512.size a ≤ S32x512.size a
  hwx2_3 : ∀ i : grid2.Coords, EltTy.bits .f32 = 32 ∨ (Rect.block (s := S32x512) S32x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32.size a ≤ S32.size a
  hwx2_6 : ∀ i : grid2.Coords, EltTy.bits .f32 = 32 ∨ (Rect.block (s := S32) S32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1.size a ≤ S1.size a
  hwx2_8 : ∀ i : grid2.Coords, EltTy.bits .f32 = 32 ∨ (Rect.block (s := S1) S1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x1.size a ≤ S32768x1.size a
  hwx2_9 : ∀ i : grid2.Coords, EltTy.bits .f32 = 32 ∨ (Rect.block (s := S32768x1) S2048x1.size (cc2_transform_9 i) (hinb2_9 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S32x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg10) S1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v3) S2048x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S32768x32 : Shape := ⟨2, ![32768, 32]⟩
abbrev S32768x1 : Shape := ⟨2, ![32768, 1]⟩
abbrev S40960x256 : Shape := ⟨2, ![40960, 256]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩
abbrev S32768x32x1 : Shape := ⟨3, ![32768, 32, 1]⟩
abbrev S32768x32x256 : Shape := ⟨3, ![32768, 32, 256]⟩
abbrev S32768x256 : Shape := ⟨2, ![32768, 256]⟩
abbrev S1x256 : Shape := ⟨2, ![1, 256]⟩
abbrev S32768x512 : Shape := ⟨2, ![32768, 512]⟩
abbrev S512x32 : Shape := ⟨2, ![512, 32]⟩
abbrev S32x1 : Shape := ⟨2, ![32, 1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S32768x32, .i32⟩
  | .hbm, ⟨1, _⟩ => ⟨S32768x32, .i32⟩
  | .hbm, ⟨2, _⟩ => ⟨S32768x1, .f32⟩
  | .hbm, ⟨3, _⟩ => ⟨S40960x256, .f32⟩
  | .hbm, ⟨4, _⟩ => ⟨S256, .f32⟩
  | .hbm, ⟨5, _⟩ => ⟨S32x512, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S_, .i32⟩
  | .hbm, ⟨12, _⟩ => ⟨S32768x32, .i32⟩
  | .hbm, ⟨13, _⟩ => ⟨S32768x32, .i1⟩
  | .hbm, ⟨14, _⟩ => ⟨S_, .i32⟩
  | .hbm, ⟨15, _⟩ => ⟨S32768x32, .i32⟩
  | .hbm, ⟨16, _⟩ => ⟨S32768x32, .i32⟩
  | .hbm, ⟨17, _⟩ => ⟨S32768x32, .i32⟩
  | .hbm, ⟨18, _⟩ => ⟨S32768x32x1, .i32⟩
  | .hbm, ⟨19, _⟩ => ⟨S32768x32x256, .f32⟩
  | .hbm, ⟨20, _⟩ => ⟨S_, .f32⟩
  | .hbm, ⟨21, _⟩ => ⟨S32768x256, .f32⟩
  | .hbm, ⟨22, _⟩ => ⟨S1x256, .f32⟩
  | .hbm, ⟨23, _⟩ => ⟨S32768x256, .f32⟩
  | .hbm, ⟨24, _⟩ => ⟨S32768x256, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32768x256, .f32⟩
  | .hbm, ⟨29, _⟩ => ⟨S32768x256, .f32⟩
  | .hbm, ⟨30, _⟩ => ⟨S_, .f32⟩
  | .hbm, ⟨31, _⟩ => ⟨S32768x256, .f32⟩
  | .hbm, ⟨32, _⟩ => ⟨S32768x256, .f32⟩
  | .hbm, ⟨33, _⟩ => ⟨S_, .i32⟩
  | .hbm, ⟨34, _⟩ => ⟨S32768x32, .i32⟩
  | .hbm, ⟨35, _⟩ => ⟨S32768x32, .i1⟩
  | .hbm, ⟨36, _⟩ => ⟨S_, .i32⟩
  | .hbm, ⟨37, _⟩ => ⟨S32768x32, .i32⟩
  | .hbm, ⟨38, _⟩ => ⟨S32768x32, .i32⟩
  | .hbm, ⟨39, _⟩ => ⟨S32768x32, .i32⟩
  | .hbm, ⟨40, _⟩ => ⟨S32768x32x1, .i32⟩
  | .hbm, ⟨41, _⟩ => ⟨S32768x32x256, .f32⟩
  | .hbm, ⟨42, _⟩ => ⟨S_, .f32⟩
  | .hbm, ⟨43, _⟩ => ⟨S32768x256, .f32⟩
  | .hbm, ⟨44, _⟩ => ⟨S1x256, .f32⟩
  | .hbm, ⟨45, _⟩ => ⟨S32768x256, .f32⟩
  | .hbm, ⟨46, _⟩ => ⟨S32768x256, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S32768x256, .f32⟩
  | .hbm, ⟨51, _⟩ => ⟨S32768x256, .f32⟩
  | .hbm, ⟨52, _⟩ => ⟨S_, .f32⟩
  | .hbm, ⟨53, _⟩ => ⟨S32768x256, .f32⟩
  | .hbm, ⟨54, _⟩ => ⟨S32768x256, .f32⟩
  | .hbm, ⟨55, _⟩ => ⟨S32768x512, .f32⟩
  | .hbm, ⟨56, _⟩ => ⟨S32768x512, .f32⟩
  | .hbm, ⟨57, _⟩ => ⟨S32768x512, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x512, .f32⟩
  | .hbm, ⟨62, _⟩ => ⟨S32768x512, .f32⟩
  | .hbm, ⟨63, _⟩ => ⟨S32768x512, .f32⟩
  | .hbm, ⟨64, _⟩ => ⟨S32768x512, .f32⟩
  | .hbm, ⟨65, _⟩ => ⟨S512x32, .f32⟩
  | .hbm, ⟨66, _⟩ => ⟨S32768x32, .f32⟩
  | .hbm, ⟨67, _⟩ => ⟨S1x32, .f32⟩
  | .hbm, ⟨68, _⟩ => ⟨S32768x32, .f32⟩
  | .hbm, ⟨69, _⟩ => ⟨S32768x32, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S32768x32, .f32⟩
  | .hbm, ⟨74, _⟩ => ⟨S32768x32, .f32⟩
  | .hbm, ⟨75, _⟩ => ⟨S_, .f32⟩
  | .hbm, ⟨76, _⟩ => ⟨S32768x32, .f32⟩
  | .hbm, ⟨77, _⟩ => ⟨S32768x32, .f32⟩
  | .hbm, ⟨78, _⟩ => ⟨S32x32, .f32⟩
  | .hbm, ⟨79, _⟩ => ⟨S32768x32, .f32⟩
  | .hbm, ⟨80, _⟩ => ⟨S1x32, .f32⟩
  | .hbm, ⟨81, _⟩ => ⟨S32768x32, .f32⟩
  | .hbm, ⟨82, _⟩ => ⟨S32768x32, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S32768x32, .f32⟩
  | .hbm, ⟨87, _⟩ => ⟨S32768x32, .f32⟩
  | .hbm, ⟨88, _⟩ => ⟨S_, .f32⟩
  | .hbm, ⟨89, _⟩ => ⟨S32768x32, .f32⟩
  | .hbm, ⟨90, _⟩ => ⟨S32768x32, .f32⟩
  | .hbm, ⟨91, _⟩ => ⟨S32x1, .f32⟩
  | .hbm, ⟨92, _⟩ => ⟨S32768x1, .f32⟩
  | .hbm, ⟨93, _⟩ => ⟨S1x1, .f32⟩
  | .hbm, ⟨94, _⟩ => ⟨S32768x1, .f32⟩
  | .hbm, ⟨95, _⟩ => ⟨S32768x1, .f32⟩
  | _, _ => ⟨S32768x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_c_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_cst_7 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_8 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_9 : Ref sig .tc := ⟨.hbm, 70, rfl⟩
abbrev main_cst_10 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_11 : Ref sig .tc := ⟨.hbm, 83, rfl⟩
abbrev main_cst_12 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩

abbrev nD : Nat := 1
abbrev τ : Topo := Topo.v7x

variable {F : FTy → Type} [FloatOps F]

class Facts₀ : Prop where
  bcast_S_S32768x32 : S_.BroadcastsInDim S32768x32 (![] : Fin 0 → Fin S32768x32.rank)
  bcast_S32768x32_S32768x32x1_0_1 : S32768x32.BroadcastsInDim S32768x32x1 (![0, 1] : Fin 2 → Fin S32768x32x1.rank)
  reducesTo_S32768x32x256_S32768x256_d1 : S32768x32x256.ReducesTo [1] S32768x256
  h_S_ : 0 < S_.numel
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  concatenates_S32768x256_S32768x256_S32768x512_d1 : Shape.Concatenates [S32768x256, S32768x256] S32768x512 1
  bcast_S32768x1_S32768x512_0_1 : S32768x1.BroadcastsInDim S32768x512 (![0, 1] : Fin 2 → Fin S32768x512.rank)
  bcast_S_S32768x1 : S_.BroadcastsInDim S32768x1 (![] : Fin 0 → Fin S32768x1.rank)
  transposes_S32x512_S512x32_1_0 : S32x512.Transposes [1, 0] S512x32
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  gather_S40960x256_S32768x32x1_S32768x32x256_2_0_n_n_0_2_1256_wf : GatherDims.WF S40960x256 S32768x32x1 S32768x32x256 [2] [0] [] [0] [] 2 ![1, 256]
  dot_S32768x512_S512x32_S32768x32_1_0_0_1_n_n_wf : DotDims.WF S32768x512 S512x32 S32768x32 [1] [0] [0] [1] [] []
  dot_S32768x32_S32x32_S32768x32_1_0_0_1_n_n_wf : DotDims.WF S32768x32 S32x32 S32768x32 [1] [0] [0] [1] [] []
  dot_S32768x32_S32x1_S32768x1_1_0_0_1_n_n_wf : DotDims.WF S32768x32 S32x1 S32768x1 [1] [0] [0] [1] [] []

variable [Facts₀]

def gather_S40960x256_S32768x32x1_S32768x32x256_2_0_n_n_0_2_1256 : GatherDims S40960x256 S32768x32x1 S32768x32x256 where
  offsetDims := [2]
  collapsedSliceDims := [0]
  operandBatchingDims := []
  startIndicesBatchingDims := []
  startIndexMap := [0]
  indexVectorDim := 2
  sliceSizes := ![1, 256]
  wf := gather_S40960x256_S32768x32x1_S32768x32x256_2_0_n_n_0_2_1256_wf
def dot_S32768x512_S512x32_S32768x32_1_0_0_1_n_n : DotDims S32768x512 S512x32 S32768x32 where
  lhsContracting := [1]
  rhsContracting := [0]
  lhsNonContracting := [0]
  rhsNonContracting := [1]
  lhsBatch := []
  rhsBatch := []
  wf := dot_S32768x512_S512x32_S32768x32_1_0_0_1_n_n_wf
def dot_S32768x32_S32x32_S32768x32_1_0_0_1_n_n : DotDims S32768x32 S32x32 S32768x32 where
  lhsContracting := [1]
  rhsContracting := [0]
  lhsNonContracting := [0]
  rhsNonContracting := [1]
  lhsBatch := []
  rhsBatch := []
  wf := dot_S32768x32_S32x32_S32768x32_1_0_0_1_n_n_wf
def dot_S32768x32_S32x1_S32768x1_1_0_0_1_n_n : DotDims S32768x32 S32x1 S32768x1 where
  lhsContracting := [1]
  rhsContracting := [0]
  lhsNonContracting := [0]
  rhsNonContracting := [1]
  lhsBatch := []
  rhsBatch := []
  wf := dot_S32768x32_S32x1_S32768x1_1_0_0_1_n_n_wf

class Facts : Prop extends Facts₀ where

variable [Facts]
-- ==== Proof.Ft0Shared.lean ====
/-
  The feature-transformer kernel of region 0 (the side whose indices are the program's first argument), what its
  body's runs are stated over: each window's block at a grid point, the two conditions on the reduction coordinate
  (first step: reset the accumulator; last step: add the bias, clip and emit), where the output window is idle, and
  the staging and scratch memrefs the body is called with. Everything is stated at the contents `V` the region finds.
-/
import proofs.«415106_j64158221467786_1_alg».proof.Proof.Gen.KernelIdeal.Launch
import proofs.«415106_j64158221467786_1_alg».proof.Proof.Gen.KernelIdeal.Skeleton
import proofs.«415106_j64158221467786_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The index block (window 0) is in its staging buffer at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the table block (window 1). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias (window 2), fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions on the reduction coordinate -/

/-- "This is the first reduction step": the accumulator is reset. -/
abbrev cond0_0 (i : grid0.Coords) : Prop := (Scalar.cmpi .ne (Scalar.extui (Scalar.cmpi .eq (BitVec.ofNat 32 (i 1).val) 0#32)) 0#32) = 1#1
/-- The grid is 32 × 40 in row-major order, so it holds at the points ≡ 0 (mod 40). -/
theorem hcond0_0 : ∀ t : Fin cfg0.N, cond0_0 (grid0.coords t) ↔ t.val % 40 = 0 :=
  (by decide +kernel : ∀ t : Fin grid0.N, cond0_0 (grid0.coords t) ↔ t.val % 40 = 0)

/-- "This is the last reduction step": the output block is emitted. -/
abbrev cond0_1 (i : grid0.Coords) : Prop := k0_cond2 i = 1#1
/-- It holds at the points ≡ 39 (mod 40). -/
theorem hcond0_1 : ∀ t : Fin cfg0.N, cond0_1 (grid0.coords t) ↔ t.val % 40 = 39 :=
  (by decide +kernel : ∀ t : Fin grid0.N, cond0_1 (grid0.coords t) ↔ t.val % 40 = 39)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last reduction step nothing is stored into the output window: it is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last reduction step the output window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1024x256 .f32 := (Memref.whole cc0_stg3_0 : Memref sig .tc .vmem S1024x256 .f32).view
abbrev ms0_0 (t : Fin cfg0.N) : Memref sig .tc .vmem S1024x32 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from one reduction step to the next. -/
abbrev scM0_0 : Memref sig .tc .vmem S1024x256 .f32 := Memref.whole cc0_scratch0
abbrev VS0_0 : View sig .tc .vmem S1024x256 .f32 := scM0_0.view

/-- Separating conjunction may be reordered: the second conjunct comes to the front. -/
theorem sep_front0 (P A R : sProp 𝕄) : iprop(P ∗ (A ∗ R)) = iprop(A ∗ (P ∗ R)) :=
  (BI.sep_assoc'.trans ((BI.sep_mono_l BI.sep_comm).trans BI.sep_assoc)).antisymm
    (BI.sep_assoc'.trans ((BI.sep_mono_l BI.sep_comm).trans BI.sep_assoc))

/-- The core's other scoped buffers (the staging buffers and the accumulator of the other two kernels), each whole at
    some contents: this kernel never touches them. -/
def scOthers0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg7_0), ((c : Thread nD τ).loc cc2_stg7_0) ↦{fullShare} f)
    ∗ (∃ f : Buf (Elt F) ((c : Thread nD τ).loc cc2_stg8_0), ((c : Thread nD τ).loc cc2_stg8_0) ↦{fullShare} f)
    ∗ (∃ f : Buf (Elt F) ((c : Thread nD τ).loc cc2_stg9_0), ((c : Thread nD τ).loc cc2_stg9_0) ↦{fullShare} f)
    ∗ (∃ f : Buf (Elt F) ((c : Thread nD τ).loc cc2_stg9_1), ((c : Thread nD τ).loc cc2_stg9_1) ↦{fullShare} f))

/-- The region's invariant with the accumulator as a memref owned at some contents, beside the untouched rest. -/
theorem PhiA0_eq (c : Dev nD) :
    (Pipeline.ΦA spec0 c : sProp 𝕄)
      = iprop(iprop((∃ d, owns (c : Thread nD τ) scM0_0 fullShare d) ∗ scOthers0 (F := F) c) ∗ (∃ r, prngReg c r)) := by
  unfold Pipeline.ΦA scOthers0; rw [scopedRest0_eq]; simp only [scM0_0, owns_whole]; (repeat rw [sep_front0 _ (iprop(∃ d : Buf (Elt F) ((c : Thread nD τ).loc cc0_scratch0), ((c : Thread nD τ).loc cc0_scratch0) ↦{fullShare} d)) _])
  rfl

end Cert.KernelIdeal.Hand

end
-- ==== Proof.Ft0RunA.lean ====
/-
  Region 0's feature-transformer body at a FIRST reduction step (and not the last): the accumulator is reset to zero, the step's one-hot product is added, nothing is stored into the output window.
-/
import proofs.«415106_j64158221467786_1_alg».proof.Proof.Gen.KernelIdeal.Launch
import proofs.«415106_j64158221467786_1_alg».proof.Proof.Gen.KernelIdeal.Skeleton
import proofs.«415106_j64158221467786_1_alg».proof.Proof.Gen.KernelIdeal.Points
import proofs.«415106_j64158221467786_1_alg».proof.Proof.Ft0Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces its stores leave in the output's staging memref and in the
    accumulator as the witness: on whole memrefs, the three inputs at their contents, the body runs to the continuation
    holding the inputs as they were and each written buffer with those pieces written. The pieces are found by running
    the body symbolically. -/
noncomputable def kernelRun0_A (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : cond0_0 i) (hc1 : ¬cond0_1 i)
    (x0 : Vec F S1024x32 .i32) (x1 : Vec F S1024x256 .bf16) (x2 : Vec F S256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__ft_kernel i arg2 harg2 arg3 harg3 arg4 harg4 arg5 harg5 arg6 harg6) K } := by
  refine ⟨[], ?_, fun xi3 E K => ?run⟩
  case run =>
    simp only [cc0__ft_kernel_eq_skeleton]; unfold cc0__ft_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Ft0RunB.lean ====
/-
  Region 0's feature-transformer body at a MIDDLE reduction step (neither first nor last): the step's one-hot product is added to the accumulator the step before left, nothing is stored into the output window.
-/
import proofs.«415106_j64158221467786_1_alg».proof.Proof.Gen.KernelIdeal.Launch
import proofs.«415106_j64158221467786_1_alg».proof.Proof.Gen.KernelIdeal.Skeleton
import proofs.«415106_j64158221467786_1_alg».proof.Proof.Gen.KernelIdeal.Points
import proofs.«415106_j64158221467786_1_alg».proof.Proof.Ft0RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces its stores leave in the output's staging memref and in the
    accumulator as the witness: on whole memrefs, the three inputs at their contents, the body runs to the continuation
    holding the inputs as they were and each written buffer with those pieces written. The pieces are found by running
    the body symbolically. -/
noncomputable def kernelRun0_B (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : ¬cond0_1 i)
    (x0 : Vec F S1024x32 .i32) (x1 : Vec F S1024x256 .bf16) (x2 : Vec F S256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__ft_kernel i arg2 harg2 arg3 harg3 arg4 harg4 arg5 harg5 arg6 harg6) K } := by
  refine ⟨[], ?_, fun xi3 E K => ?run⟩
  case run =>
    simp only [cc0__ft_kernel_eq_skeleton]; unfold cc0__ft_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.Ft0RunC.lean ====
/-
  Region 0's feature-transformer body at the LAST reduction step (and not the first): the step's one-hot product is added to the accumulator, then the accumulator plus the bias, clipped to [0, 1], is stored into the output window.
-/
import proofs.«415106_j64158221467786_1_alg».proof.Proof.Gen.KernelIdeal.Launch
import proofs.«415106_j64158221467786_1_alg».proof.Proof.Gen.KernelIdeal.Skeleton
import proofs.«415106_j64158221467786_1_alg».proof.Proof.Gen.KernelIdeal.Points
import proofs.«415106_j64158221467786_1_alg».proof.Proof.Ft0RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces its stores leave in the output's staging memref and in the
    accumulator as the witness: on whole memrefs, the three inputs at their contents, the body runs to the continuation
    holding the inputs as they were and each written buffer with those pieces written. The pieces are found by running
    the body symbolically. -/
noncomputable def kernelRun0_C (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : cond0_1 i)
    (x0 : Vec F S1024x32 .i32) (x1 : Vec F S1024x256 .bf16) (x2 : Vec F S256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__ft_kernel i arg2 harg2 arg3 harg3 arg4 harg4 arg5 harg5 arg6 harg6) K } := by
  refine ⟨?_, ?_, fun E K => ?run⟩
  case run =>
    simp only [cc0__ft_kernel_eq_skeleton]; unfold cc0__ft_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Ft0Region.lean ====
/-
  Region 0 (the feature transformer over the first index array): what the output window and the accumulator hold after
  every grid point, by recursion on the point — the accumulator is reset at the first of each row block's 40 reduction
  steps, grows by one 1024-row slab of the table at every step, and at the 40th the output block is emitted —, the
  proof data over it, and the body obligation: at every point the body, handed the blocks and the accumulator the point
  before left, leaves exactly these contents.
-/
import proofs.«415106_j64158221467786_1_alg».proof.Proof.Gen.KernelIdeal.Launch
import proofs.«415106_j64158221467786_1_alg».proof.Proof.Gen.KernelIdeal.Skeleton
import proofs.«415106_j64158221467786_1_alg».proof.Proof.Gen.KernelIdeal.Points
import proofs.«415106_j64158221467786_1_alg».proof.Proof.Ft0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- This case stores nothing into the output window (idle there, not written back): a placeholder nothing consults. -/
def out0_A_3 (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : cond0_0 i) (hc1 : ¬cond0_1 i)
    (x0 : Vec F S1024x32 .i32) (x1 : Vec F S1024x256 .bf16) (x2 : Vec F S256 .f32) : Vec F S1024x256 .f32 :=
  VO0_3.read (Elt F) (VO0_3.writes (Elt F) VO0_3.junk (kernelRun0_A c i arg2 harg2 arg3 harg3 arg4 harg4 arg5 harg5 arg6 harg6 hc0 hc1 x0 x1 x2).1)

/-- This case's stores into the accumulator cover it. -/
theorem scover0_A_0 (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : cond0_0 i) (hc1 : ¬cond0_1 i)
    (x0 : Vec F S1024x32 .i32) (x1 : Vec F S1024x256 .bf16) (x2 : Vec F S256 .f32) (y : S1024x256.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x256.size (by sl_kernel_rfl) y

/-- What this case leaves in the accumulator: its pieces read back. -/
def sout0_A_0 (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : cond0_0 i) (hc1 : ¬cond0_1 i)
    (x0 : Vec F S1024x32 .i32) (x1 : Vec F S1024x256 .bf16) (x2 : Vec F S256 .f32) : Vec F S1024x256 .f32 :=
  VS0_0.read (Elt F) (VS0_0.writes (Elt F) VS0_0.junk (kernelRun0_A c i arg2 harg2 arg3 harg3 arg4 harg4 arg5 harg5 arg6 harg6 hc0 hc1 x0 x1 x2).2.1)

/-- This case stores nothing into the output window (idle there, not written back): a placeholder nothing consults. -/
def out0_B_3 (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : ¬cond0_1 i)
    (x0 : Vec F S1024x32 .i32) (x1 : Vec F S1024x256 .bf16) (x2 : Vec F S256 .f32) (xs0 : Vec F S1024x256 .f32) : Vec F S1024x256 .f32 :=
  VO0_3.read (Elt F) (VO0_3.writes (Elt F) VO0_3.junk (kernelRun0_B c i arg2 harg2 arg3 harg3 arg4 harg4 arg5 harg5 arg6 harg6 hc0 hc1 x0 x1 x2 xs0).1)

/-- This case's stores into the accumulator cover it. -/
theorem scover0_B_0 (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : ¬cond0_1 i)
    (x0 : Vec F S1024x32 .i32) (x1 : Vec F S1024x256 .bf16) (x2 : Vec F S256 .f32) (xs0 : Vec F S1024x256 .f32) (y : S1024x256.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x256.size (by sl_kernel_rfl) y

/-- What this case leaves in the accumulator: its pieces read back. -/
def sout0_B_0 (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : ¬cond0_1 i)
    (x0 : Vec F S1024x32 .i32) (x1 : Vec F S1024x256 .bf16) (x2 : Vec F S256 .f32) (xs0 : Vec F S1024x256 .f32) : Vec F S1024x256 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- At the last step the one store into the output window covers its block. -/
theorem cover0_C_3 (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : cond0_1 i)
    (x0 : Vec F S1024x32 .i32) (x1 : Vec F S1024x256 .bf16) (x2 : Vec F S256 .f32) (xs0 : Vec F S1024x256 .f32) (y : S1024x256.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x256.size (by sl_kernel_rfl) y

/-- What this case leaves in the output window's staging buffer: its pieces read back. -/
def out0_C_3 (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : cond0_1 i)
    (x0 : Vec F S1024x32 .i32) (x1 : Vec F S1024x256 .bf16) (x2 : Vec F S256 .f32) (xs0 : Vec F S1024x256 .f32) : Vec F S1024x256 .f32 :=
  VO0_3.read (Elt F) (VO0_3.writes (Elt F) VO0_3.junk (kernelRun0_C c i arg2 harg2 arg3 harg3 arg4 harg4 arg5 harg5 arg6 harg6 hc0 hc1 x0 x1 x2 xs0).1)

/-- This case's stores into the accumulator cover it. -/
theorem scover0_C_0 (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : cond0_1 i)
    (x0 : Vec F S1024x32 .i32) (x1 : Vec F S1024x256 .bf16) (x2 : Vec F S256 .f32) (xs0 : Vec F S1024x256 .f32) (y : S1024x256.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x256.size (by sl_kernel_rfl) y

/-- What this case leaves in the accumulator: its pieces read back. -/
def sout0_C_0 (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : cond0_1 i)
    (x0 : Vec F S1024x32 .i32) (x1 : Vec F S1024x256 .bf16) (x2 : Vec F S256 .f32) (xs0 : Vec F S1024x256 .f32) : Vec F S1024x256 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output window and the accumulator hold after each point -/

/-- The accumulation: after the body at position `n`, the pair (output window's staging buffer, accumulator). The case
    is selected by the position modulo 40; the middle and last steps read the accumulator the step before left. -/
def outsAt0 (c : Dev nD) : (n : ℕ) → n < cfg0.N → Vec F S1024x256 .f32 × Vec F S1024x256 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 40 = 0 then
      if h1 : (n + 1) % 40 = 39 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 40 = 39 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first step. -/
theorem outsAt0_A (c : Dev nD) (t : Fin cfg0.N) (h0 : t.val % 40 = 0) (h1 : ¬t.val % 40 = 39) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a middle step: over what the step before left. -/
theorem outsAt0_B (c : Dev nD) (t : Fin cfg0.N) (h0 : ¬t.val % 40 = 0) (h1 : ¬t.val % 40 = 39) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the step before left. -/
theorem outsAt0_C (c : Dev nD) (t : Fin cfg0.N) (h0 : ¬t.val % 40 = 0) (h1 : t.val % 40 = 39) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region (every scoped
    buffer at anything); afterwards the accumulator at what the point before left, the other scoped buffers at anything. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ scOthers0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ scOthers0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ scOthers0 (F := F) c) ∗ (∃ r, prngReg c r)) := by
  cases n with
  | zero => exact absurd rfl hz
  | succ n => rfl

/-! ## The proof data -/

/-- The proof data of region 0 on core `c`: the arrays as the region finds them; after the body at point `t` each
    input's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]

set_option maxHeartbeats 4800000 in
/-- The body at any point. The position modulo 40 says which case the point is in; the invariant hands the body the
    accumulator at what the point before left (at anything before the first point) and takes it back at this point's
    contents; the output window is handed back untouched away from the last step and with the emitted block at it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 1280 := lt_of_lt_of_eq t.isLt (show cfg0.N = 1280 from N_0)
  by_cases h0 : t.val % 40 = 0
  · have h1 : ¬t.val % 40 = 39 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 40 = 39
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 1280 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, HR⟩, Hg⟩
  isplitl [HS0 HR]
  · isplitl [HS0]
    · iexists _; iexact HS0
    iexact HR
  iexact Hg

end Cert.KernelIdeal.Hand

end
-- ==== Proof.MlpRegion.lean ====
/- Region 2 of the kernel program (the MLP call on a grid of 16 row blocks of 2048 rows): the frame half, at a
   parameter `V`, the TensorCore's buffer contents when the region is entered. Per window: its block at a point
   read off its array; for the nine inputs, that the current staging buffer holds that block at every point,
   fetched there or not (the six weight windows are fetched once, their block index never moves); what the body
   leaves in the output's staging buffer, as the one whole-buffer store over the payloads of the nine loads; the
   body's triple; the pipeline's proof data and its body obligation at a generic point. -/
import proofs.«415106_j64158221467786_1_alg».proof.Proof.Gen.KernelIdeal.Launch
import proofs.«415106_j64158221467786_1_alg».proof.Proof.Gen.KernelIdeal.Skeleton
import proofs.«415106_j64158221467786_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2048 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: where the window is not fetched its block
    index has not moved, so the previous point's block is this point's; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: where the window is not fetched its block
    index has not moved, so the previous point's block is this point's; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: where the window is not fetched its block
    index has not moved, so the previous point's block is this point's; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: where the window is not fetched its block
    index has not moved, so the previous point's block is this point's; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: where the window is not fetched its block
    index has not moved, so the previous point's block is this point's; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place: where the window is not fetched its block
    index has not moved, so the previous point's block is this point's; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place: where the window is not fetched its block
    index has not moved, so the previous point's block is this point's; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s and whose body leaves the block in place: where the window is not fetched its block
    index has not moved, so the previous point's block is this point's; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof
    data whose array is `V`'s and whose body leaves the block in place: where the window is not fetched its block
    index has not moved, so the previous point's block is this point's; the window is uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2048x256 := Rect.unit (s := S2048x256) ![0, 0] S2048x256.size inb_S2048x256_S2048x256_0_0
abbrev r2_1 : Rect S2048x1 := Rect.unit (s := S2048x1) ![0, 0] S2048x1.size inb_S2048x1_S2048x1_0_0
abbrev r2_2 : Rect S32x512 := Rect.unit (s := S32x512) ![0, 0] S32x512.size inb_S32x512_S32x512_0_0
abbrev r2_3 : Rect S32 := Rect.unit (s := S32) ![0] S32.size inb_S32_S32_0
abbrev r2_4 : Rect S32x32 := Rect.unit (s := S32x32) ![0, 0] S32x32.size inb_S32x32_S32x32_0_0
abbrev r2_5 : Rect S1x32 := Rect.unit (s := S1x32) ![0, 0] S1x32.size inb_S1x32_S1x32_0_0
abbrev r2_6 : Rect S1 := Rect.unit (s := S1) ![0] S1.size inb_S1_S1_0

/-! ## What the body leaves in the output window's buffer -/

/-- Window 9's staging buffer after the body, from the input windows' blocks: its one store, of the whole buffer,
    whose payload is the last layer's sum over the second hidden layer (itself a payload of the first seven loads)
    and the last two loads. -/
def out2_9 (x0 x1 : Vec F S2048x256 .f32) (x2 : Vec F S2048x1 .f32) (x3 : Vec F S32x512 .f32) (x4 : Vec F S32 .f32)
    (x5 : Vec F S32x32 .f32) (x6 : Vec F S32 .f32) (x7 : Vec F S1x32 .f32) (x8 : Vec F S1 .f32) : Vec F S2048x1 .f32 :=
  View.canon [⟨r2_1, k2_pay1 (k2_pay2 (View.ld x0 r2_0) (View.ld x1 r2_0) (View.ld x2 r2_1) (View.ld x3 r2_2) (View.ld x4 r2_3)
    (View.ld x5 r2_4) (View.ld x6 r2_3)) (View.ld x7 r2_5) (View.ld x8 r2_6)⟩]

/-- The one store is of the whole buffer, so it covers it. -/
theorem cover2_9 (p0 : Vec F S2048x1 .f32) (y : S2048x1.Idx) :
    ∃ pc ∈ ([⟨r2_1, p0⟩] : List (View.Piece (Elt F) S2048x1 .f32)), y ∈ pc.1.set :=
  View.cover_of_tiled [⟨r2_1, p0⟩] S2048x1.size (by rfl) y

/-! ## The body's triple -/

set_option maxHeartbeats 1000000 in
/-- The kernel body on whole staging memrefs, the nine inputs' at read contents `xW` and the output's at anything,
    runs to the continuation holding the inputs' as they were and the output's at `out2_9` of the inputs': seven
    loads and the hidden layers' payload in the first part, then two loads, a load of the output's buffer whose
    value nothing reads, and the one store. -/
theorem sound_kernel2 (c : Dev nD) (E : Set ℕ) (i : grid2.Coords) (arg1 : Memref sig .tc .vmem S2048x256 .f32) (harg1 : arg1.IsWhole) (arg2 : Memref sig .tc .vmem S2048x256 .f32) (harg2 : arg2.IsWhole) (arg3 : Memref sig .tc .vmem S2048x1 .f32) (harg3 : arg3.IsWhole) (arg4 : Memref sig .tc .vmem S32x512 .f32) (harg4 : arg4.IsWhole) (arg5 : Memref sig .tc .vmem S32 .f32) (harg5 : arg5.IsWhole) (arg6 : Memref sig .tc .vmem S32x32 .f32) (harg6 : arg6.IsWhole) (arg7 : Memref sig .tc .vmem S32 .f32) (harg7 : arg7.IsWhole) (arg8 : Memref sig .tc .vmem S1x32 .f32) (harg8 : arg8.IsWhole) (arg9 : Memref sig .tc .vmem S1 .f32) (harg9 : arg9.IsWhole) (arg10 : Memref sig .tc .vmem S2048x1 .f32) (harg10 : arg10.IsWhole)
    (x0 x1 : Vec F S2048x256 .f32) (x2 : Vec F S2048x1 .f32) (x3 : Vec F S32x512 .f32) (x4 : Vec F S32 .f32) (x5 : Vec F S32x32 .f32) (x6 : Vec F S32 .f32) (x7 : Vec F S1x32 .f32) (x8 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of the region's pipeline on core `c`: the arrays as the region finds them; after the body at
    point `t` each input's buffer at its block and the output's at `out2_9` of the nine input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.MainRun.lean ====
/-
  The run of @main, from the launch to the return. One host operation converts the feature table to bf16; then three
  kernel regions run back to back: the feature transformer over the first index array, the same over the second, and
  the multilayer perceptron over their two results. The buffer contents at every boundary between two of these are
  named by a fold from the launch memory: a host operation's result by the operation's function, a region's arrays by
  what its write-backs leave, every other buffer as it was. Each region is entered from the whole set of unscoped
  buffers at the boundary's contents and left at the next boundary's; the launch over the four segments then says that
  every execution terminates with the unscoped buffers at the last boundary's contents. Read at the argument arrays the
  fold walks back to the launch memory (no operation and no region writes an argument); read at the result it is what
  the last region's write-backs leave.
-/
import proofs.«415106_j64158221467786_1_alg».proof.Proof.Gen.KernelIdeal.Launch
import proofs.«415106_j64158221467786_1_alg».proof.Proof.Gen.KernelIdeal.Skeleton
import proofs.«415106_j64158221467786_1_alg».proof.Proof.Gen.KernelIdeal.Points
import proofs.«415106_j64158221467786_1_alg».proof.Proof.Ft0Region
import proofs.«415106_j64158221467786_1_alg».proof.Proof.Ft1Region
import proofs.«415106_j64158221467786_1_alg».proof.Proof.MlpRegion
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the host operation (the first region's entry): the table's bf16 copy written, everything else as launched. -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b

/-- At the first region's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the second region's entry). -/
abbrev V2 : (c : Dev nD) → (b : Ref sig .tc) → Buf (Elt F) ((c : Thread nD τ).loc b) := fun c b => W2 m ρ c b
/-- At the first region's exit each of its arrays holds what the pipeline leaves and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the third region's entry). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At the third region's exit: what @main returns from. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### One step of the fold at a buffer the step does not write -/

/-- The host operation writes the table's bf16 copy only. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    repeat' apply And.intro
    all_goals exact StableHlo.devRef_ne_of_ne hb))
/-- An input window's array is never written back: the first region leaves it as entered, -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- the second, -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
/-- and the third. -/
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))

/-! ### The arguments end as launched: the host operation writes none and no region writes one (a region reads it
    through an input window or bypasses it), so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_in m ρ c 0 rfl
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_in m ρ c 0 rfl
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_in m ρ c 2 rfl
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_in m ρ c 2 rfl
    _ = W1 m ρ c (Proc.devRef .tc main_arg4) := W2_in m ρ c 2 rfl
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_in m ρ c 3 rfl
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_in m ρ c 4 rfl
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_in m ρ c 5 rfl
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_in m ρ c 6 rfl
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_in m ρ c 7 rfl
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_in m ρ c 8 rfl
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

/-! ### What each region is entered with, and what the last leaves: the value hooks -/

/-- The result is what the third region's write-backs leave in its output array. -/
theorem W4_main_v3 (c : Dev nD) : W4 m ρ c (Proc.devRef .tc main_v3) = (dat2 (V3 m ρ) c).arrAt 9 cfg2.N :=
  W4_arr m ρ c 9

/-- The third region reads the first region's output as that region's write-backs left it (the second region bypasses it), -/
theorem V3_main_v1 (c : Dev nD) : V3 m ρ c main_v1 = (dat0 (V1 m ρ) c).arrAt 3 cfg0.N :=
  (W3_of_ne m ρ c main_v1 (by decide)).trans (W2_arr m ρ c 3)
/-- the second region's output as that region's write-backs left it, -/
theorem V3_main_v2 (c : Dev nD) : V3 m ρ c main_v2 = (dat1 (V2 m ρ) c).arrAt 3 cfg1.N :=
  W3_arr m ρ c 3
/-- and the arguments it reads as launched. -/
theorem V3_main_arg2 (c : Dev nD) : V3 m ρ c main_arg2 = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl
theorem V3_main_arg5 (c : Dev nD) : V3 m ρ c main_arg5 = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl
theorem V3_main_arg6 (c : Dev nD) : V3 m ρ c main_arg6 = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl
theorem V3_main_arg7 (c : Dev nD) : V3 m ρ c main_arg7 = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl
theorem V3_main_arg8 (c : Dev nD) : V3 m ρ c main_arg8 = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl
theorem V3_main_arg9 (c : Dev nD) : V3 m ρ c main_arg9 = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl
theorem V3_main_arg10 (c : Dev nD) : V3 m ρ c main_arg10 = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

/-- The second region reads its index array and the bias as launched, -/
theorem V2_main_arg1 (c : Dev nD) : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl
theorem V2_main_arg4 (c : Dev nD) : V2 m ρ c main_arg4 = m ((c : Thread nD τ).loc main_arg4) :=
  calc W2 m ρ c (Proc.devRef .tc main_arg4)
    _ = W1 m ρ c (Proc.devRef .tc main_arg4) := W2_in m ρ c 2 rfl
    _ = W0 m ρ c (Proc.devRef .tc main_arg4) := W1_of_ne m ρ c main_arg4 (by decide)
    _ = m ((c : Thread nD τ).loc main_arg4) := rfl
/-- and the table's bf16 copy as the first region found it (an input window there). -/
theorem V2_main_v0 (c : Dev nD) : V2 m ρ c main_v0 = V1 m ρ c main_v0 :=
  W2_in m ρ c 1 rfl

/-- The first region reads its index array and the bias as launched, -/
theorem V1_main_arg0 (c : Dev nD) : V1 m ρ c main_arg0 = m ((c : Thread nD τ).loc main_arg0) :=
  calc W1 m ρ c (Proc.devRef .tc main_arg0)
    _ = W0 m ρ c (Proc.devRef .tc main_arg0) := W1_of_ne m ρ c main_arg0 (by decide)
    _ = m ((c : Thread nD τ).loc main_arg0) := rfl
theorem V1_main_arg4 (c : Dev nD) : V1 m ρ c main_arg4 = m ((c : Thread nD τ).loc main_arg4) :=
  calc W1 m ρ c (Proc.devRef .tc main_arg4)
    _ = W0 m ρ c (Proc.devRef .tc main_arg4) := W1_of_ne m ρ c main_arg4 (by decide)
    _ = m ((c : Thread nD τ).loc main_arg4) := rfl
/-- and the table converted to bf16: the host operation's function applied to the launch contents of the table. -/
theorem V1_main_v0 (c : Dev nD) :
    V1 m ρ c main_v0 = ((truncf .bf16 · bitsLt_bf16_f32) : (⟨S40960x256, .f32⟩ : BufTy).Contents (Elt F) → (⟨S40960x256, .bf16⟩ : BufTy).Contents (Elt F)) (m ((c : Thread nD τ).loc main_arg3)) := by
  dsimp only [V1, W1, hostOps0]
  after_results

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A line of host operations as a segment over the unscoped references from the contents `W`, `R` riding along: it
    runs to those references at the contents the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The host operation allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- The first region over the thread state: entered from every unscoped buffer at `W1`, left at `W2`. Its arrays
    are split out of the unscoped buffers at entry and put back at the exit contents; the generator register and the
    scoped buffers no window stages go into the region's invariant and come back out; nothing is owed; the kernel has
    no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second region over the thread state: entered from every unscoped buffer at `W2`, left at `W3`. Its arrays
    are split out of the unscoped buffers at entry and put back at the exit contents; the generator register and the
    scoped buffers no window stages go into the region's invariant and come back out; nothing is owed; the kernel has
    no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The third region over the thread state: entered from every unscoped buffer at `W3`, left at `W4`. Its arrays
    are split out of the unscoped buffers at entry and put back at the exit contents; the generator register and the
    scoped buffers no window stages go into the region's invariant and come back out; nothing is owed; the kernel has
    no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: the host operation from the launch contents, then the three regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main is the run of the segments: it is the chain of its items, and the segments' run is the same chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and in every final state each unscoped buffer holds the last boundary's contents `W4`: the launch
    over the four segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every execution terminates and every final state has the eleven argument arrays as launched — the run
    read at each argument's buffer, where the last boundary's contents walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c)⟩)
    (run_all m ρ)

end Cert.KernelIdeal.Hand

end
-- ==== Proof.FtStep.lean ====
/-
  One reduction step of the feature transformer, as a function of what the body reads.

  A step takes the block's 32 index columns, one slab of 1024 table rows and the accumulator before the step. It counts,
  for every row of the block and every row number of the slab, how many of the 32 indices name that row number, multiplies
  the counts with the slab and adds the product to the accumulator. The definition composes the body's own arithmetic in
  the order the body performs it; each index column is the block read through the one-column rectangle at that column.
-/
import proofs.«415106_j64158221467786_1_alg».proof.Proof.Gen.KernelIdeal.Skeleton
import Idealize.ShloMosaic.Lib.Pipeline.FrameBody

noncomputable section

namespace Cert.KernelIdeal.FtValue

open Cert.KernelIdeal Cert.KernelIdeal.Gen Idealize.ShloMosaic Idealize.SL.Sem

/-- One reduction step: the accumulator after the step, from the index block, the table slab and the accumulator before. -/
def stepAcc0 {F : FTy → Type} [FloatOps F] (i : grid0.Coords) (x0 : Vec F S1024x32 .i32) (x1 : Vec F S1024x256 .bf16)
    (acc : Vec F S1024x256 .f32) : Vec F S1024x256 .f32 :=
  k0_pay1 (k0_pay4 i)
    (k0_pay10 (k0_pay4 i)
      (k0_pay8 (k0_pay4 i)
        (k0_pay7 (k0_pay4 i)
          (k0_pay5 i
            (View.ld x0 (Rect.unit (s := S1024x32) ![0, 0] S1024x1.size inb_S1024x32_S1024x1_0_0))
            (View.ld x0 (Rect.unit (s := S1024x32) ![0, 1] S1024x1.size inb_S1024x32_S1024x1_0_1))
            (View.ld x0 (Rect.unit (s := S1024x32) ![0, 2] S1024x1.size inb_S1024x32_S1024x1_0_2))
            (View.ld x0 (Rect.unit (s := S1024x32) ![0, 3] S1024x1.size inb_S1024x32_S1024x1_0_3))
            (View.ld x0 (Rect.unit (s := S1024x32) ![0, 4] S1024x1.size inb_S1024x32_S1024x1_0_4)))
          (k0_pay6 i (View.ld x0 (Rect.unit (s := S1024x32) ![0, 5] S1024x1.size inb_S1024x32_S1024x1_0_5)))
          (View.ld x0 (Rect.unit (s := S1024x32) ![0, 6] S1024x1.size inb_S1024x32_S1024x1_0_6))
          (View.ld x0 (Rect.unit (s := S1024x32) ![0, 7] S1024x1.size inb_S1024x32_S1024x1_0_7))
          (View.ld x0 (Rect.unit (s := S1024x32) ![0, 8] S1024x1.size inb_S1024x32_S1024x1_0_8))
          (View.ld x0 (Rect.unit (s := S1024x32) ![0, 9] S1024x1.size inb_S1024x32_S1024x1_0_9))
          (View.ld x0 (Rect.unit (s := S1024x32) ![0, 10] S1024x1.size inb_S1024x32_S1024x1_0_10))
          (View.ld x0 (Rect.unit (s := S1024x32) ![0, 11] S1024x1.size inb_S1024x32_S1024x1_0_11))
          (View.ld x0 (Rect.unit (s := S1024x32) ![0, 12] S1024x1.size inb_S1024x32_S1024x1_0_12)))
        (View.ld x0 (Rect.unit (s := S1024x32) ![0, 13] S1024x1.size inb_S1024x32_S1024x1_0_13))
        (View.ld x0 (Rect.unit (s := S1024x32) ![0, 14] S1024x1.size inb_S1024x32_S1024x1_0_14))
        (View.ld x0 (Rect.unit (s := S1024x32) ![0, 15] S1024x1.size inb_S1024x32_S1024x1_0_15))
        (View.ld x0 (Rect.unit (s := S1024x32) ![0, 16] S1024x1.size inb_S1024x32_S1024x1_0_16))
        (View.ld x0 (Rect.unit (s := S1024x32) ![0, 17] S1024x1.size inb_S1024x32_S1024x1_0_17))
        (View.ld x0 (Rect.unit (s := S1024x32) ![0, 18] S1024x1.size inb_S1024x32_S1024x1_0_18))
        (View.ld x0 (Rect.unit (s := S1024x32) ![0, 19] S1024x1.size inb_S1024x32_S1024x1_0_19)))
      (k0_pay9 (k0_pay4 i) (View.ld x0 (Rect.unit (s := S1024x32) ![0, 20] S1024x1.size inb_S1024x32_S1024x1_0_20)))
      (View.ld x0 (Rect.unit (s := S1024x32) ![0, 21] S1024x1.size inb_S1024x32_S1024x1_0_21))
      (View.ld x0 (Rect.unit (s := S1024x32) ![0, 22] S1024x1.size inb_S1024x32_S1024x1_0_22))
      (View.ld x0 (Rect.unit (s := S1024x32) ![0, 23] S1024x1.size inb_S1024x32_S1024x1_0_23))
      (View.ld x0 (Rect.unit (s := S1024x32) ![0, 24] S1024x1.size inb_S1024x32_S1024x1_0_24))
      (View.ld x0 (Rect.unit (s := S1024x32) ![0, 25] S1024x1.size inb_S1024x32_S1024x1_0_25))
      (View.ld x0 (Rect.unit (s := S1024x32) ![0, 26] S1024x1.size inb_S1024x32_S1024x1_0_26))
      (View.ld x0 (Rect.unit (s := S1024x32) ![0, 27] S1024x1.size inb_S1024x32_S1024x1_0_27)))
    (View.ld x0 (Rect.unit (s := S1024x32) ![0, 28] S1024x1.size inb_S1024x32_S1024x1_0_28))
    (View.ld x0 (Rect.unit (s := S1024x32) ![0, 29] S1024x1.size inb_S1024x32_S1024x1_0_29))
    (View.ld x0 (Rect.unit (s := S1024x32) ![0, 30] S1024x1.size inb_S1024x32_S1024x1_0_30))
    (View.ld x0 (Rect.unit (s := S1024x32) ![0, 31] S1024x1.size inb_S1024x32_S1024x1_0_31))
    acc x1

end Cert.KernelIdeal.FtValue
-- ==== Proof.Spec.lean ====
/-
  What both programs compute, as plain functions on the extended reals.

  A position has 32 active features per side, each a row number of the 40960 × 256 table. The accumulator of a side is
  the sum of the named rows plus the bias, clipped to [0, 1] entry by entry. The side to move (a 0/1 weight `s`) orders
  the two accumulators into 512 mixed features `s · (w ‖ b) + (1 − s) · (b ‖ w)`, which three affine layers
  (512 → 32 → 32 → 1, the first two followed by the same clipping) map to the evaluation.
  Every sum is a finite sum in the extended reals; its order and grouping do not matter there.
-/
import Idealize.ShloMosaic.PureOps.Ideal
import Idealize.ShloMosaic.Lib.ValueIdx

noncomputable section

namespace Cert.Spec

open Idealize.ShloMosaic Idealize.ShloMosaic.ValueIdx

/-- The two float literals both programs carry, as the extended reals their words denote: 0.0 and 1.0. -/
def lit0 : EReal := Ideal.ofBits .f32 0x00000000#32
def lit1 : EReal := Ideal.ofBits .f32 0x3F800000#32

/-- Clipping to [0, 1] as both programs spell it: the minimum of 1 with the maximum of 0 and `x`. -/
def clip01 (x : EReal) : EReal := min lit1 (max lit0 x)

/-- The table row a word names: its value when that is a row number (else the last row — a case the precondition
    excludes, kept only to make the function total). -/
def rowOf (w : BitVec 32) : Fin 40960 := ⟨min w.toNat 40959, by omega⟩

theorem rowOf_val {w : BitVec 32} (h : w.toNat < 40960) : (rowOf w).val = w.toNat := by
  simp only [rowOf]; omega

/-- One entry of a side's accumulator: column `h` of the 32 named rows, summed, plus the bias, clipped. -/
def ftEntry (idxrow : Fin 32 → BitVec 32) (ftw : (⟨2, ![40960, 256]⟩ : Shape).Idx → EReal)
    (ftb : (⟨1, ![256]⟩ : Shape).Idx → EReal) (h : Fin 256) : EReal :=
  clip01 ((∑ a : Fin 32, ftw (ix2 (rowOf (idxrow a)) h)) + ftb (ix1 h))

/-- A side's accumulator for every position. -/
def ftSpec (idx : (⟨2, ![32768, 32]⟩ : Shape).Idx → BitVec 32) (ftw : (⟨2, ![40960, 256]⟩ : Shape).Idx → EReal)
    (ftb : (⟨1, ![256]⟩ : Shape).Idx → EReal) : (⟨2, ![32768, 256]⟩ : Shape).Idx → EReal :=
  fun j => ftEntry (fun a => idx (ix2 (j 0) a)) ftw ftb (j 1)

/-- The 512 mixed features of one position: `s · (w ‖ b) + (1 − s) · (b ‖ w)`. -/
def mixRow (wrow brow : Fin 256 → EReal) (s : EReal) (j : Fin 512) : EReal :=
  s * (if h : j.val < 256 then wrow ⟨j.val, h⟩ else brow ⟨j.val - 256, by omega⟩)
    + (lit1 - s) * (if h : j.val < 256 then brow ⟨j.val, h⟩ else wrow ⟨j.val - 256, by omega⟩)

/-- The first layer: 512 → 32, affine then clipped. The weight matrix is stored output-major. -/
def layer1 (x : Fin 512 → EReal) (l1w : (⟨2, ![32, 512]⟩ : Shape).Idx → EReal) (l1b : (⟨1, ![32]⟩ : Shape).Idx → EReal)
    (o : Fin 32) : EReal :=
  clip01 ((∑ k : Fin 512, x k * l1w (ix2 o k)) + l1b (ix1 o))

/-- The second layer: 32 → 32, affine then clipped. -/
def layer2 (x : Fin 32 → EReal) (l2w : (⟨2, ![32, 32]⟩ : Shape).Idx → EReal) (l2b : (⟨1, ![32]⟩ : Shape).Idx → EReal)
    (o : Fin 32) : EReal :=
  clip01 ((∑ k : Fin 32, x k * l2w (ix2 o k)) + l2b (ix1 o))

/-- The output layer: 32 → 1, affine. -/
def layer3 (x : Fin 32 → EReal) (l3w : (⟨2, ![1, 32]⟩ : Shape).Idx → EReal) (l3b : (⟨1, ![1]⟩ : Shape).Idx → EReal) : EReal :=
  (∑ k : Fin 32, x k * l3w (ix2 (0 : Fin 1) k)) + l3b (ix1 (0 : Fin 1))

/-- The evaluation of one position from its two accumulator rows and its side to move. -/
def mlpRow (wrow brow : Fin 256 → EReal) (s : EReal)
    (l1w : (⟨2, ![32, 512]⟩ : Shape).Idx → EReal) (l1b : (⟨1, ![32]⟩ : Shape).Idx → EReal)
    (l2w : (⟨2, ![32, 32]⟩ : Shape).Idx → EReal) (l2b : (⟨1, ![32]⟩ : Shape).Idx → EReal)
    (l3w : (⟨2, ![1, 32]⟩ : Shape).Idx → EReal) (l3b : (⟨1, ![1]⟩ : Shape).Idx → EReal) : EReal :=
  layer3 (layer2 (layer1 (mixRow wrow brow s) l1w l1b) l2w l2b) l3w l3b

/-- The evaluation of every position from the two accumulator arrays. -/
def mlpSpec (w b : (⟨2, ![32768, 256]⟩ : Shape).Idx → EReal) (stm : (⟨2, ![32768, 1]⟩ : Shape).Idx → EReal)
    (l1w : (⟨2, ![32, 512]⟩ : Shape).Idx → EReal) (l1b : (⟨1, ![32]⟩ : Shape).Idx → EReal)
    (l2w : (⟨2, ![32, 32]⟩ : Shape).Idx → EReal) (l2b : (⟨1, ![32]⟩ : Shape).Idx → EReal)
    (l3w : (⟨2, ![1, 32]⟩ : Shape).Idx → EReal) (l3b : (⟨1, ![1]⟩ : Shape).Idx → EReal) :
    (⟨2, ![32768, 1]⟩ : Shape).Idx → EReal :=
  fun j => mlpRow (fun h => w (ix2 (j 0) h)) (fun h => b (ix2 (j 0) h)) (stm (ix2 (j 0) (0 : Fin 1))) l1w l1b l2w l2b l3w l3b

/-- The whole network: both sides' accumulators, then the evaluation. -/
def netSpec (idxw idxb : (⟨2, ![32768, 32]⟩ : Shape).Idx → BitVec 32) (stm : (⟨2, ![32768, 1]⟩ : Shape).Idx → EReal)
    (ftw : (⟨2, ![40960, 256]⟩ : Shape).Idx → EReal) (ftb : (⟨1, ![256]⟩ : Shape).Idx → EReal)
    (l1w : (⟨2, ![32, 512]⟩ : Shape).Idx → EReal) (l1b : (⟨1, ![32]⟩ : Shape).Idx → EReal)
    (l2w : (⟨2, ![32, 32]⟩ : Shape).Idx → EReal) (l2b : (⟨1, ![32]⟩ : Shape).Idx → EReal)
    (l3w : (⟨2, ![1, 32]⟩ : Shape).Idx → EReal) (l3b : (⟨1, ![1]⟩ : Shape).Idx → EReal) :
    (⟨2, ![32768, 1]⟩ : Shape).Idx → EReal :=
  mlpSpec (ftSpec idxw ftw ftb) (ftSpec idxb ftw ftb) stm l1w l1b l2w l2b l3w l3b

end Cert.Spec

end
-- ==== Proof.FtPayload.lean ====
/-
  The value of the feature transformer's arithmetic at one entry.

  A reduction step with coordinate k gives lane kk of every row the column number k · 1024 + kk. For each of the block's 32
  index columns it compares that number with the row's index, widens the compare bit to a word and converts it: the term
  is 1 where the index names the column number and 0 elsewhere (the numbers stay below 40 · 1024, so the 32-bit words are
  equal exactly when the numbers are). The 32 terms are added one after another from zero, which is their sum over the
  columns; the matrix product of the counts with the slab of 1024 table rows is, at row r and column h, the sum over the
  lanes of count times table entry; the step adds it to the accumulator. The last step adds the bias row and clips to
  [0, 1]; the first step starts from the zero block.

  At the extended reals the change of format before the product and the casts to the same shape are identities.
-/
import proofs.«415106_j64158221467786_1_alg».proof.Proof.FtStep
import proofs.«415106_j64158221467786_1_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

noncomputable section

open scoped BigOperators

namespace Cert.KernelIdeal.FtValue

open Cert.KernelIdeal Cert.KernelIdeal.Gen Idealize.ShloMosaic Idealize.ShloMosaic.ValueIdx

/-! ## The operations of one hit, read at an index -/

/-- The column number the step with reduction coordinate `k` gives lane `kk`, as a word. -/
def colWord (k kk : Nat) : BitVec 32 := BitVec.ofNat 32 k * 1024#32 + BitVec.ofNat 32 kk

theorem pay4_apply (i : grid0.Coords) (r kk : Fin 1024) :
    k0_pay4 i (ix2 r kk) = colWord (i 1).val kk.val := by
  unfold k0_pay4 colWord
  show IntOp.addi (IntOp.muli _ _) (iota .tc S1024x1024 32 [1] iota_S1024x1024_d1_w32 (ix2 r kk)) = _
  rw [iota_single_apply]
  rfl

/-- A column vector broadcast along the lanes reads its row's one entry. -/
theorem bcol_apply {α : Type} (c : S1024x1.Idx → α) (r kk : Fin 1024) :
    broadcastTo S1024x1024 c broadcasts_S1024x1_S1024x1024 (ix2 r kk) = c (ix2 r (0 : Fin 1)) := by
  refine broadcastTo_apply c broadcasts_S1024x1_S1024x1024 (ix2 r kk) (ix2 r (0 : Fin 1)) fun ax => ?_
  match ax with
  | ⟨0, _⟩ => rfl
  | ⟨1, _⟩ => rfl

/-- The word equality of a column number with an index word is the equality of the numbers: no wrap below 2^32. -/
theorem colWord_eq_iff {k kk : Nat} (hk : k < 40) (hkk : kk < 1024) (w : BitVec 32) :
    colWord k kk = w ↔ k * 1024 + kk = w.toNat := by
  unfold colWord
  constructor
  · intro h
    have := congrArg BitVec.toNat h
    simp only [BitVec.toNat_add, BitVec.toNat_mul, BitVec.toNat_ofNat] at this
    omega
  · intro h
    apply BitVec.eq_of_toNat_eq
    simp only [BitVec.toNat_add, BitVec.toNat_mul, BitVec.toNat_ofNat]
    omega

/-- A compare bit, widened to a word and read as a signed integer, is 1 or 0. -/
def bitVal (b : BitVec 1) : EReal := (((b.setWidth 32).toInt : ℝ) : EReal)

theorem bitVal_cmpi_eq (a b : BitVec 32) : bitVal (IntOp.cmpi .eq a b) = if a = b then (1 : EReal) else 0 := by
  unfold bitVal IntOp.cmpi
  by_cases h : a = b
  · subst h; simp
  · have hb : (a == b) = false := beq_eq_false_iff_ne.mpr h
    simp [h, hb]

/-- Whether lane `kk` of row `r` carries the column number the row's entry of an index column names. -/
def hitAt (v6 : IVec S1024x1024 32) (c : Vec Ideal S1024x1 .i32) (r kk : Fin 1024) : EReal :=
  if v6 (ix2 r kk) = c (ix2 r (0 : Fin 1)) then 1 else 0

/-- One hit term of the count — the compare of the column numbers with a broadcast index column, widened and
    converted — read at an index. -/
theorem hit_apply (v6 : IVec S1024x1024 32) (c : Vec Ideal S1024x1 .i32) (r kk : Fin 1024) :
    (sitofp .f32 (extui 32 (cmpi .eq v6 (broadcastTo S1024x1024 c broadcasts_S1024x1_S1024x1024)) natLt_1_32) : FVec Ideal S1024x1024 .f32) (ix2 r kk)
      = hitAt v6 c r kk := by
  show bitVal (IntOp.cmpi .eq (v6 (ix2 r kk)) (broadcastTo S1024x1024 c broadcasts_S1024x1_S1024x1024 (ix2 r kk))) = _
  rw [bcol_apply, bitVal_cmpi_eq]
  rfl

theorem pay5_apply (i : grid0.Coords) (c0 c1 c2 c3 c4 : Vec Ideal S1024x1 .i32) (r kk : Fin 1024) :
    k0_pay5 (F := Ideal) i c0 c1 c2 c3 c4 (ix2 r kk)
      = 0 + hitAt (k0_pay4 i) c0 r kk + hitAt (k0_pay4 i) c1 r kk + hitAt (k0_pay4 i) c2 r kk
          + hitAt (k0_pay4 i) c3 r kk + hitAt (k0_pay4 i) c4 r kk := by
  unfold k0_pay5
  simp only [addf_apply, hit_apply, broadcast_apply]
  rw [show Scalar.ofBits (F := Ideal) .f32 0x00000000#32 = 0 from Ideal.ofBits_zero_f32]

theorem pay7_apply (v6 : IVec S1024x1024 32) (v37 : FVec Ideal S1024x1024 .f32) (c5 c6 c7 c8 c9 c10 c11 c12 : Vec Ideal S1024x1 .i32)
    (r kk : Fin 1024) :
    k0_pay7 (F := Ideal) v6 v37 (k0_pay9 (F := Ideal) v6 c5) c6 c7 c8 c9 c10 c11 c12 (ix2 r kk)
      = v37 (ix2 r kk) + hitAt v6 c5 r kk + hitAt v6 c6 r kk + hitAt v6 c7 r kk + hitAt v6 c8 r kk + hitAt v6 c9 r kk
          + hitAt v6 c10 r kk + hitAt v6 c11 r kk + hitAt v6 c12 r kk := by
  unfold k0_pay7 k0_pay9
  simp only [addf_apply, hit_apply]

/-- The compare made in the body's first part is the later parts' compare, at the first part's column numbers. -/
theorem pay6_eq (i : grid0.Coords) (c : Vec Ideal S1024x1 .i32) : k0_pay6 (F := Ideal) i c = k0_pay9 (F := Ideal) (k0_pay4 i) c := rfl

theorem pay8_apply (v6 : IVec S1024x1024 32) (v85 : FVec Ideal S1024x1024 .f32) (c13 c14 c15 c16 c17 c18 c19 : Vec Ideal S1024x1 .i32)
    (r kk : Fin 1024) :
    k0_pay8 (F := Ideal) v6 v85 c13 c14 c15 c16 c17 c18 c19 (ix2 r kk)
      = v85 (ix2 r kk) + hitAt v6 c13 r kk + hitAt v6 c14 r kk + hitAt v6 c15 r kk + hitAt v6 c16 r kk + hitAt v6 c17 r kk
          + hitAt v6 c18 r kk + hitAt v6 c19 r kk := by
  unfold k0_pay8
  simp only [addf_apply, hit_apply]

theorem pay10_apply (v6 : IVec S1024x1024 32) (v127 : FVec Ideal S1024x1024 .f32) (c20 c21 c22 c23 c24 c25 c26 c27 : Vec Ideal S1024x1 .i32)
    (r kk : Fin 1024) :
    k0_pay10 (F := Ideal) v6 v127 (k0_pay9 (F := Ideal) v6 c20) c21 c22 c23 c24 c25 c26 c27 (ix2 r kk)
      = v127 (ix2 r kk) + hitAt v6 c20 r kk + hitAt v6 c21 r kk + hitAt v6 c22 r kk + hitAt v6 c23 r kk + hitAt v6 c24 r kk
          + hitAt v6 c25 r kk + hitAt v6 c26 r kk + hitAt v6 c27 r kk := by
  unfold k0_pay10 k0_pay9
  simp only [addf_apply, hit_apply]

/-! The product's operand indices at output index (r, h) and contraction coordinate k: (r, k) and (k, h). -/

theorem lhs_mm_0 (j : S1024x256.Idx) (q : dot_S1024x1024_S1024x256_S1024x256_1_0_0_1_n_n.contr.Idx) :
    (dot_S1024x1024_S1024x256_S1024x256_1_0_0_1_n_n.lhsIdx j q 0).val = (j 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_mm_1 (j : S1024x256.Idx) (q : dot_S1024x1024_S1024x256_S1024x256_1_0_0_1_n_n.contr.Idx) :
    (dot_S1024x1024_S1024x256_S1024x256_1_0_0_1_n_n.lhsIdx j q 1).val = (q ⟨0, by decide⟩).val :=
  dot_S1024x1024_S1024x256_S1024x256_1_0_0_1_n_n.lhsIdx_val_of_single rfl j q
theorem rhs_mm_0 (j : S1024x256.Idx) (q : dot_S1024x1024_S1024x256_S1024x256_1_0_0_1_n_n.contr.Idx) :
    (dot_S1024x1024_S1024x256_S1024x256_1_0_0_1_n_n.rhsIdx j q 0).val = (q ⟨0, by decide⟩).val :=
  dot_S1024x1024_S1024x256_S1024x256_1_0_0_1_n_n.rhsIdx_val_of_single rfl j q
theorem rhs_mm_1 (j : S1024x256.Idx) (q : dot_S1024x1024_S1024x256_S1024x256_1_0_0_1_n_n.contr.Idx) :
    (dot_S1024x1024_S1024x256_S1024x256_1_0_0_1_n_n.rhsIdx j q 1).val = (j 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The step's matrix product into the zero block, read at an index: row `r` of the left operand against column `h` of the right. -/
theorem mm_apply (lhs : FVec Ideal S1024x1024 .bf16) (rhs : FVec Ideal S1024x256 .bf16) (r : Fin 1024) (h : Fin 256) :
    (matmul dot_S1024x1024_S1024x256_S1024x256_1_0_0_1_n_n none lhs rhs (constant S1024x256 .f32 0x00000000#32) : FVec Ideal S1024x256 .f32) (ix2 r h)
      = ∑ kk : Fin 1024, lhs (ix2 r kk) * rhs (ix2 kk h) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r h) ((contrEquiv1 dot_S1024x1024_S1024x256_S1024x256_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S1024x1024_S1024x256_S1024x256_1_0_0_1_n_n.rhsIdx (ix2 r h) ((contrEquiv1 dot_S1024x1024_S1024x256_S1024x256_1_0_0_1_n_n 1024 rfl rfl).symm k) = ix2 k h := funext fun a => Fin.ext (by
    match a with
    | ⟨0, _⟩ => exact (rhs_mm_0 _ _).trans hk
    | ⟨1, _⟩ => exact rhs_mm_1 _ _)
  rw [el, er]

theorem pay1_apply (v6 : IVec S1024x1024 32) (v175 : FVec Ideal S1024x1024 .f32) (c28 c29 c30 c31 : Vec Ideal S1024x1 .i32)
    (acc : Vec Ideal S1024x256 .f32) (x1 : Vec Ideal S1024x256 .bf16) (r : Fin 1024) (h : Fin 256) :
    k0_pay1 (F := Ideal) v6 v175 c28 c29 c30 c31 acc x1 (ix2 r h)
      = acc (ix2 r h) + ∑ kk : Fin 1024,
          (v175 (ix2 r kk) + hitAt v6 c28 r kk + hitAt v6 c29 r kk + hitAt v6 c30 r kk + hitAt v6 c31 r kk) * x1 (ix2 kk h) := by
  unfold k0_pay1
  simp only [shapeCast_self, addf_apply, mm_apply, truncf_apply, hit_apply]

/-! ## One reduction step -/

/-- A column's rectangle fits the block only below column 32. -/
theorem col_lt {a : Nat} (hin : ∀ b, (![0, a] : Fin 2 → Nat) b + S1024x1.size b ≤ S1024x32.size b) : a < 32 :=
  Nat.lt_of_succ_le (hin 1)

/-- The load of index column `a` reads, at row `r`, the block's entry (r, a). -/
theorem ldcol_apply {F : FTy → Type} (x0 : Vec F S1024x32 .i32) (a : Nat)
    (hin : ∀ b, (![0, a] : Fin 2 → Nat) b + S1024x1.size b ≤ S1024x32.size b) (r : Fin 1024) :
    (View.ld x0 (Rect.unit (s := S1024x32) ![0, a] S1024x1.size hin) : Vec F S1024x1 .i32) (ix2 r (0 : Fin 1))
      = x0 (ix2 r ⟨a, col_lt hin⟩) := by
  show x0 _ = x0 _
  refine congrArg x0 (funext fun ax => Fin.ext ?_)
  match ax with
  | ⟨0, _⟩ => show 0 + 1 * r.val = r.val; omega
  | ⟨1, _⟩ => show a + 1 * 0 = a; omega

/-- The hit of index column `a` in the step with reduction coordinate `i 1`: lane `kk` of row `r` counts one exactly when
    the step's column number there is the row number the entry (r, a) names. -/
theorem hitCol (i : grid0.Coords) (x0 : Vec Ideal S1024x32 .i32) (a : Nat)
    (hin : ∀ b, (![0, a] : Fin 2 → Nat) b + S1024x1.size b ≤ S1024x32.size b) (r kk : Fin 1024) :
    hitAt (k0_pay4 i) (View.ld x0 (Rect.unit (s := S1024x32) ![0, a] S1024x1.size hin)) r kk
      = if (i 1).val * 1024 + kk.val = (x0 (ix2 r ⟨a, col_lt hin⟩)).toNat then (1 : EReal) else 0 := by
  unfold hitAt
  rw [pay4_apply, ldcol_apply]
  exact if_congr (colWord_eq_iff (i 1).isLt kk.isLt _) rfl rfl

/-- The body's running count, column after column from zero, is the sum over the 32 columns. -/
theorem nest32 (H : Fin 32 → EReal) :
    0 + H ⟨0, by decide⟩ + H ⟨1, by decide⟩ + H ⟨2, by decide⟩ + H ⟨3, by decide⟩ + H ⟨4, by decide⟩ + H ⟨5, by decide⟩
        + H ⟨6, by decide⟩ + H ⟨7, by decide⟩ + H ⟨8, by decide⟩ + H ⟨9, by decide⟩ + H ⟨10, by decide⟩ + H ⟨11, by decide⟩
        + H ⟨12, by decide⟩ + H ⟨13, by decide⟩ + H ⟨14, by decide⟩ + H ⟨15, by decide⟩ + H ⟨16, by decide⟩ + H ⟨17, by decide⟩
        + H ⟨18, by decide⟩ + H ⟨19, by decide⟩ + H ⟨20, by decide⟩ + H ⟨21, by decide⟩ + H ⟨22, by decide⟩ + H ⟨23, by decide⟩
        + H ⟨24, by decide⟩ + H ⟨25, by decide⟩ + H ⟨26, by decide⟩ + H ⟨27, by decide⟩ + H ⟨28, by decide⟩ + H ⟨29, by decide⟩
        + H ⟨30, by decide⟩ + H ⟨31, by decide⟩
      = ∑ a : Fin 32, H a := by
  simp only [Fin.sum_univ_castSucc, Fin.sum_univ_zero]
  rfl

theorem stepAcc0_apply (i : grid0.Coords) (x0 : Vec Ideal S1024x32 .i32) (x1 : Vec Ideal S1024x256 .bf16)
    (acc : Vec Ideal S1024x256 .f32) (r : Fin 1024) (h : Fin 256) :
    stepAcc0 (F := Ideal) i x0 x1 acc (ix2 r h)
      = acc (ix2 r h) + ∑ kk : Fin 1024,
          (∑ a : Fin 32, (if (i 1).val * 1024 + kk.val = (x0 (ix2 r a)).toNat then (1 : EReal) else 0)) * x1 (ix2 kk h) := by
  unfold stepAcc0
  rw [pay1_apply]
  refine congrArg (acc (ix2 r h) + ·) (Finset.sum_congr rfl fun kk _ => congrArg (· * x1 (ix2 kk h)) ?_)
  rw [pay10_apply, pay8_apply, pay6_eq, pay7_apply, pay5_apply]
  simp only [hitCol]
  exact nest32 (fun a => if (i 1).val * 1024 + kk.val = (x0 (ix2 r a)).toNat then (1 : EReal) else 0)

/-! ## The emitted block and the zero block -/

theorem emit0_apply (acc : Vec Ideal S1024x256 .f32) (x2 : Vec Ideal S256 .f32) (r : Fin 1024) (h : Fin 256) :
    k0_pay2 (F := Ideal) acc x2 (ix2 r h) = Cert.Spec.clip01 (acc (ix2 r h) + x2 (ix1 h)) := by
  unfold k0_pay2 Cert.Spec.clip01 Cert.Spec.lit0 Cert.Spec.lit1
  simp only [minimumf_apply, maximumf_apply, addf_apply, broadcast_apply, broadcastTo_1b_ab_apply, shapeCast_a_1a_apply]
  rfl

theorem zero0_apply (j : S1024x256.Idx) : k0_pay3 (F := Ideal) j = 0 := by
  unfold k0_pay3
  rw [shapeCast_self]
  exact Ideal.ofBits_zero_f32

end Cert.KernelIdeal.FtValue
-- ==== Proof.Ft0Pieces.lean ====
/-
  What one run of the feature-transformer body leaves behind, case by case.

  The body's stores into the accumulator and into the output block are recorded as lists of pieces, a rectangle with
  the values written through it. Every store here is through the rectangle that is the whole 1024 × 256 buffer, so the
  last store alone decides the contents: the buffer read back is that store's payload. Each load the payload was
  computed from is read back the same way: a load of an input buffer is the input block (through the whole rectangle)
  or one of its 32 index columns (through a one-column rectangle); a load of the accumulator is what the step before
  left, or, at a first step, the zeros the body itself has just stored. So in every case the accumulator afterwards is
  one reduction step over what it held before (zeros at a first step), and at a last step the output block is that new
  accumulator plus the bias, clipped.
-/
import proofs.«415106_j64158221467786_1_alg».proof.Proof.Ft0Region
import proofs.«415106_j64158221467786_1_alg».proof.Proof.FtStep
import Idealize.ShloMosaic.Lib.Pipeline.Value
import Idealize.ShloMosaic.Lib.Tactic

set_option maxRecDepth 16384

noncomputable section

namespace Cert.KernelIdeal.FtValue

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]

/-- The rectangle that is a whole rank-2 buffer starts at the origin. -/
theorem piece0_hz2 : (![0, 0] : Fin 2 → Nat) = fun _ => 0 := funext fun a => by fin_cases a <;> rfl
/-- The rectangle that is a whole rank-1 buffer starts at the origin. -/
theorem piece0_hz1 : (![0] : Fin 1 → Nat) = fun _ => 0 := funext fun a => by fin_cases a; rfl

/-- A first reduction step. The body stores zeros over the whole accumulator, loads them back, and stores the step's
    update over the whole accumulator: two pieces, the later covering the earlier, so the accumulator holds the later
    payload, and the accumulator that payload was computed from is the zeros. The result is one step over zeros. -/
theorem piece0_A (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : cond0_0 i) (hc1 : ¬cond0_1 i)
    (x0 : Vec F S1024x32 .i32) (x1 : Vec F S1024x256 .bf16) (x2 : Vec F S256 .f32) :
    sout0_A_0 c i arg2 harg2 arg3 harg3 arg4 harg4 arg5 harg5 arg6 harg6 hc0 hc1 x0 x1 x2 = stepAcc0 i x0 x1 (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x256) piece0_hz2, View.readCov_unit_zero (S := S1024x256) _ piece0_hz2]
  unfold stepAcc0
  simp only [View.readAt_eq_ld, harg2.read_unread, harg3.read_unread, View.ld_unit_zero (S := S1024x256) piece0_hz2]

/-- A middle reduction step. One store, over the whole accumulator, of the step's update computed from the index block,
    the table slab and the accumulator as the step before left it. The result is one step over that accumulator. -/
theorem piece0_B (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : ¬cond0_1 i)
    (x0 : Vec F S1024x32 .i32) (x1 : Vec F S1024x256 .bf16) (x2 : Vec F S256 .f32) (xs0 : Vec F S1024x256 .f32) :
    sout0_B_0 c i arg2 harg2 arg3 harg3 arg4 harg4 arg5 harg5 arg6 harg6 hc0 hc1 x0 x1 x2 xs0 = stepAcc0 i x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero piece0_hz2]
  unfold stepAcc0
  simp only [View.readAt_eq_ld, harg2.read_unread, harg3.read_unread, harg6.read_unread, View.ld_unit_zero (S := S1024x256) piece0_hz2]

/-- A last reduction step, the accumulator. As at a middle step: one store of the step's update over the whole
    accumulator; emitting the output block afterwards only reads it. -/
theorem piece0_C (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : cond0_1 i)
    (x0 : Vec F S1024x32 .i32) (x1 : Vec F S1024x256 .bf16) (x2 : Vec F S256 .f32) (xs0 : Vec F S1024x256 .f32) :
    sout0_C_0 c i arg2 harg2 arg3 harg3 arg4 harg4 arg5 harg5 arg6 harg6 hc0 hc1 x0 x1 x2 xs0 = stepAcc0 i x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero piece0_hz2]
  unfold stepAcc0
  simp only [View.readAt_eq_ld, harg2.read_unread, harg3.read_unread, harg6.read_unread, View.ld_unit_zero (S := S1024x256) piece0_hz2]

/-- A last reduction step, the output block. After the step's update is stored the body loads the accumulator back
    (it reads that update), loads the bias, and stores over the whole output block the accumulator plus the bias,
    clipped. The output block is that function of one step over the earlier accumulator and of the bias. -/
theorem piece0_out (c : Dev nD) (i : grid0.Coords) (arg2 : Memref sig .tc .vmem S1024x32 .i32) (harg2 : arg2.IsWhole) (arg3 : Memref sig .tc .vmem S1024x256 .bf16) (harg3 : arg3.IsWhole) (arg4 : Memref sig .tc .vmem S256 .f32) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : cond0_1 i)
    (x0 : Vec F S1024x32 .i32) (x1 : Vec F S1024x256 .bf16) (x2 : Vec F S256 .f32) (xs0 : Vec F S1024x256 .f32) :
    out0_C_3 c i arg2 harg2 arg3 harg3 arg4 harg4 arg5 harg5 arg6 harg6 hc0 hc1 x0 x1 x2 xs0 = k0_pay2 (stepAcc0 i x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero piece0_hz2, View.readCov_unit_zero (S := S1024x256) _ piece0_hz2]
  unfold stepAcc0
  simp only [View.readAt_eq_ld, harg2.read_unread, harg3.read_unread, harg4.read_unread, harg6.read_unread, View.ld_unit_zero (S := S1024x256) piece0_hz2, View.ld_unit_zero (S := S256) piece0_hz1]

end Cert.KernelIdeal.FtValue

end
-- ==== Proof.Ft0Blocks.lean ====
/-
  Where each block of the feature-transformer kernel sits in its array, and that the output blocks which are written
  back cover the output array.

  The kernel walks a 32 × 40 grid in row-major order. A row block is 1024 positions; for each, the 40 reduction steps
  take the table 1024 rows at a time. So at point `t` the index block and the output block are rows
  `1024 · (t / 40) …` of their arrays, the table slab is rows `1024 · (t % 40) …` of the table, and the bias is read
  whole. The output block is written back at a row block's last step only, and the 32 blocks written back are the 32
  consecutive runs of 1024 rows: every entry of the output array is in exactly the one whose row block holds its row.
-/
import proofs.«415106_j64158221467786_1_alg».proof.Proof.Ft0Region
import Idealize.ShloMosaic.Lib.Pipeline.Value
import Idealize.ShloMosaic.Lib.ValueIdx

set_option maxRecDepth 16384

noncomputable section

namespace Cert.KernelIdeal.FtValue

open Cert.KernelIdeal Cert.KernelIdeal.Gen Cert.KernelIdeal.Hand Idealize.ShloMosaic Idealize.ShloMosaic.ValueIdx
open Idealize.ShloMosaic.TcCoe Idealize.SL.Sem

variable {F : FTy → Type} [FloatOps F]
variable (V : (c : Dev nD) → (b : Ref sig .tc) → Buf (Elt F) ((c : Thread nD τ).loc b))

/-! ## The grid

The grid is 32 × 40, walked in row-major order: point `t` is row block `t / 40` at reduction step `t % 40`. -/

theorem coords0_row (t : Fin cfg0.N) : ((grid0.coords t) 0).val = t.val / 40 :=
  (by decide +kernel : ∀ t : Fin grid0.N, ((grid0.coords t) 0).val = t.val / 40) t

theorem coords0_step (t : Fin cfg0.N) : ((grid0.coords t) 1).val = t.val % 40 :=
  (by decide +kernel : ∀ t : Fin grid0.N, ((grid0.coords t) 1).val = t.val % 40) t

/-- Which block of its array each window is on at point `t`: the index block and the output block follow the row block,
    the table slab follows the reduction step, the bias is read whole. -/
theorem blk0_index : ∀ t : Fin cfg0.N,
    win0_0.index t (0 : Fin 2) = t.val / 40 ∧ win0_0.index t (1 : Fin 2) = 0
    ∧ win0_1.index t (0 : Fin 2) = t.val % 40 ∧ win0_1.index t (1 : Fin 2) = 0
    ∧ win0_2.index t (0 : Fin 1) = 0
    ∧ win0_3.index t (0 : Fin 2) = t.val / 40 ∧ win0_3.index t (1 : Fin 2) = 0 :=
  (by decide +kernel : ∀ t : Fin grid0.N, _)

/-! ## Where each input block sits in its array

An element of a block sits, on each axis, at the block's index times the block's extent plus its own coordinate. -/

/-- Position `r` of the point's index block is position `1024 · (t / 40) + r` of the index array. -/
theorem blk0_idx (c : Dev nD) (t : Fin cfg0.N) (r : Fin 1024) (a : Fin 32) :
    iblk0 V c 0 t (ix2 r a)
      = V c main_arg0 (ix2 (⟨1024 * (t.val / 40) + r.val, by have := t.isLt; have : cfg0.N = 1280 := N_0; omega⟩ : Fin 32768) a) := by
  obtain ⟨e0, e1, -⟩ := blk0_index t
  show V c main_arg0 (((cfg0.win 0).blk t).view.emb (ix2 r a)) = V c main_arg0 _
  congr 1
  funext ax; apply Fin.ext
  match ax with
  | ⟨0, _⟩ => show win0_0.index t (0 : Fin 2) * 1024 + 1 * r.val = 1024 * (t.val / 40) + r.val; omega
  | ⟨1, _⟩ => show win0_0.index t (1 : Fin 2) * 32 + 1 * a.val = a.val; omega

/-- Row `kk` of the point's table slab is row `1024 · (t % 40) + kk` of the table. -/
theorem blk0_tab (c : Dev nD) (t : Fin cfg0.N) (kk : Fin 1024) (h : Fin 256) :
    iblk0 V c 1 t (ix2 kk h)
      = V c main_v0 (ix2 (⟨1024 * (t.val % 40) + kk.val, by omega⟩ : Fin 40960) h) := by
  obtain ⟨-, -, e2, e3, -⟩ := blk0_index t
  show V c main_v0 (((cfg0.win 1).blk t).view.emb (ix2 kk h)) = V c main_v0 _
  congr 1
  funext ax; apply Fin.ext
  match ax with
  | ⟨0, _⟩ => show win0_1.index t (0 : Fin 2) * 1024 + 1 * kk.val = 1024 * (t.val % 40) + kk.val; omega
  | ⟨1, _⟩ => show win0_1.index t (1 : Fin 2) * 256 + 1 * h.val = h.val; omega

/-- The point's bias block is the bias. -/
theorem blk0_bias (c : Dev nD) (t : Fin cfg0.N) (h : Fin 256) :
    iblk0 V c 2 t (ix1 h) = V c main_arg4 (ix1 h) := by
  obtain ⟨-, -, -, -, e4, -⟩ := blk0_index t
  show V c main_arg4 (((cfg0.win 2).blk t).view.emb (ix1 h)) = V c main_arg4 _
  congr 1
  funext ax; apply Fin.ext
  match ax with
  | ⟨0, _⟩ => show win0_2.index t (0 : Fin 1) * 256 + 1 * h.val = h.val; omega

/-! ## The output block, and the blocks that are written back -/

/-- Any contents of the output array, read through the point's output block: position `r` of the block is position
    `1024 · (t / 40) + r` of the array. -/
theorem blk0_out_read (c : Dev nD) (G : Buf (Elt F) ((cfg0.win 3).arr.view.loc (c.tc : Thread nD τ))) (t : Fin cfg0.N)
    (r : Fin 1024) (h : Fin 256) :
    ((cfg0.win 3).blk t).view.read (Elt F) G (ix2 r h)
      = G (ix2 (⟨1024 * (t.val / 40) + r.val, by have := t.isLt; have : cfg0.N = 1280 := N_0; omega⟩ : Fin 32768) h) := by
  obtain ⟨-, -, -, -, -, e5, e6⟩ := blk0_index t
  show G (((cfg0.win 3).blk t).view.emb (ix2 r h)) = G _
  congr 1
  funext ax; apply Fin.ext
  match ax with
  | ⟨0, _⟩ => show win0_3.index t (0 : Fin 2) * 1024 + 1 * r.val = 1024 * (t.val / 40) + r.val; omega
  | ⟨1, _⟩ => show win0_3.index t (1 : Fin 2) * 256 + 1 * h.val = h.val; omega

/-- An index of the output array is in the point's output block iff each coordinate is in the block's range on its axis. -/
theorem mem_blk0_out (t : Fin cfg0.N) (i : S32768x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v1).slice (win0_3.rect t)).set ↔ _
  rw [View.set_slice_whole, Rect.mem_set_unit]
  exact Iff.rfl

/-- Every entry of the output array lies in a block that is written back: row `ρ` lies in the output block of row block
    `ρ / 1024`, which is written back at that row block's last reduction step, point `40 · (ρ / 1024) + 39`. -/
theorem blk0_out_cover (c : Dev nD) : ∀ i : ((cfg0.win 3).arr.view.loc (c.tc : Thread nD τ)).2.ty.Idx,
    ∃ t : Fin cfg0.N, (cfg0.win 3).flush t = true ∧ i ∈ ((cfg0.win 3).blk t).view.set := by
  intro (i : S32768x256.Idx)
  have hN : cfg0.N = 1280 := N_0
  have hi0 : (i 0).val < 32768 := (i 0).isLt
  have hi1 : (i 1).val < 256 := (i 1).isLt
  obtain ⟨t, ht⟩ : ∃ t : Fin cfg0.N, t.val = 40 * ((i 0).val / 1024) + 39 := ⟨⟨_, by rw [hN]; omega⟩, rfl⟩
  obtain ⟨-, -, -, -, -, e5, e6⟩ := blk0_index t
  refine ⟨t, (flush0_3 t).mpr (by omega), ?_⟩
  rw [mem_blk0_out]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

end Cert.KernelIdeal.FtValue

end
-- ==== Proof.FtAlgebra.lean ====
/-
  The one algebraic law: gathering 32 table rows and adding them equals multiplying a vector of hit counts with the
  table and adding over all 40960 rows, the rows taken as 40 slabs of 1024.

  The counts are sums of zeros and ones, hence non-negative, and for non-negative coefficients multiplication in the
  extended reals distributes over addition on the right, whatever the other factor (±∞ included). So the product of a
  count with a table entry splits into one term per feature; each such term is the entry itself where the row is the
  one the feature names and zero elsewhere; and a sum with a single non-zero term is that term.
-/
import proofs.«415106_j64158221467786_1_alg».proof.Proof.Spec
import Mathlib.Data.EReal.Operations
import Mathlib.Algebra.BigOperators.Group.Finset.Basic
import Mathlib.Algebra.BigOperators.Group.Finset.Sigma
import Mathlib.Algebra.Order.BigOperators.Group.Finset
import Mathlib.Data.Fintype.BigOperators

noncomputable section

namespace Cert.Spec

open Finset

/-- Multiplication distributes over a finite sum of non-negative extended reals on the right. -/
theorem sum_mul_of_nonneg {ι : Type*} (s : Finset ι) (δ : ι → EReal) (hδ : ∀ i ∈ s, 0 ≤ δ i) (x : EReal) :
    (∑ i ∈ s, δ i) * x = ∑ i ∈ s, δ i * x := by
  classical
  induction s using Finset.induction_on with
  | empty => simp
  | insert i s hi ih =>
    have hs : ∀ j ∈ s, 0 ≤ δ j := fun j hj => hδ j (mem_insert_of_mem hj)
    rw [sum_insert hi, sum_insert hi, EReal.right_distrib_of_nonneg (hδ i (mem_insert_self i s)) (sum_nonneg hs), ih hs]

/-- A zero-or-one coefficient times x is x or zero. -/
theorem indicator_mul (p : Prop) [Decidable p] (x : EReal) : (if p then (1 : EReal) else 0) * x = if p then x else 0 := by
  split
  · exact one_mul x
  · exact zero_mul x

/-- A count of hits times x is one x per hit. -/
theorem count_mul {ι : Type*} [Fintype ι] (p : ι → Prop) [DecidablePred p] (x : EReal) :
    (∑ a : ι, (if p a then (1 : EReal) else 0)) * x = ∑ a : ι, if p a then x else 0 := by
  rw [sum_mul_of_nonneg]
  · exact sum_congr rfl fun a _ => indicator_mul (p a) x
  · intro a _
    split
    · exact zero_le_one
    · exact le_refl 0

/-- Over the 40 × 1024 grid of rows, exactly one cell carries the row number n < 40960. -/
theorem sum_grid_single (n : ℕ) (hn : n < 40960) (f : Fin 40960 → EReal) :
    (∑ kt : Fin 40, ∑ kk : Fin 1024,
        if kt.val * 1024 + kk.val = n then f ⟨kt.val * 1024 + kk.val, by omega⟩ else 0)
      = f ⟨n, hn⟩ := by
  rw [sum_eq_single (⟨n / 1024, by omega⟩ : Fin 40)]
  · rw [sum_eq_single (⟨n % 1024, by omega⟩ : Fin 1024)]
    · have h : n / 1024 * 1024 + n % 1024 = n := by omega
      simp only [h, if_true]
    · intro kk _ hkk
      have : ¬ (n / 1024 * 1024 + kk.val = n) := by
        intro h; apply hkk; apply Fin.ext; simp only; omega
      simp only [this, if_false]
    · intro h; exact absurd (mem_univ _) h
  · intro kt _ hkt
    apply sum_eq_zero
    intro kk _
    have : ¬ (kt.val * 1024 + kk.val = n) := by
      intro h; apply hkt; apply Fin.ext; simp only; omega
    simp only [this, if_false]
  · intro h; exact absurd (mem_univ _) h

theorem gather_as_onehot (idxrow : Fin 32 → BitVec 32) (hidx : ∀ a, (idxrow a).toNat < 40960) (f : Fin 40960 → EReal) :
    (∑ kt : Fin 40, ∑ kk : Fin 1024, (∑ a : Fin 32, (if kt.val * 1024 + kk.val = (idxrow a).toNat then (1 : EReal) else 0)) * f ⟨kt.val * 1024 + kk.val, by omega⟩)
      = ∑ a : Fin 32, f (Cert.Spec.rowOf (idxrow a)) := by
  have h1 : ∀ kt : Fin 40, ∀ kk : Fin 1024,
      (∑ a : Fin 32, (if kt.val * 1024 + kk.val = (idxrow a).toNat then (1 : EReal) else 0)) * f ⟨kt.val * 1024 + kk.val, by omega⟩
        = ∑ a : Fin 32, if kt.val * 1024 + kk.val = (idxrow a).toNat then f ⟨kt.val * 1024 + kk.val, by omega⟩ else 0 :=
    fun kt kk => count_mul (fun a => kt.val * 1024 + kk.val = (idxrow a).toNat) _
  simp only [h1]
  rw [sum_congr rfl fun kt _ => sum_comm, sum_comm]
  refine sum_congr rfl fun a _ => ?_
  rw [sum_grid_single (idxrow a).toNat (hidx a) f]
  congr 1
  exact Fin.ext (rowOf_val (hidx a)).symm

/-- The accumulator after the first n slabs. -/
def partialAcc (cnt : Fin 40 → Fin 1024 → EReal) (tab : Fin 40 → Fin 1024 → EReal) : ℕ → EReal
  | 0 => 0
  | n + 1 => partialAcc cnt tab n + (if h : n < 40 then ∑ kk : Fin 1024, cnt ⟨n, h⟩ kk * tab ⟨n, h⟩ kk else 0)

/-- The running accumulator is the sum of the slabs taken so far. -/
theorem partialAcc_eq_sum_range (cnt tab : Fin 40 → Fin 1024 → EReal) (n : ℕ) :
    partialAcc cnt tab n
      = ∑ i ∈ range n, if h : i < 40 then ∑ kk : Fin 1024, cnt ⟨i, h⟩ kk * tab ⟨i, h⟩ kk else 0 := by
  induction n with
  | zero => simp [partialAcc]
  | succ n ih => rw [partialAcc, ih, sum_range_succ]

theorem partialAcc_forty (cnt tab : Fin 40 → Fin 1024 → EReal) :
    partialAcc cnt tab 40 = ∑ kt : Fin 40, ∑ kk : Fin 1024, cnt kt kk * tab kt kk := by
  rw [partialAcc_eq_sum_range, sum_fin_eq_sum_range]

/-- The running accumulator over all 40 slabs of hit counts against the table is the gather of the 32 named rows. -/
theorem partialAcc_gather (idxrow : Fin 32 → BitVec 32) (hidx : ∀ a, (idxrow a).toNat < 40960) (f : Fin 40960 → EReal) :
    partialAcc (fun kt kk => ∑ a : Fin 32, if kt.val * 1024 + kk.val = (idxrow a).toNat then (1 : EReal) else 0)
        (fun kt kk => f ⟨kt.val * 1024 + kk.val, by omega⟩) 40
      = ∑ a : Fin 32, f (rowOf (idxrow a)) := by
  rw [partialAcc_forty]
  exact gather_as_onehot idxrow hidx f

end Cert.Spec

end
-- ==== Proof.Ft0Value.lean ====
/-
  The value region 0 leaves in its output array: the feature transformer's specification of the region's three input
  arrays (the index array, the table, the bias).

  The grid is 32 row blocks × 40 reduction steps. Fix a row block and a position r in it. Step k adds to the
  accumulator's row r, for every row kk of table slab k, (the number of the position's 32 features that name table row
  1024 · k + kk) × (that table row). So after step k the accumulator's entry (r, h) is the running sum, over the slabs
  0 … k, of hit counts against column h of the table — by induction on the step, the first step starting from the zero
  it has just stored. After the 40th step the running sum ranges over all 40960 table rows, and a sum of hit counts
  against a column is the sum of the column's entries at the 32 named rows, every feature naming a row of the table.
  The last step adds the bias and clips: the emitted block is the specification's rows 1024 · ib … 1024 · ib + 1023.
  The 32 emitted blocks tile the 32768 positions.
-/
import proofs.«415106_j64158221467786_1_alg».proof.Proof.Ft0Region
import proofs.«415106_j64158221467786_1_alg».proof.Proof.FtStep
import proofs.«415106_j64158221467786_1_alg».proof.Proof.FtPayload
import proofs.«415106_j64158221467786_1_alg».proof.Proof.Ft0Pieces
import proofs.«415106_j64158221467786_1_alg».proof.Proof.Ft0Blocks
import proofs.«415106_j64158221467786_1_alg».proof.Proof.FtAlgebra
import proofs.«415106_j64158221467786_1_alg».proof.Proof.Spec
import Idealize.ShloMosaic.Lib.Pipeline.Value
import Idealize.ShloMosaic.Lib.ValueIdx
import Mathlib.Algebra.BigOperators.Group.Finset.Basic

set_option maxRecDepth 16384

noncomputable section

namespace Cert.KernelIdeal.FtValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The index array, the table and the bias as the region finds them, at their literal types. -/
abbrev ft0_iarr (c : Dev nD) : S32768x32.Idx → BitVec 32 := V c main_arg0
abbrev ft0_tarr (c : Dev nD) : S40960x256.Idx → EReal := V c main_v0
abbrev ft0_barr (c : Dev nD) : S256.Idx → EReal := V c main_arg4

/-- How many of position ρ's 32 features name row 1024 · kt + kk of the table. -/
def ft0_cnt (c : Dev nD) (ρ : Fin 32768) : Fin 40 → Fin 1024 → EReal :=
  fun kt kk => ∑ a : Fin 32, if kt.val * 1024 + kk.val = (ft0_iarr V c (ix2 ρ a)).toNat then (1 : EReal) else 0

/-- Column h of the table, by row. -/
def ft0_col (c : Dev nD) (h : Fin 256) : Fin 40960 → EReal := fun ρ => ft0_tarr V c (ix2 ρ h)

/-- Column h of the table, by slab and row inside the slab. -/
def ft0_tab (c : Dev nD) (h : Fin 256) : Fin 40 → Fin 1024 → EReal :=
  fun kt kk => ft0_col V c h ⟨kt.val * 1024 + kk.val, by omega⟩

/-- Point 40 · ib + k of the 32 × 40 grid. -/
theorem ft0_lt (ib : Fin 32) (k : ℕ) (hk : k < 40) : 40 * ib.val + k < cfg0.N := by
  rw [show cfg0.N = 1280 from N_0]; omega

/-- One step's contribution at (r, h), read through the point's blocks: at the point of row block ib and reduction
    step k, the index block's row r is position 1024 · ib + r of the index array and the table slab's row kk is row
    1024 · k + kk of the table. -/
theorem ft0_step_term (c : Dev nD) (t : Fin cfg0.N) (ib : Fin 32) (k : ℕ) (hk : k < 40) (ht : t.val = 40 * ib.val + k)
    (r : Fin 1024) (h : Fin 256) :
    (∑ kk : Fin 1024, (∑ a : Fin 32, (if ((grid0.coords t) 1).val * 1024 + kk.val = ((iblk0 V c 0 t : Vec Ideal S1024x32 .i32) (ix2 r a)).toNat then (1 : EReal) else 0))
        * (iblk0 V c 1 t : Vec Ideal S1024x256 .bf16) (ix2 kk h))
      = ∑ kk : Fin 1024, ft0_cnt V c ⟨1024 * ib.val + r.val, by omega⟩ ⟨k, hk⟩ kk * ft0_tab V c h ⟨k, hk⟩ kk := by
  have e1 : ((grid0.coords t) 1).val = k := by rw [coords0_step]; omega
  refine Finset.sum_congr rfl fun kk _ => ?_
  unfold ft0_cnt ft0_tab ft0_col
  rw [e1]
  congr 1
  · refine Finset.sum_congr rfl fun a _ => ?_
    have ea : (iblk0 V c 0 t : Vec Ideal S1024x32 .i32) (ix2 r a)
        = ft0_iarr V c (ix2 (⟨1024 * ib.val + r.val, by omega⟩ : Fin 32768) a) :=
      (blk0_idx V c t r a).trans (congrArg (fun ρ : Fin 32768 => ft0_iarr V c (ix2 ρ a)) (Fin.ext (by first | rfl | (dsimp only; omega))))
    rw [ea]
  · exact (blk0_tab V c t kk h).trans (congrArg (fun ρ : Fin 40960 => ft0_tarr V c (ix2 ρ h)) (Fin.ext (by first | rfl | (dsimp only; omega))))

/-- The accumulator after a point does not depend on how the point's number is written. -/
theorem ft0_outsAt_congr (c : Dev nD) {n n' : ℕ} (e : n = n') (hn : n < cfg0.N) (hn' : n' < cfg0.N) :
    outsAt0 V c n hn = outsAt0 V c n' hn' := by subst e; rfl

/-- ONE STEP. If the accumulator holds, at (r, h), the running sum over the first k slabs, then after the step at a
    point of row block ib and reduction step k it holds the running sum over the first k + 1. -/
theorem ft0_step (c : Dev nD) (t : Fin cfg0.N) (ib : Fin 32) (k : ℕ) (hk : k < 40) (ht : t.val = 40 * ib.val + k)
    (acc : Vec Ideal S1024x256 .f32) (r : Fin 1024) (h : Fin 256)
    (hacc : acc (ix2 r h) = Cert.Spec.partialAcc (ft0_cnt V c ⟨1024 * ib.val + r.val, by omega⟩) (ft0_tab V c h) k) :
    stepAcc0 (grid0.coords t) (iblk0 V c 0 t) (iblk0 V c 1 t) acc (ix2 r h)
      = Cert.Spec.partialAcc (ft0_cnt V c ⟨1024 * ib.val + r.val, by omega⟩) (ft0_tab V c h) (k + 1) := by
  refine (stepAcc0_apply (grid0.coords t) (iblk0 V c 0 t) (iblk0 V c 1 t) acc r h).trans ?_
  rw [Cert.Spec.partialAcc, dif_pos hk]
  exact congrArg₂ (fun x y : EReal => x + y) hacc (ft0_step_term V c t ib k hk ht r h)

/-- THE INVARIANT. In row block ib, after reduction step k the accumulator at (r, h) is the running sum, over the
    slabs 0 … k, of position 1024 · ib + r's hit counts against column h of the table. By induction on the step: the
    first step resets the accumulator to zero before it adds, every later one adds to what the step before left. -/
theorem ft0_acc (c : Dev nD) (ib : Fin 32) : ∀ (k : ℕ) (hk : k < 40) (r : Fin 1024) (h : Fin 256),
    ((outsAt0 V c (40 * ib.val + k) (ft0_lt ib k hk)).2 : Vec Ideal S1024x256 .f32) (ix2 r h)
      = Cert.Spec.partialAcc (ft0_cnt V c ⟨1024 * ib.val + r.val, by omega⟩) (ft0_tab V c h) (k + 1) := by
  intro k
  induction k with
  | zero =>
    intro hk r h
    have h0 : (⟨40 * ib.val + 0, ft0_lt ib 0 hk⟩ : Fin cfg0.N).val % 40 = 0 := by dsimp only; omega
    have h1 : ¬(⟨40 * ib.val + 0, ft0_lt ib 0 hk⟩ : Fin cfg0.N).val % 40 = 39 := by dsimp only; omega
    rw [outsAt0_A V c (⟨40 * ib.val + 0, ft0_lt ib 0 hk⟩ : Fin cfg0.N) h0 h1]
    dsimp only
    refine (congrFun (piece0_A (F := Ideal) c (grid0.coords (⟨40 * ib.val + 0, ft0_lt ib 0 hk⟩ : Fin cfg0.N)) (ms0_0 (⟨40 * ib.val + 0, ft0_lt ib 0 hk⟩ : Fin cfg0.N)) (hs0_0 (⟨40 * ib.val + 0, ft0_lt ib 0 hk⟩ : Fin cfg0.N)) (ms0_1 (⟨40 * ib.val + 0, ft0_lt ib 0 hk⟩ : Fin cfg0.N)) (hs0_1 (⟨40 * ib.val + 0, ft0_lt ib 0 hk⟩ : Fin cfg0.N)) (ms0_2 (⟨40 * ib.val + 0, ft0_lt ib 0 hk⟩ : Fin cfg0.N)) (hs0_2 (⟨40 * ib.val + 0, ft0_lt ib 0 hk⟩ : Fin cfg0.N)) (ms0_3 (⟨40 * ib.val + 0, ft0_lt ib 0 hk⟩ : Fin cfg0.N)) (hs0_3 (⟨40 * ib.val + 0, ft0_lt ib 0 hk⟩ : Fin cfg0.N)) scM0_0 (Memref.isWhole_whole _) ((hcond0_0 (⟨40 * ib.val + 0, ft0_lt ib 0 hk⟩ : Fin cfg0.N)).mpr h0) (fun hh => h1 ((hcond0_1 (⟨40 * ib.val + 0, ft0_lt ib 0 hk⟩ : Fin cfg0.N)).mp hh)) (iblk0 V c 0 (⟨40 * ib.val + 0, ft0_lt ib 0 hk⟩ : Fin cfg0.N)) (iblk0 V c 1 (⟨40 * ib.val + 0, ft0_lt ib 0 hk⟩ : Fin cfg0.N)) (iblk0 V c 2 (⟨40 * ib.val + 0, ft0_lt ib 0 hk⟩ : Fin cfg0.N))) (ix2 r h)).trans ?_
    exact ft0_step V c (⟨40 * ib.val + 0, ft0_lt ib 0 hk⟩ : Fin cfg0.N) ib 0 hk rfl (k0_pay3 (F := Ideal)) r h (zero0_apply (ix2 r h))
  | succ k ih =>
    intro hk r h
    have h0 : ¬(⟨40 * ib.val + (k + 1), ft0_lt ib (k + 1) hk⟩ : Fin cfg0.N).val % 40 = 0 := by dsimp only; omega
    have e : (⟨40 * ib.val + (k + 1), ft0_lt ib (k + 1) hk⟩ : Fin cfg0.N).val - 1 = 40 * ib.val + k := by dsimp only; omega
    have hprev : ((outsAt0 V c ((⟨40 * ib.val + (k + 1), ft0_lt ib (k + 1) hk⟩ : Fin cfg0.N).val - 1) (Nat.lt_of_le_of_lt (Nat.sub_le _ _) (⟨40 * ib.val + (k + 1), ft0_lt ib (k + 1) hk⟩ : Fin cfg0.N).isLt)).2 : Vec Ideal S1024x256 .f32) (ix2 r h)
        = Cert.Spec.partialAcc (ft0_cnt V c ⟨1024 * ib.val + r.val, by omega⟩) (ft0_tab V c h) (k + 1) :=
      (congrFun (congrArg Prod.snd (ft0_outsAt_congr V c e _ (ft0_lt ib k (Nat.lt_of_succ_lt hk)))) (ix2 r h)).trans
        (ih (Nat.lt_of_succ_lt hk) r h)
    by_cases h1 : (⟨40 * ib.val + (k + 1), ft0_lt ib (k + 1) hk⟩ : Fin cfg0.N).val % 40 = 39
    · rw [outsAt0_C V c (⟨40 * ib.val + (k + 1), ft0_lt ib (k + 1) hk⟩ : Fin cfg0.N) h0 h1]
      dsimp only
      refine (congrFun (piece0_C (F := Ideal) c (grid0.coords (⟨40 * ib.val + (k + 1), ft0_lt ib (k + 1) hk⟩ : Fin cfg0.N)) (ms0_0 (⟨40 * ib.val + (k + 1), ft0_lt ib (k + 1) hk⟩ : Fin cfg0.N)) (hs0_0 (⟨40 * ib.val + (k + 1), ft0_lt ib (k + 1) hk⟩ : Fin cfg0.N)) (ms0_1 (⟨40 * ib.val + (k + 1), ft0_lt ib (k + 1) hk⟩ : Fin cfg0.N)) (hs0_1 (⟨40 * ib.val + (k + 1), ft0_lt ib (k + 1) hk⟩ : Fin cfg0.N)) (ms0_2 (⟨40 * ib.val + (k + 1), ft0_lt ib (k + 1) hk⟩ : Fin cfg0.N)) (hs0_2 (⟨40 * ib.val + (k + 1), ft0_lt ib (k + 1) hk⟩ : Fin cfg0.N)) (ms0_3 (⟨40 * ib.val + (k + 1), ft0_lt ib (k + 1) hk⟩ : Fin cfg0.N)) (hs0_3 (⟨40 * ib.val + (k + 1), ft0_lt ib (k + 1) hk⟩ : Fin cfg0.N)) scM0_0 (Memref.isWhole_whole _) (fun hh => h0 ((hcond0_0 (⟨40 * ib.val + (k + 1), ft0_lt ib (k + 1) hk⟩ : Fin cfg0.N)).mp hh)) ((hcond0_1 (⟨40 * ib.val + (k + 1), ft0_lt ib (k + 1) hk⟩ : Fin cfg0.N)).mpr h1) (iblk0 V c 0 (⟨40 * ib.val + (k + 1), ft0_lt ib (k + 1) hk⟩ : Fin cfg0.N)) (iblk0 V c 1 (⟨40 * ib.val + (k + 1), ft0_lt ib (k + 1) hk⟩ : Fin cfg0.N)) (iblk0 V c 2 (⟨40 * ib.val + (k + 1), ft0_lt ib (k + 1) hk⟩ : Fin cfg0.N)) (outsAt0 V c ((⟨40 * ib.val + (k + 1), ft0_lt ib (k + 1) hk⟩ : Fin cfg0.N).val - 1) (Nat.lt_of_le_of_lt (Nat.sub_le _ _) (⟨40 * ib.val + (k + 1), ft0_lt ib (k + 1) hk⟩ : Fin cfg0.N).isLt)).2) (ix2 r h)).trans ?_
      exact ft0_step V c (⟨40 * ib.val + (k + 1), ft0_lt ib (k + 1) hk⟩ : Fin cfg0.N) ib (k + 1) hk rfl (outsAt0 V c ((⟨40 * ib.val + (k + 1), ft0_lt ib (k + 1) hk⟩ : Fin cfg0.N).val - 1) (Nat.lt_of_le_of_lt (Nat.sub_le _ _) (⟨40 * ib.val + (k + 1), ft0_lt ib (k + 1) hk⟩ : Fin cfg0.N).isLt)).2 r h hprev
    · rw [outsAt0_B V c (⟨40 * ib.val + (k + 1), ft0_lt ib (k + 1) hk⟩ : Fin cfg0.N) h0 h1]
      dsimp only
      refine (congrFun (piece0_B (F := Ideal) c (grid0.coords (⟨40 * ib.val + (k + 1), ft0_lt ib (k + 1) hk⟩ : Fin cfg0.N)) (ms0_0 (⟨40 * ib.val + (k + 1), ft0_lt ib (k + 1) hk⟩ : Fin cfg0.N)) (hs0_0 (⟨40 * ib.val + (k + 1), ft0_lt ib (k + 1) hk⟩ : Fin cfg0.N)) (ms0_1 (⟨40 * ib.val + (k + 1), ft0_lt ib (k + 1) hk⟩ : Fin cfg0.N)) (hs0_1 (⟨40 * ib.val + (k + 1), ft0_lt ib (k + 1) hk⟩ : Fin cfg0.N)) (ms0_2 (⟨40 * ib.val + (k + 1), ft0_lt ib (k + 1) hk⟩ : Fin cfg0.N)) (hs0_2 (⟨40 * ib.val + (k + 1), ft0_lt ib (k + 1) hk⟩ : Fin cfg0.N)) (ms0_3 (⟨40 * ib.val + (k + 1), ft0_lt ib (k + 1) hk⟩ : Fin cfg0.N)) (hs0_3 (⟨40 * ib.val + (k + 1), ft0_lt ib (k + 1) hk⟩ : Fin cfg0.N)) scM0_0 (Memref.isWhole_whole _) (fun hh => h0 ((hcond0_0 (⟨40 * ib.val + (k + 1), ft0_lt ib (k + 1) hk⟩ : Fin cfg0.N)).mp hh)) (fun hh => h1 ((hcond0_1 (⟨40 * ib.val + (k + 1), ft0_lt ib (k + 1) hk⟩ : Fin cfg0.N)).mp hh)) (iblk0 V c 0 (⟨40 * ib.val + (k + 1), ft0_lt ib (k + 1) hk⟩ : Fin cfg0.N)) (iblk0 V c 1 (⟨40 * ib.val + (k + 1), ft0_lt ib (k + 1) hk⟩ : Fin cfg0.N)) (iblk0 V c 2 (⟨40 * ib.val + (k + 1), ft0_lt ib (k + 1) hk⟩ : Fin cfg0.N)) (outsAt0 V c ((⟨40 * ib.val + (k + 1), ft0_lt ib (k + 1) hk⟩ : Fin cfg0.N).val - 1) (Nat.lt_of_le_of_lt (Nat.sub_le _ _) (⟨40 * ib.val + (k + 1), ft0_lt ib (k + 1) hk⟩ : Fin cfg0.N).isLt)).2) (ix2 r h)).trans ?_
      exact ft0_step V c (⟨40 * ib.val + (k + 1), ft0_lt ib (k + 1) hk⟩ : Fin cfg0.N) ib (k + 1) hk rfl (outsAt0 V c ((⟨40 * ib.val + (k + 1), ft0_lt ib (k + 1) hk⟩ : Fin cfg0.N).val - 1) (Nat.lt_of_le_of_lt (Nat.sub_le _ _) (⟨40 * ib.val + (k + 1), ft0_lt ib (k + 1) hk⟩ : Fin cfg0.N).isLt)).2 r h hprev

/-- Two blocks that agree at every (r, h) are equal. -/
theorem ft0_block_ext (X Y : Vec Ideal S1024x256 .f32) (hXY : ∀ (r : Fin 1024) (h : Fin 256), X (ix2 r h) = Y (ix2 r h)) : X = Y :=
  funext fun j => by
    obtain ⟨r, h, rfl⟩ : ∃ (r : Fin 1024) (h : Fin 256), j = ix2 r h := ⟨j 0, j 1, eq_ix2 j⟩
    exact hXY r h

/-- THE EMITTED BLOCK. At the last reduction step of a row block the output block holds, at (r, h), the specification's
    entry of position 1024 · (t / 40) + r: the running sum over all 40 slabs is the sum of the 32 named rows (every
    index names a row of the table), and the body adds the bias and clips. -/
theorem ft0_out (c : Dev nD) (hidx : ∀ i, (ft0_iarr V c i).toNat < 40960) (t : Fin cfg0.N) (h39 : t.val % 40 = 39)
    (r : Fin 1024) (h : Fin 256) :
    ((outsAt0 V c t.val t.isLt).1 : Vec Ideal S1024x256 .f32) (ix2 r h)
      = Cert.Spec.ftSpec (ft0_iarr V c) (ft0_tarr V c) (ft0_barr V c)
          (ix2 (⟨1024 * (t.val / 40) + r.val, by have := t.isLt; have : cfg0.N = 1280 := N_0; omega⟩ : Fin 32768) h) := by
  have hN : t.val < 1280 := lt_of_lt_of_eq t.isLt (show cfg0.N = 1280 from N_0)
  have h0 : ¬t.val % 40 = 0 := by omega
  have hib : t.val / 40 < 32 := by omega
  have e : t.val - 1 = 40 * (⟨t.val / 40, hib⟩ : Fin 32).val + 38 := by dsimp only; omega
  have ht : t.val = 40 * (⟨t.val / 40, hib⟩ : Fin 32).val + 39 := by dsimp only; omega
  have hprev : ((outsAt0 V c (t.val - 1) (Nat.lt_of_le_of_lt (Nat.sub_le _ _) t.isLt)).2 : Vec Ideal S1024x256 .f32) (ix2 r h)
      = Cert.Spec.partialAcc (ft0_cnt V c ⟨1024 * (⟨t.val / 40, hib⟩ : Fin 32).val + r.val, by dsimp only; omega⟩) (ft0_tab V c h) (38 + 1) :=
    (congrFun (congrArg Prod.snd (ft0_outsAt_congr V c e _ (ft0_lt ⟨t.val / 40, hib⟩ 38 (by omega)))) (ix2 r h)).trans
      (ft0_acc V c ⟨t.val / 40, hib⟩ 38 (by omega) r h)
  have hsum : stepAcc0 (grid0.coords t) (iblk0 V c 0 t) (iblk0 V c 1 t) (outsAt0 V c (t.val - 1) (Nat.lt_of_le_of_lt (Nat.sub_le _ _) t.isLt)).2 (ix2 r h)
      = ∑ a : Fin 32, ft0_col V c h (Cert.Spec.rowOf (ft0_iarr V c (ix2 (⟨1024 * (t.val / 40) + r.val, by omega⟩ : Fin 32768) a))) :=
    (ft0_step V c t ⟨t.val / 40, hib⟩ 39 (by omega) ht (outsAt0 V c (t.val - 1) (Nat.lt_of_le_of_lt (Nat.sub_le _ _) t.isLt)).2 r h hprev).trans
      (Cert.Spec.partialAcc_gather (fun a => ft0_iarr V c (ix2 (⟨1024 * (t.val / 40) + r.val, by omega⟩ : Fin 32768) a)) (fun a => hidx _) (ft0_col V c h))
  rw [outsAt0_C V c t h0 h39]
  dsimp only
  refine (congrFun (piece0_out (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h39) (iblk0 V c 0 t) (iblk0 V c 1 t) (iblk0 V c 2 t) (outsAt0 V c (t.val - 1) (Nat.lt_of_le_of_lt (Nat.sub_le _ _) t.isLt)).2) (ix2 r h)).trans ?_
  refine (emit0_apply (stepAcc0 (grid0.coords t) (iblk0 V c 0 t) (iblk0 V c 1 t) (outsAt0 V c (t.val - 1) (Nat.lt_of_le_of_lt (Nat.sub_le _ _) t.isLt)).2) (iblk0 V c 2 t) r h).trans ?_
  exact congrArg Cert.Spec.clip01 (congrArg₂ (fun x y : EReal => x + y) hsum (blk0_bias V c t h))

/-- What a flushing point writes back is its block of the specification. -/
theorem ft0_flushed (c : Dev nD) (hidx : ∀ i, (ft0_iarr V c i).toNat < 40960) (t : Fin cfg0.N) (hf : (cfg0.win 3).flush t = true) :
    (dat0 V c).flushed 3 t
      = ((cfg0.win 3).blk t).view.read (Elt Ideal) (Cert.Spec.ftSpec (ft0_iarr V c) (ft0_tarr V c) (ft0_barr V c)) := by
  have h39 : t.val % 40 = 39 := (flush0_3 t).mp hf
  show (cfg0.win 3).cut (grid0.coords t) ((dat0 V c).after 3 t) = _
  rw [after0_3]
  exact ft0_block_ext _ _ fun r h =>
    (ft0_out V c hidx t h39 r h).trans
      ((congrArg (fun ρ : Fin 32768 => Cert.Spec.ftSpec (ft0_iarr V c) (ft0_tarr V c) (ft0_barr V c) (ix2 ρ h)) (Fin.ext (by first | rfl | (dsimp only; omega)))).trans
        (blk0_out_read (F := Ideal) c (Cert.Spec.ftSpec (ft0_iarr V c) (ft0_tarr V c) (ft0_barr V c)) t r h).symm)

/-- THE OUTPUT ARRAY after the region: the specification of the region's three input arrays. The 32 flushing points'
    blocks tile the 32768 positions. -/
theorem ft0_final (c : Dev nD) (hidx : ∀ i, ((V c main_arg0 : S32768x32.Idx → BitVec 32) i).toNat < 40960) :
    (dat0 (F := Ideal) V c).arrAt 3 cfg0.N
      = Cert.Spec.ftSpec (V c main_arg0 : S32768x32.Idx → BitVec 32) (V c main_v0 : S40960x256.Idx → EReal) (V c main_arg4 : S256.Idx → EReal) :=
  (dat0 V c).arrAt_eq_of_cover 3 (Cert.Spec.ftSpec (ft0_iarr V c) (ft0_tarr V c) (ft0_barr V c))
    (fun t hf => ft0_flushed V c hidx t hf) (blk0_out_cover c)

end Cert.KernelIdeal.FtValue

end
-- ==== Proof.MlpPayload.lean ====
/-
  The value of the evaluation network's body at a row, in the extended reals.

  The body takes a block of 2048 positions: the two sides' accumulator rows (256 entries each), the side-to-move weight
  (one entry a row), and the three layers' weights and biases. It lays the two accumulators side by side in both orders,
  weighs the orders by `s` and `1 − s`, and sends the 512 mixed features through three affine layers, the first two clipped
  to [0, 1]. Each weight matrix is stored output-major and is transposed before its product; each bias vector is made a
  row and repeated down the block. Read at row `p` this is `Cert.Spec.mlpRow` of row `p`'s data: one small fact per
  re-indexing operation, then the three layers over an arbitrary input array, then the assembly.
-/
import proofs.«415106_j64158221467786_1_alg».proof.Proof.Gen.KernelIdeal.Skeleton
import proofs.«415106_j64158221467786_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.MlpValue

open Cert.KernelIdeal Cert.KernelIdeal.Gen Idealize.ShloMosaic Idealize.ShloMosaic.ValueIdx

/-! ## Layout operations at explicit coordinates -/

section Layout
variable {α : Type}

/-- Two blocks of columns side by side, read at a column of the first block: that block there. -/
theorem concat_cols_left {a n₁ n₂ n : ℕ} (x₁ : (⟨2, ![a, n₁]⟩ : Shape).Idx → α) (x₂ : (⟨2, ![a, n₂]⟩ : Shape).Idx → α)
    (h : Shape.Concatenates [(⟨2, ![a, n₁]⟩ : Shape), ⟨2, ![a, n₂]⟩] ⟨2, ![a, n]⟩ 1) (p : Fin a) (j : Fin n) (hj : j.val < n₁) :
    concatenate ⟨2, ![a, n]⟩ 1 [⟨⟨2, ![a, n₁]⟩, x₁⟩, ⟨⟨2, ![a, n₂]⟩, x₂⟩] h (ix2 p j) = x₁ (ix2 p ⟨j.val, hj⟩) :=
  concatenate_pair_apply_left 1 x₁ x₂ h (ix2 p j) rfl (ix2 p ⟨j.val, hj⟩) fun b => match b with
    | ⟨0, _⟩ => rfl
    | ⟨1, _⟩ => rfl

/-- The same read at a column of the second block: that block, the first block's width to the left. -/
theorem concat_cols_right {a n₁ n₂ n : ℕ} (x₁ : (⟨2, ![a, n₁]⟩ : Shape).Idx → α) (x₂ : (⟨2, ![a, n₂]⟩ : Shape).Idx → α)
    (h : Shape.Concatenates [(⟨2, ![a, n₁]⟩ : Shape), ⟨2, ![a, n₂]⟩] ⟨2, ![a, n]⟩ 1) (p : Fin a) (j : Fin n) (hj : n₁ ≤ j.val)
    (hj₂ : j.val - n₁ < n₂) :
    concatenate ⟨2, ![a, n]⟩ 1 [⟨⟨2, ![a, n₁]⟩, x₁⟩, ⟨⟨2, ![a, n₂]⟩, x₂⟩] h (ix2 p j) = x₂ (ix2 p ⟨j.val - n₁, hj₂⟩) :=
  concatenate_pair_apply_right 1 x₁ x₂ h (ix2 p j) rfl rfl (ix2 p ⟨j.val - n₁, hj₂⟩)
    (fun b hb => match b, hb with
      | ⟨0, _⟩, _ => rfl
      | ⟨1, _⟩, hb => absurd rfl hb)
    (by show j.val - n₁ + n₁ = j.val; omega)

/-- One column repeated across: an `[a, 1]` array broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector of `b` entries made a row and repeated down `a` rows reads, at `(p, c)`, its entry `c`. -/
theorem bias_row_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Layout

/-! ## The clip -/

/-- The minimum with a splat of the word of 1.0 of the maximum with a splat of the word of 0.0, at an index. -/
theorem clip_apply {s : Shape} (x : FVec Ideal s .f32) (i : s.Idx) :
    minimumf (broadcast s (Scalar.ofBits (F := Ideal) .f32 0x3F800000#32))
      (maximumf (broadcast s (Scalar.ofBits (F := Ideal) .f32 0x00000000#32)) x) i = Cert.Spec.clip01 (x i) := rfl

/-! ## The three products as sums

Each record contracts the left operand's columns with the right operand's rows. The four coordinate facts of a record
are kept apart and stated at the literal axes. -/

/-! ### 2048 × 512 by 512 × 32 -/

theorem lhsA_0 (i : S2048x32.Idx) (q : dot_S2048x512_S512x32_S2048x32_1_0_0_1_n_n.contr.Idx) :
    (dot_S2048x512_S512x32_S2048x32_1_0_0_1_n_n.lhsIdx i q 0).val = (i 0).val := by
  unfold DotDims.lhsIdx
  rw [dif_neg (show ¬(0 : Fin S2048x512.rank) ∈ dot_S2048x512_S512x32_S2048x32_1_0_0_1_n_n.lhsBatch by decide), dif_pos (show (0 : Fin S2048x512.rank) ∈ dot_S2048x512_S512x32_S2048x32_1_0_0_1_n_n.lhsNonContracting by decide)]
  rfl
theorem lhsA_1 (i : S2048x32.Idx) (q : dot_S2048x512_S512x32_S2048x32_1_0_0_1_n_n.contr.Idx) :
    (dot_S2048x512_S512x32_S2048x32_1_0_0_1_n_n.lhsIdx i q 1).val = (q ⟨0, by decide⟩).val :=
  dot_S2048x512_S512x32_S2048x32_1_0_0_1_n_n.lhsIdx_val_of_single rfl i q
theorem rhsA_0 (i : S2048x32.Idx) (q : dot_S2048x512_S512x32_S2048x32_1_0_0_1_n_n.contr.Idx) :
    (dot_S2048x512_S512x32_S2048x32_1_0_0_1_n_n.rhsIdx i q 0).val = (q ⟨0, by decide⟩).val :=
  dot_S2048x512_S512x32_S2048x32_1_0_0_1_n_n.rhsIdx_val_of_single rfl i q
theorem rhsA_1 (i : S2048x32.Idx) (q : dot_S2048x512_S512x32_S2048x32_1_0_0_1_n_n.contr.Idx) :
    (dot_S2048x512_S512x32_S2048x32_1_0_0_1_n_n.rhsIdx i q 1).val = (i 1).val := by
  unfold DotDims.rhsIdx
  rw [dif_neg (show ¬(1 : Fin S512x32.rank) ∈ dot_S2048x512_S512x32_S2048x32_1_0_0_1_n_n.rhsBatch by decide), dif_pos (show (1 : Fin S512x32.rank) ∈ dot_S2048x512_S512x32_S2048x32_1_0_0_1_n_n.rhsNonContracting by decide)]
  rfl

/-- The product into a zero accumulator at `(p, o)`: the sum over the 512 contracted positions of the operands' products. -/
theorem matmulA_apply (x : FVec Ideal S2048x512 .bf16) (w : FVec Ideal S512x32 .bf16) (p : Fin 2048) (o : Fin 32) :
    matmul (F := Ideal) dot_S2048x512_S512x32_S2048x32_1_0_0_1_n_n none x w (constant (F := Ideal) S2048x32 .f32 0x00000000#32) (ix2 p o)
      = ∑ k : Fin 512, x (ix2 p k) * w (ix2 k o) := by
  refine (Ideal.matmul_constant_zero_apply dot_S2048x512_S512x32_S2048x32_1_0_0_1_n_n none x w (ix2 p o)).trans ?_
  rw [← Equiv.sum_comp (contrEquiv1 dot_S2048x512_S512x32_S2048x32_1_0_0_1_n_n 512 rfl rfl).symm]
  refine Finset.sum_congr rfl fun k _ => ?_
  have hk := contrEquiv1_symm_val dot_S2048x512_S512x32_S2048x32_1_0_0_1_n_n 512 rfl rfl k
  have el : dot_S2048x512_S512x32_S2048x32_1_0_0_1_n_n.lhsIdx (ix2 p o) ((contrEquiv1 dot_S2048x512_S512x32_S2048x32_1_0_0_1_n_n 512 rfl rfl).symm k) = ix2 p k := funext fun a => Fin.ext (by
    match a with
    | ⟨0, _⟩ => exact lhsA_0 _ _
    | ⟨1, _⟩ => exact (lhsA_1 _ _).trans hk)
  have er : dot_S2048x512_S512x32_S2048x32_1_0_0_1_n_n.rhsIdx (ix2 p o) ((contrEquiv1 dot_S2048x512_S512x32_S2048x32_1_0_0_1_n_n 512 rfl rfl).symm k) = ix2 k o := funext fun a => Fin.ext (by
    match a with
    | ⟨0, _⟩ => exact (rhsA_0 _ _).trans hk
    | ⟨1, _⟩ => exact rhsA_1 _ _)
  rw [el, er]

/-! ### 2048 × 32 by 32 × 32 -/

theorem lhsB_0 (i : S2048x32.Idx) (q : dot_S2048x32_S32x32_S2048x32_1_0_0_1_n_n.contr.Idx) :
    (dot_S2048x32_S32x32_S2048x32_1_0_0_1_n_n.lhsIdx i q 0).val = (i 0).val := by
  unfold DotDims.lhsIdx
  rw [dif_neg (show ¬(0 : Fin S2048x32.rank) ∈ dot_S2048x32_S32x32_S2048x32_1_0_0_1_n_n.lhsBatch by decide), dif_pos (show (0 : Fin S2048x32.rank) ∈ dot_S2048x32_S32x32_S2048x32_1_0_0_1_n_n.lhsNonContracting by decide)]
  rfl
theorem lhsB_1 (i : S2048x32.Idx) (q : dot_S2048x32_S32x32_S2048x32_1_0_0_1_n_n.contr.Idx) :
    (dot_S2048x32_S32x32_S2048x32_1_0_0_1_n_n.lhsIdx i q 1).val = (q ⟨0, by decide⟩).val :=
  dot_S2048x32_S32x32_S2048x32_1_0_0_1_n_n.lhsIdx_val_of_single rfl i q
theorem rhsB_0 (i : S2048x32.Idx) (q : dot_S2048x32_S32x32_S2048x32_1_0_0_1_n_n.contr.Idx) :
    (dot_S2048x32_S32x32_S2048x32_1_0_0_1_n_n.rhsIdx i q 0).val = (q ⟨0, by decide⟩).val :=
  dot_S2048x32_S32x32_S2048x32_1_0_0_1_n_n.rhsIdx_val_of_single rfl i q
theorem rhsB_1 (i : S2048x32.Idx) (q : dot_S2048x32_S32x32_S2048x32_1_0_0_1_n_n.contr.Idx) :
    (dot_S2048x32_S32x32_S2048x32_1_0_0_1_n_n.rhsIdx i q 1).val = (i 1).val := by
  unfold DotDims.rhsIdx
  rw [dif_neg (show ¬(1 : Fin S32x32.rank) ∈ dot_S2048x32_S32x32_S2048x32_1_0_0_1_n_n.rhsBatch by decide), dif_pos (show (1 : Fin S32x32.rank) ∈ dot_S2048x32_S32x32_S2048x32_1_0_0_1_n_n.rhsNonContracting by decide)]
  rfl

/-- The product into a zero accumulator at `(p, o)`: the sum over the 32 contracted positions of the operands' products. -/
theorem matmulB_apply (x : FVec Ideal S2048x32 .bf16) (w : FVec Ideal S32x32 .bf16) (p : Fin 2048) (o : Fin 32) :
    matmul (F := Ideal) dot_S2048x32_S32x32_S2048x32_1_0_0_1_n_n none x w (constant (F := Ideal) S2048x32 .f32 0x00000000#32) (ix2 p o)
      = ∑ k : Fin 32, x (ix2 p k) * w (ix2 k o) := by
  refine (Ideal.matmul_constant_zero_apply dot_S2048x32_S32x32_S2048x32_1_0_0_1_n_n none x w (ix2 p o)).trans ?_
  rw [← Equiv.sum_comp (contrEquiv1 dot_S2048x32_S32x32_S2048x32_1_0_0_1_n_n 32 rfl rfl).symm]
  refine Finset.sum_congr rfl fun k _ => ?_
  have hk := contrEquiv1_symm_val dot_S2048x32_S32x32_S2048x32_1_0_0_1_n_n 32 rfl rfl k
  have el : dot_S2048x32_S32x32_S2048x32_1_0_0_1_n_n.lhsIdx (ix2 p o) ((contrEquiv1 dot_S2048x32_S32x32_S2048x32_1_0_0_1_n_n 32 rfl rfl).symm k) = ix2 p k := funext fun a => Fin.ext (by
    match a with
    | ⟨0, _⟩ => exact lhsB_0 _ _
    | ⟨1, _⟩ => exact (lhsB_1 _ _).trans hk)
  have er : dot_S2048x32_S32x32_S2048x32_1_0_0_1_n_n.rhsIdx (ix2 p o) ((contrEquiv1 dot_S2048x32_S32x32_S2048x32_1_0_0_1_n_n 32 rfl rfl).symm k) = ix2 k o := funext fun a => Fin.ext (by
    match a with
    | ⟨0, _⟩ => exact (rhsB_0 _ _).trans hk
    | ⟨1, _⟩ => exact rhsB_1 _ _)
  rw [el, er]

/-! ### 2048 × 32 by 32 × 1 -/

theorem lhsC_0 (i : S2048x1.Idx) (q : dot_S2048x32_S32x1_S2048x1_1_0_0_1_n_n.contr.Idx) :
    (dot_S2048x32_S32x1_S2048x1_1_0_0_1_n_n.lhsIdx i q 0).val = (i 0).val := by
  unfold DotDims.lhsIdx
  rw [dif_neg (show ¬(0 : Fin S2048x32.rank) ∈ dot_S2048x32_S32x1_S2048x1_1_0_0_1_n_n.lhsBatch by decide), dif_pos (show (0 : Fin S2048x32.rank) ∈ dot_S2048x32_S32x1_S2048x1_1_0_0_1_n_n.lhsNonContracting by decide)]
  rfl
theorem lhsC_1 (i : S2048x1.Idx) (q : dot_S2048x32_S32x1_S2048x1_1_0_0_1_n_n.contr.Idx) :
    (dot_S2048x32_S32x1_S2048x1_1_0_0_1_n_n.lhsIdx i q 1).val = (q ⟨0, by decide⟩).val :=
  dot_S2048x32_S32x1_S2048x1_1_0_0_1_n_n.lhsIdx_val_of_single rfl i q
theorem rhsC_0 (i : S2048x1.Idx) (q : dot_S2048x32_S32x1_S2048x1_1_0_0_1_n_n.contr.Idx) :
    (dot_S2048x32_S32x1_S2048x1_1_0_0_1_n_n.rhsIdx i q 0).val = (q ⟨0, by decide⟩).val :=
  dot_S2048x32_S32x1_S2048x1_1_0_0_1_n_n.rhsIdx_val_of_single rfl i q
theorem rhsC_1 (i : S2048x1.Idx) (q : dot_S2048x32_S32x1_S2048x1_1_0_0_1_n_n.contr.Idx) :
    (dot_S2048x32_S32x1_S2048x1_1_0_0_1_n_n.rhsIdx i q 1).val = (i 1).val := by
  unfold DotDims.rhsIdx
  rw [dif_neg (show ¬(1 : Fin S32x1.rank) ∈ dot_S2048x32_S32x1_S2048x1_1_0_0_1_n_n.rhsBatch by decide), dif_pos (show (1 : Fin S32x1.rank) ∈ dot_S2048x32_S32x1_S2048x1_1_0_0_1_n_n.rhsNonContracting by decide)]
  rfl

/-- The product into a zero accumulator at `(p, o)`: the sum over the 32 contracted positions of the operands' products. -/
theorem matmulC_apply (x : FVec Ideal S2048x32 .bf16) (w : FVec Ideal S32x1 .bf16) (p : Fin 2048) (o : Fin 1) :
    matmul (F := Ideal) dot_S2048x32_S32x1_S2048x1_1_0_0_1_n_n none x w (constant (F := Ideal) S2048x1 .f32 0x00000000#32) (ix2 p o)
      = ∑ k : Fin 32, x (ix2 p k) * w (ix2 k o) := by
  refine (Ideal.matmul_constant_zero_apply dot_S2048x32_S32x1_S2048x1_1_0_0_1_n_n none x w (ix2 p o)).trans ?_
  rw [← Equiv.sum_comp (contrEquiv1 dot_S2048x32_S32x1_S2048x1_1_0_0_1_n_n 32 rfl rfl).symm]
  refine Finset.sum_congr rfl fun k _ => ?_
  have hk := contrEquiv1_symm_val dot_S2048x32_S32x1_S2048x1_1_0_0_1_n_n 32 rfl rfl k
  have el : dot_S2048x32_S32x1_S2048x1_1_0_0_1_n_n.lhsIdx (ix2 p o) ((contrEquiv1 dot_S2048x32_S32x1_S2048x1_1_0_0_1_n_n 32 rfl rfl).symm k) = ix2 p k := funext fun a => Fin.ext (by
    match a with
    | ⟨0, _⟩ => exact lhsC_0 _ _
    | ⟨1, _⟩ => exact (lhsC_1 _ _).trans hk)
  have er : dot_S2048x32_S32x1_S2048x1_1_0_0_1_n_n.rhsIdx (ix2 p o) ((contrEquiv1 dot_S2048x32_S32x1_S2048x1_1_0_0_1_n_n 32 rfl rfl).symm k) = ix2 k o := funext fun a => Fin.ext (by
    match a with
    | ⟨0, _⟩ => exact (rhsC_0 _ _).trans hk
    | ⟨1, _⟩ => exact rhsC_1 _ _)
  rw [el, er]

/-! ## The mixed features -/

/-- The side-to-move weight times one ordering of the two accumulators plus its complement times the other, at `(p, j)`. -/
theorem mixed_apply (v0 v2 : Vec Ideal S2048x256 .f32) (v4 : Vec Ideal S2048x1 .f32) (p : Fin 2048) (j : Fin 512) :
    addf (mulf (broadcastTo S2048x512 v4 broadcasts_S2048x1_S2048x512)
            (concatenate S2048x512 1 [⟨S2048x256, shapeCast S2048x256 v0 shapeCasts_S2048x256_S2048x256⟩,
              ⟨S2048x256, shapeCast S2048x256 v2 shapeCasts_S2048x256_S2048x256⟩] concatenates_S2048x256_S2048x256_S2048x512_d1))
         (mulf (broadcastTo S2048x512 (subf (broadcast S2048x1 (Scalar.ofBits (F := Ideal) .f32 0x3F800000#32)) v4) broadcasts_S2048x1_S2048x512)
            (concatenate S2048x512 1 [⟨S2048x256, shapeCast S2048x256 v2 shapeCasts_S2048x256_S2048x256⟩,
              ⟨S2048x256, shapeCast S2048x256 v0 shapeCasts_S2048x256_S2048x256⟩] concatenates_S2048x256_S2048x256_S2048x512_d1))
         (ix2 p j)
      = Cert.Spec.mixRow (fun h => v0 (ix2 p h)) (fun h => v2 (ix2 p h)) (v4 (ix2 p (0 : Fin 1))) j := by
  rw [shapeCast_self v0, shapeCast_self v2, addf_apply, mulf_apply, mulf_apply, broadcastTo_a1_ab_apply, broadcastTo_a1_ab_apply]
  unfold Cert.Spec.mixRow
  by_cases hj : j.val < 256
  · rw [dif_pos hj, dif_pos hj, concat_cols_left _ _ _ p j hj, concat_cols_left _ _ _ p j hj]
    rfl
  · have hj' : 256 ≤ j.val := Nat.le_of_not_lt hj
    have hj₂ : j.val - 256 < 256 := by have := j.isLt; omega
    rw [dif_neg hj, dif_neg hj, concat_cols_right _ _ _ p j hj' hj₂, concat_cols_right _ _ _ p j hj' hj₂]
    rfl

/-! ## The layers -/

/-- The first layer over any input array, at `(p, o)`. -/
theorem layer1_apply (x : FVec Ideal S2048x512 .f32) (v14 : Vec Ideal S32x512 .f32) (v19 : Vec Ideal S32 .f32) (p : Fin 2048) (o : Fin 32) :
    minimumf (broadcast S2048x32 (Scalar.ofBits (F := Ideal) .f32 0x3F800000#32))
      (maximumf (broadcast S2048x32 (Scalar.ofBits (F := Ideal) .f32 0x00000000#32))
        (addf (matmul (F := Ideal) dot_S2048x512_S512x32_S2048x32_1_0_0_1_n_n none (truncf .bf16 x bitsLt_bf16_f32)
                (transpose S512x32 [1, 0] (truncf .bf16 v14 bitsLt_bf16_f32) transposes_S32x512_p1_0_S512x32)
                (constant (F := Ideal) S2048x32 .f32 0x00000000#32))
              (broadcastTo S2048x32 (shapeCast S1x32 v19 shapeCasts_S32_S1x32) broadcasts_S1x32_S2048x32))) (ix2 p o)
      = Cert.Spec.layer1 (fun k => x (ix2 p k)) v14 v19 o := by
  refine (clip_apply _ (ix2 p o)).trans ?_
  unfold Cert.Spec.layer1
  refine congrArg Cert.Spec.clip01 ?_
  rw [addf_apply, matmulA_apply, bias_row_apply]
  refine congrArg (· + v19 (ix1 o)) (Finset.sum_congr rfl fun k _ => ?_)
  rw [transpose_ix2_apply]
  rfl

/-- The second layer over any input array, at `(p, o)`. -/
theorem layer2_apply (x : FVec Ideal S2048x32 .f32) (v27 : Vec Ideal S32x32 .f32) (v32 : Vec Ideal S32 .f32) (p : Fin 2048) (o : Fin 32) :
    minimumf (broadcast S2048x32 (Scalar.ofBits (F := Ideal) .f32 0x3F800000#32))
      (maximumf (broadcast S2048x32 (Scalar.ofBits (F := Ideal) .f32 0x00000000#32))
        (addf (matmul (F := Ideal) dot_S2048x32_S32x32_S2048x32_1_0_0_1_n_n none (truncf .bf16 x bitsLt_bf16_f32)
                (transpose S32x32 [1, 0] (truncf .bf16 v27 bitsLt_bf16_f32) transposes_S32x32_p1_0_S32x32)
                (constant (F := Ideal) S2048x32 .f32 0x00000000#32))
              (broadcastTo S2048x32 (shapeCast S1x32 v32 shapeCasts_S32_S1x32) broadcasts_S1x32_S2048x32))) (ix2 p o)
      = Cert.Spec.layer2 (fun k => x (ix2 p k)) v27 v32 o := by
  refine (clip_apply _ (ix2 p o)).trans ?_
  unfold Cert.Spec.layer2
  refine congrArg Cert.Spec.clip01 ?_
  rw [addf_apply, matmulB_apply, bias_row_apply]
  refine congrArg (· + v32 (ix1 o)) (Finset.sum_congr rfl fun k _ => ?_)
  rw [transpose_ix2_apply]
  rfl

/-- The output layer over any input array, at row `p`. -/
theorem layer3_apply (x : FVec Ideal S2048x32 .f32) (v40 : Vec Ideal S1x32 .f32) (v45 : Vec Ideal S1 .f32) (p : Fin 2048) :
    addf (matmul (F := Ideal) dot_S2048x32_S32x1_S2048x1_1_0_0_1_n_n none (truncf .bf16 x bitsLt_bf16_f32)
            (transpose S32x1 [1, 0] (truncf .bf16 v40 bitsLt_bf16_f32) transposes_S1x32_p1_0_S32x1)
            (constant (F := Ideal) S2048x1 .f32 0x00000000#32))
         (broadcastTo S2048x1 (shapeCast S1x1 v45 shapeCasts_S1_S1x1) broadcasts_S1x1_S2048x1) (ix2 p (0 : Fin 1))
      = Cert.Spec.layer3 (fun k => x (ix2 p k)) v40 v45 := by
  unfold Cert.Spec.layer3
  rw [addf_apply, matmulC_apply, bias_row_apply]
  refine congrArg (· + v45 (ix1 (0 : Fin 1))) (Finset.sum_congr rfl fun k _ => ?_)
  rw [transpose_ix2_apply]
  rfl

/-! ## The body's value at a row -/

/-- The body's stored value at row `p` of its block is the evaluation of row `p`'s two accumulator rows and side to move. -/
theorem mlp_payload (v0 v2 : Vec Ideal S2048x256 .f32) (v4 : Vec Ideal S2048x1 .f32) (v14 : Vec Ideal S32x512 .f32)
    (v19 : Vec Ideal S32 .f32) (v27 : Vec Ideal S32x32 .f32) (v32 : Vec Ideal S32 .f32) (v40 : Vec Ideal S1x32 .f32)
    (v45 : Vec Ideal S1 .f32) (p : Fin 2048) :
    k2_pay1 (F := Ideal) (k2_pay2 (F := Ideal) v0 v2 v4 v14 v19 v27 v32) v40 v45 (ix2 p (0 : Fin 1))
      = Cert.Spec.mlpRow (fun h => v0 (ix2 p h)) (fun h => v2 (ix2 p h)) (v4 (ix2 p (0 : Fin 1))) v14 v19 v27 v32 v40 v45 := by
  unfold k2_pay1
  refine (layer3_apply _ v40 v45 p).trans ?_
  unfold Cert.Spec.mlpRow
  refine congrArg (fun f => Cert.Spec.layer3 f v40 v45) (funext fun k => ?_)
  unfold k2_pay2
  refine (layer2_apply _ v27 v32 p k).trans ?_
  refine congrArg (fun f => Cert.Spec.layer2 f v27 v32 k) (funext fun k' => ?_)
  refine (layer1_apply _ v14 v19 p k').trans ?_
  refine congrArg (fun f => Cert.Spec.layer1 f v14 v19 k') (funext fun j => ?_)
  exact mixed_apply v0 v2 v4 p j

end Cert.KernelIdeal.MlpValue

end
-- ==== Proof.MlpValue.lean ====
/-
  From the body's value at a row of a block to the whole array of evaluations.

  The evaluation call runs on a grid of 16 points. At point `t` the three per-position inputs (the two sides'
  accumulators and the side-to-move weight) are read through blocks of 2048 rows starting at row `2048 · t`, the six
  weight and bias arrays are read whole, and the body's one store fills the output's block of the same 2048 rows. So
  what point `t` writes back is rows `2048 · t … 2048 · t + 2047` of `Cert.Spec.mlpSpec` of the arrays the call finds;
  row `ρ` of the output lies in the block of point `ρ / 2048`, every point writes its block back, and the output array
  therefore ends holding `mlpSpec` of the inputs everywhere.
-/
import proofs.«415106_j64158221467786_1_alg».proof.Proof.MlpRegion
import proofs.«415106_j64158221467786_1_alg».proof.Proof.MlpPayload
import proofs.«415106_j64158221467786_1_alg».proof.Proof.Spec
import Idealize.ShloMosaic.Lib.Pipeline.Value
import Idealize.ShloMosaic.Lib.ValueIdx

noncomputable section

namespace Cert.KernelIdeal.MlpValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the buffer contents the call finds on entry
variable (V : (c : Dev nD) → (b : Ref sig .tc) → Buf (Elt Ideal) ((c : Thread nD τ).loc b))

/-- The body's loads and its store start at the origin of their buffers. -/
theorem origin2 : (![0, 0] : Fin 2 → Nat) = fun _ => 0 := funext fun a => by fin_cases a <;> rfl
theorem origin1 : (![0] : Fin 1 → Nat) = fun _ => 0 := funext fun a => by fin_cases a; rfl

/-! ## The arrays and the blocks, at their literal types -/

/-- The two sides' accumulators, the side-to-move weights, and the three layers' weights and biases, as the call finds them. -/
abbrev accW (c : Dev nD) : Vec Ideal S32768x256 .f32 := V c main_v1
abbrev accB (c : Dev nD) : Vec Ideal S32768x256 .f32 := V c main_v2
abbrev stm (c : Dev nD) : Vec Ideal S32768x1 .f32 := V c main_arg2
abbrev l1w (c : Dev nD) : Vec Ideal S32x512 .f32 := V c main_arg5
abbrev l1b (c : Dev nD) : Vec Ideal S32 .f32 := V c main_arg6
abbrev l2w (c : Dev nD) : Vec Ideal S32x32 .f32 := V c main_arg7
abbrev l2b (c : Dev nD) : Vec Ideal S32 .f32 := V c main_arg8
abbrev l3w (c : Dev nD) : Vec Ideal S1x32 .f32 := V c main_arg9
abbrev l3b (c : Dev nD) : Vec Ideal S1 .f32 := V c main_arg10

/-- The evaluation of every position from those arrays. -/
abbrev evalArr (c : Dev nD) : Vec Ideal S32768x1 .f32 :=
  Cert.Spec.mlpSpec (accW V c) (accB V c) (stm V c) (l1w V c) (l1b V c) (l2w V c) (l2b V c) (l3w V c) (l3b V c)

/-- The nine input blocks at point `t`. -/
abbrev blkW (c : Dev nD) (t : Fin cfg2.N) : Vec Ideal S2048x256 .f32 := iblk2 V c 0 t
abbrev blkB (c : Dev nD) (t : Fin cfg2.N) : Vec Ideal S2048x256 .f32 := iblk2 V c 1 t
abbrev blkS (c : Dev nD) (t : Fin cfg2.N) : Vec Ideal S2048x1 .f32 := iblk2 V c 2 t
abbrev blkL1w (c : Dev nD) (t : Fin cfg2.N) : Vec Ideal S32x512 .f32 := iblk2 V c 3 t
abbrev blkL1b (c : Dev nD) (t : Fin cfg2.N) : Vec Ideal S32 .f32 := iblk2 V c 4 t
abbrev blkL2w (c : Dev nD) (t : Fin cfg2.N) : Vec Ideal S32x32 .f32 := iblk2 V c 5 t
abbrev blkL2b (c : Dev nD) (t : Fin cfg2.N) : Vec Ideal S32 .f32 := iblk2 V c 6 t
abbrev blkL3w (c : Dev nD) (t : Fin cfg2.N) : Vec Ideal S1x32 .f32 := iblk2 V c 7 t
abbrev blkL3b (c : Dev nD) (t : Fin cfg2.N) : Vec Ideal S1 .f32 := iblk2 V c 8 t

/-! ## Which block each window reads at a point -/

/-- The index maps over the 16 points: the three per-position inputs and the output take row block `t` (and the one
    column block there is); the six weight and bias windows take block 0 on every axis. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 1) = 0
    ∧ win2_9.index t (0 : Fin 2) = t.val ∧ win2_9.index t (1 : Fin 2) = 0 :=
  (by decide +kernel : ∀ t : Fin grid2.N, _)

/-! ## Each input block as entries of its array

A block's coordinate on an axis is the block index times the block's extent plus the coordinate inside the block. -/

/-- Row `p` of the first accumulator's block at point `t` is row `2048 · t + p` of the array. -/
theorem blkW_apply (c : Dev nD) (t : Fin cfg2.N) (p : Fin 2048) (h : Fin 256) (r : Fin 32768) (hr : r.val = t.val * 2048 + p.val) :
    blkW V c t (ix2 p h) = accW V c (ix2 r h) := by
  obtain ⟨e0, e1, -⟩ := index_facts t
  show V c main_v1 (((cfg2.win 0).blk t).view.emb (ix2 p h)) = V c main_v1 (ix2 r h)
  refine congrArg (V c main_v1) (funext fun a => Fin.ext ?_)
  match a with
  | ⟨0, _⟩ => show win2_0.index t (0 : Fin 2) * 2048 + 1 * p.val = r.val; omega
  | ⟨1, _⟩ => show win2_0.index t (1 : Fin 2) * 256 + 1 * h.val = h.val; omega

/-- The same for the second accumulator. -/
theorem blkB_apply (c : Dev nD) (t : Fin cfg2.N) (p : Fin 2048) (h : Fin 256) (r : Fin 32768) (hr : r.val = t.val * 2048 + p.val) :
    blkB V c t (ix2 p h) = accB V c (ix2 r h) := by
  obtain ⟨-, -, e0, e1, -⟩ := index_facts t
  show V c main_v2 (((cfg2.win 1).blk t).view.emb (ix2 p h)) = V c main_v2 (ix2 r h)
  refine congrArg (V c main_v2) (funext fun a => Fin.ext ?_)
  match a with
  | ⟨0, _⟩ => show win2_1.index t (0 : Fin 2) * 2048 + 1 * p.val = r.val; omega
  | ⟨1, _⟩ => show win2_1.index t (1 : Fin 2) * 256 + 1 * h.val = h.val; omega

/-- The same for the side-to-move weight, a single column. -/
theorem blkS_apply (c : Dev nD) (t : Fin cfg2.N) (p : Fin 2048) (r : Fin 32768) (hr : r.val = t.val * 2048 + p.val) :
    blkS V c t (ix2 p (0 : Fin 1)) = stm V c (ix2 r (0 : Fin 1)) := by
  obtain ⟨-, -, -, -, e0, e1, -⟩ := index_facts t
  show V c main_arg2 (((cfg2.win 2).blk t).view.emb (ix2 p (0 : Fin 1))) = V c main_arg2 (ix2 r (0 : Fin 1))
  refine congrArg (V c main_arg2) (funext fun a => Fin.ext ?_)
  match a with
  | ⟨0, _⟩ => show win2_2.index t (0 : Fin 2) * 2048 + 1 * p.val = r.val; omega
  | ⟨1, _⟩ => show win2_2.index t (1 : Fin 2) * 1 + 1 * 0 = 0; omega

/-- Each weight or bias block, at every point, is its whole array. -/
theorem blkL1w_eq (c : Dev nD) (t : Fin cfg2.N) : blkL1w V c t = l1w V c := by
  obtain ⟨-, -, -, -, -, -, e0, e1, -⟩ := index_facts t
  funext y
  show V c main_arg5 (((cfg2.win 3).blk t).view.emb y) = V c main_arg5 y
  refine congrArg (V c main_arg5) (funext fun a => Fin.ext ?_)
  match a with
  | ⟨0, _⟩ => show win2_3.index t (0 : Fin 2) * 32 + 1 * (y 0).val = (y 0).val; omega
  | ⟨1, _⟩ => show win2_3.index t (1 : Fin 2) * 512 + 1 * (y 1).val = (y 1).val; omega

theorem blkL1b_eq (c : Dev nD) (t : Fin cfg2.N) : blkL1b V c t = l1b V c := by
  obtain ⟨-, -, -, -, -, -, -, -, e0, -⟩ := index_facts t
  funext y
  show V c main_arg6 (((cfg2.win 4).blk t).view.emb y) = V c main_arg6 y
  refine congrArg (V c main_arg6) (funext fun a => Fin.ext ?_)
  match a with
  | ⟨0, _⟩ => show win2_4.index t (0 : Fin 1) * 32 + 1 * (y 0).val = (y 0).val; omega

theorem blkL2w_eq (c : Dev nD) (t : Fin cfg2.N) : blkL2w V c t = l2w V c := by
  obtain ⟨-, -, -, -, -, -, -, -, -, e0, e1, -⟩ := index_facts t
  funext y
  show V c main_arg7 (((cfg2.win 5).blk t).view.emb y) = V c main_arg7 y
  refine congrArg (V c main_arg7) (funext fun a => Fin.ext ?_)
  match a with
  | ⟨0, _⟩ => show win2_5.index t (0 : Fin 2) * 32 + 1 * (y 0).val = (y 0).val; omega
  | ⟨1, _⟩ => show win2_5.index t (1 : Fin 2) * 32 + 1 * (y 1).val = (y 1).val; omega

theorem blkL2b_eq (c : Dev nD) (t : Fin cfg2.N) : blkL2b V c t = l2b V c := by
  obtain ⟨-, -, -, -, -, -, -, -, -, -, -, e0, -⟩ := index_facts t
  funext y
  show V c main_arg8 (((cfg2.win 6).blk t).view.emb y) = V c main_arg8 y
  refine congrArg (V c main_arg8) (funext fun a => Fin.ext ?_)
  match a with
  | ⟨0, _⟩ => show win2_6.index t (0 : Fin 1) * 32 + 1 * (y 0).val = (y 0).val; omega

theorem blkL3w_eq (c : Dev nD) (t : Fin cfg2.N) : blkL3w V c t = l3w V c := by
  obtain ⟨-, -, -, -, -, -, -, -, -, -, -, -, e0, e1, -⟩ := index_facts t
  funext y
  show V c main_arg9 (((cfg2.win 7).blk t).view.emb y) = V c main_arg9 y
  refine congrArg (V c main_arg9) (funext fun a => Fin.ext ?_)
  match a with
  | ⟨0, _⟩ => show win2_7.index t (0 : Fin 2) * 1 + 1 * (y 0).val = (y 0).val; omega
  | ⟨1, _⟩ => show win2_7.index t (1 : Fin 2) * 32 + 1 * (y 1).val = (y 1).val; omega

theorem blkL3b_eq (c : Dev nD) (t : Fin cfg2.N) : blkL3b V c t = l3b V c := by
  obtain ⟨-, -, -, -, -, -, -, -, -, -, -, -, -, -, e0, -⟩ := index_facts t
  funext y
  show V c main_arg10 (((cfg2.win 8).blk t).view.emb y) = V c main_arg10 y
  refine congrArg (V c main_arg10) (funext fun a => Fin.ext ?_)
  match a with
  | ⟨0, _⟩ => show win2_8.index t (0 : Fin 1) * 1 + 1 * (y 0).val = (y 0).val; omega

/-! ## What a point writes back -/

/-- What point `t` writes back is block `t` of the evaluations of the arrays the call finds: the body's value at row
    `p` is the evaluation of the block's row `p`, and that row is row `2048 · t + p` of each per-position array. -/
theorem flushed_eq (c : Dev nD) (t : Fin cfg2.N) :
    (dat2 (F := Ideal) V c).flushed 9 t = ((cfg2.win 9).blk t).view.read (Elt Ideal) (evalArr V c) := by
  show (cfg2.win 9).cut (grid2.coords t) ((dat2 (F := Ideal) V c).after 9 t) = _
  rw [after2_9]
  unfold out2_9
  rw [View.canon_unit_zero origin2]
  simp only [View.ld_unit_zero (S := S2048x256) origin2, View.ld_unit_zero (S := S2048x1) origin2, View.ld_unit_zero (S := S32x512) origin2,
    View.ld_unit_zero (S := S32) origin1, View.ld_unit_zero (S := S32x32) origin2, View.ld_unit_zero (S := S1x32) origin2, View.ld_unit_zero (S := S1) origin1]
  funext y
  obtain ⟨p, q, rfl⟩ : ∃ (p : Fin 2048) (q : Fin 1), y = ix2 p q := ⟨y 0, y 1, eq_ix2 y⟩
  obtain rfl : q = 0 := Subsingleton.elim _ _
  have ht : t.val < 16 := lt_of_lt_of_eq t.isLt N_2
  obtain ⟨-, -, -, -, -, -, -, -, -, -, -, -, -, -, -, e0, e1⟩ := index_facts t
  have hemb : ((cfg2.win 9).blk t).view.emb (ix2 p (0 : Fin 1)) = ix2 (⟨t.val * 2048 + p.val, by omega⟩ : Fin 32768) (0 : Fin 1) :=
    funext fun a => Fin.ext (by
      match a with
      | ⟨0, _⟩ => show win2_9.index t (0 : Fin 2) * 2048 + 1 * p.val = t.val * 2048 + p.val; omega
      | ⟨1, _⟩ => show win2_9.index t (1 : Fin 2) * 1 + 1 * 0 = 0; omega)
  show k2_pay1 (F := Ideal) (k2_pay2 (F := Ideal) (blkW V c t) (blkB V c t) (blkS V c t) (blkL1w V c t) (blkL1b V c t) (blkL2w V c t) (blkL2b V c t))
      (blkL3w V c t) (blkL3b V c t) (ix2 p (0 : Fin 1)) = evalArr V c (((cfg2.win 9).blk t).view.emb (ix2 p (0 : Fin 1)))
  rw [hemb, blkL1w_eq, blkL1b_eq, blkL2w_eq, blkL2b_eq, blkL3w_eq, blkL3b_eq]
  refine (mlp_payload (blkW V c t) (blkB V c t) (blkS V c t) (l1w V c) (l1b V c) (l2w V c) (l2b V c) (l3w V c) (l3b V c) p).trans ?_
  have eW : (fun h => blkW V c t (ix2 p h)) = fun h => accW V c (ix2 (⟨t.val * 2048 + p.val, by omega⟩ : Fin 32768) h) :=
    funext fun h => blkW_apply V c t p h _ rfl
  have eB : (fun h => blkB V c t (ix2 p h)) = fun h => accB V c (ix2 (⟨t.val * 2048 + p.val, by omega⟩ : Fin 32768) h) :=
    funext fun h => blkB_apply V c t p h _ rfl
  rw [eW, eB, blkS_apply V c t p ⟨t.val * 2048 + p.val, by omega⟩ rfl]
  rfl

/-! ## The output's blocks tile its array -/

/-- An index of the output array is in point `t`'s block iff each coordinate is in the block's range on its axis. -/
theorem mem_blk (t : Fin cfg2.N) (i : S32768x1.Idx) :
    i ∈ ((cfg2.win 9).blk t).view.set ↔ ∀ a : Fin 2, win2_9.index t a * S2048x1.size a ≤ (i a).val ∧ (i a).val < win2_9.index t a * S2048x1.size a + S2048x1.size a := by
  show i ∈ ((View.whole main_v3).slice (win2_9.rect t)).set ↔ _
  rw [View.set_slice_whole, Rect.mem_set_unit]
  exact Iff.rfl

/-- Row `ρ` of the output is in the block of point `ρ / 2048`, which writes its block back like every point. -/
theorem cover (i : S32768x1.Idx) : ∃ t : Fin cfg2.N, (cfg2.win 9).flush t = true ∧ i ∈ ((cfg2.win 9).blk t).view.set := by
  have hi0 : (i 0).val < 32768 := (i 0).isLt
  have hi1 : (i 1).val < 1 := (i 1).isLt
  have ht : (i 0).val / 2048 < cfg2.N := lt_of_lt_of_eq (by omega) N_2.symm
  obtain ⟨-, -, -, -, -, -, -, -, -, -, -, -, -, -, -, e0, e1⟩ := index_facts ⟨(i 0).val / 2048, ht⟩
  refine ⟨⟨(i 0).val / 2048, ht⟩, flush2_9 _, ?_⟩
  rw [mem_blk]
  intro a
  match a with
  | ⟨0, _⟩ =>
    show win2_9.index ⟨(i 0).val / 2048, ht⟩ (0 : Fin 2) * 2048 ≤ (i 0).val ∧ (i 0).val < win2_9.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win2_9.index ⟨(i 0).val / 2048, ht⟩ (1 : Fin 2) * 1 ≤ (i 1).val ∧ (i 1).val < win2_9.index ⟨(i 0).val / 2048, ht⟩ (1 : Fin 2) * 1 + 1
    omega

/-! ## The array after the call -/

/-- After all 16 points the output array holds the evaluation of every position from the arrays the call found. -/
theorem mlp_final (c : Dev nD) :
    (dat2 (F := Ideal) V c).arrAt 9 cfg2.N = Cert.Spec.mlpSpec (V c main_v1) (V c main_v2) (V c main_arg2) (V c main_arg5) (V c main_arg6) (V c main_arg7) (V c main_arg8) (V c main_arg9) (V c main_arg10) :=
  (dat2 (F := Ideal) V c).arrAt_eq_of_cover 9 (evalArr V c) (fun t _ => flushed_eq V c t) cover

end Cert.KernelIdeal.MlpValue

end
-- ==== Proof.NetValue.lean ====
/-
  The idealized kernel program's result, end to end. Its third region leaves the evaluation `mlpSpec` of what it finds in
  the two accumulator arrays; those hold what the first two regions left, `ftSpec` of each side's indices, of the table
  as the host stretch converted it (a change of float format: the identity on the extended reals) and of the bias; every
  other operand is an argument array, unchanged since launch. Composed: the network `netSpec` of the arguments.
-/
import proofs.«415106_j64158221467786_1_alg».proof.Proof.MainRun
import proofs.«415106_j64158221467786_1_alg».proof.Proof.Ft0Value
import proofs.«415106_j64158221467786_1_alg».proof.Proof.Ft1Value
import proofs.«415106_j64158221467786_1_alg».proof.Proof.MlpValue
import proofs.«415106_j64158221467786_1_alg».proof.Proof.Spec

noncomputable section

namespace Cert.KernelIdeal.NetValue

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- The table as region 0 and region 1 find it: the launch table (converting it to the narrower float format changes
    nothing on the extended reals). -/
theorem table_eq (c : Dev nD) : V1 (F := Ideal) m ρ c main_v0 = (m ((c : Thread nD τ).loc main_arg3)) := by
  rw [V1_main_v0]; rfl

/-- What the run leaves in the result array: the network of the launch arguments, given that both index arrays hold
    row numbers of the table. -/
theorem net_value (c : Dev nD)
    (h0 : ∀ i, ((m ((c : Thread nD τ).loc main_arg0)) i).toNat < 40960)
    (h1 : ∀ i, ((m ((c : Thread nD τ).loc main_arg1)) i).toNat < 40960) :
    W4 (F := Ideal) m ρ c (Proc.devRef .tc main_v3)
      = Cert.Spec.netSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W4_main_v3, Cert.KernelIdeal.MlpValue.mlp_final (V3 m ρ) c, V3_main_v1, V3_main_v2,
    Cert.KernelIdeal.FtValue.ft0_final (V1 m ρ) c (by rw [V1_main_arg0]; exact h0),
    Cert.KernelIdeal.FtValue1.ft1_final (V2 m ρ) c (by rw [V2_main_arg1]; exact h1),
    V3_main_arg2, V3_main_arg5, V3_main_arg6, V3_main_arg7, V3_main_arg8, V3_main_arg9, V3_main_arg10,
    V1_main_arg0, V1_main_arg4, V2_main_arg1, V2_main_arg4, V2_main_v0, table_eq]
  rfl

end Cert.KernelIdeal.NetValue

end
-- ==== Proof.RefFt.lean ====
/-
  One side's accumulator in the reference, read entry by entry, is the specification's.

  For each position and each of its 32 feature slots the reference takes the table row that the slot's word names, sums
  the 32 rows, adds the bias and clips to [0, 1]. Before a row is taken, a negative word has 40960 added to it and the
  result is clamped into the table's 40960 rows; on a word that already is a row number both steps do nothing, so the
  row taken is the row named, and the accumulator entry is the specification's sum of named rows plus bias, clipped.
-/
import proofs.«415106_j64158221467786_1_alg».proof.Proof.Gen.ReferenceIdeal.Read
import proofs.«415106_j64158221467786_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Idealize.ShloMosaic.StableHlo

/-! ## Words: a row number read signed

A table has 40960 rows, far fewer than 2^31, so a word that names a row is not negative when read signed: the
"add 40960 to a negative index" stage returns it unchanged, and its signed reading is its unsigned one. -/

/-- A word below 40960 is not below zero in the signed order. -/
theorem slt_zero (w : BitVec 32) (h : w.toNat < 40960) : IntOp.cmpi .slt w 0#32 = 0#1 := by
  have hs : w.slt 0#32 = false := by
    simp only [BitVec.slt, BitVec.toInt_eq_toNat_cond]
    simp
    omega
  simp [IntOp.cmpi, hs]

/-- So the wrap-around of negative indices leaves it alone. -/
theorem wrap_id (w : BitVec 32) (h : w.toNat < 40960) :
    Scalar.select (IntOp.cmpi .slt w 0#32) (IntOp.addi w 40960#32) w = w := by
  rw [slt_zero w h, select_zero]

/-- Its signed reading, as a natural number, is its unsigned one. -/
theorem toInt_toNat (w : BitVec 32) (h : w.toNat < 40960) : w.toInt.toNat = w.toNat := by
  rw [BitVec.toInt_eq_toNat_cond]
  have : 2 * w.toNat < 2 ^ 32 := by omega
  rw [if_pos this]
  exact Int.toNat_natCast _

/-! ## The row gather read at an index

The gather takes, for position `r` and feature slot `a`, the whole 256-entry row of the table whose number is the start
index at `(r, a, 0)`, read signed and clamped into [0, 40959]; entry `h` of the result is entry `h` of that row. On the
row axis the operand coordinate is the clamped start alone (the axis is collapsed: no offset, no batch coordinate); on
the column axis it is the result's offset coordinate alone. -/

theorem gather_axis0 (idx : IVec S32768x32x1 32) (r : Fin 32768) (a : Fin 32) (h : Fin 256) :
    (gather_S40960x256_S32768x32x1_S32768x32x256_2_0_n_n_0_2_1256.operandIdx (ix3 r a h) idx 0).val
      = min (idx (ix3 r a (0 : Fin 1))).toInt.toNat 40959 := by
  show GatherDims.start _ (ix3 r a h) idx 0 + GatherDims.batchCoord _ (ix3 r a h) 0 + GatherDims.offCoord _ (ix3 r a h) 0 = _
  rw [GatherDims.batchCoord_eq_zero _ _ _ (by decide),
    GatherDims.offCoord_eq_zero _ _ _ (fun hm => ((GatherDims.mem_sKept _ _).mp hm).1 (by decide))]
  simp only [Nat.add_zero]
  unfold GatherDims.start
  rw [dif_pos (show (0 : Fin S40960x256.rank) ∈ gather_S40960x256_S32768x32x1_S32768x32x256_2_0_n_n_0_2_1256.startIndexMap by decide)]
  have hsi : gather_S40960x256_S32768x32x1_S32768x32x256_2_0_n_n_0_2_1256.siIdx (ix3 r a h)
      ⟨List.idxOf (0 : Fin S40960x256.rank) gather_S40960x256_S32768x32x1_S32768x32x256_2_0_n_n_0_2_1256.startIndexMap,
        List.idxOf_lt_length_iff.2 (by decide)⟩ = ix3 r a (0 : Fin 1) := by
    funext b; refine Fin.ext ?_
    match b with
    | ⟨0, _⟩ => rfl
    | ⟨1, _⟩ => rfl
    | ⟨2, _⟩ => rfl
  rw [hsi]
  rfl

theorem gather_axis1 (idx : IVec S32768x32x1 32) (r : Fin 32768) (a : Fin 32) (h : Fin 256) :
    (gather_S40960x256_S32768x32x1_S32768x32x256_2_0_n_n_0_2_1256.operandIdx (ix3 r a h) idx 1).val = h.val := by
  show GatherDims.start _ (ix3 r a h) idx 1 + GatherDims.batchCoord _ (ix3 r a h) 1 + GatherDims.offCoord _ (ix3 r a h) 1 = _
  rw [GatherDims.batchCoord_eq_zero _ _ _ (by decide)]
  unfold GatherDims.start
  rw [dif_neg (show ¬ (1 : Fin S40960x256.rank) ∈ gather_S40960x256_S32768x32x1_S32768x32x256_2_0_n_n_0_2_1256.startIndexMap by decide)]
  unfold GatherDims.offCoord
  rw [dif_pos (show (1 : Fin S40960x256.rank) ∈ gather_S40960x256_S32768x32x1_S32768x32x256_2_0_n_n_0_2_1256.sKept by decide)]
  simp only [Nat.add_zero, Nat.zero_add]
  rfl

/-- The gather at `(r, a, h)`: the table at the clamped start row and column `h`. -/
theorem gather_row {α : Type} (x : S40960x256.Idx → α) (idx : IVec S32768x32x1 32) (r : Fin 32768) (a : Fin 32) (h : Fin 256) :
    Host.gather gather_S40960x256_S32768x32x1_S32768x32x256_2_0_n_n_0_2_1256 x idx (ix3 r a h)
      = x (ix2 (⟨min (idx (ix3 r a (0 : Fin 1))).toInt.toNat 40959, by omega⟩ : Fin 40960) h) := by
  unfold Host.gather
  congr 1
  funext b
  refine Fin.ext ?_
  match b with
  | ⟨0, _⟩ => exact gather_axis0 idx r a h
  | ⟨1, _⟩ => exact gather_axis1 idx r a h

/-! ## One side's accumulator is the specification's -/

section White
variable (x0 : (⟨S32768x32, .i32⟩ : BufTy).Contents (Elt Ideal)) (x3 : (⟨S40960x256, .f32⟩ : BufTy).Contents (Elt Ideal))
  (x4 : (⟨S256, .f32⟩ : BufTy).Contents (Elt Ideal)) (h0 : ∀ i, (x0 i).toNat < 40960)
include h0

/-- The start index at `(r, a, 0)` is the feature word itself. -/
theorem start_white (r : Fin 32768) (a : Fin 32) :
    val_main_v5 (F := Ideal) x0 (ix3 r a (0 : Fin 1)) = x0 (ix2 r a) := by
  have e : idx_main_v5 (ix3 r a (0 : Fin 1)) = ix2 r a :=
    funext fun d => Fin.ext (by match d with | ⟨0, _⟩ => rfl | ⟨1, _⟩ => rfl)
  rw [val_main_v5_apply, e, val_main_v4_apply, val_main_v1_apply, val_main_v3_apply, val_main_v0_apply, val_main_c_apply,
    val_main_v2_apply, val_main_c_0_apply]
  exact wrap_id _ (h0 _)

/-- The gathered entry `(r, a, h)` is column `h` of the row the feature word names. -/
theorem gathered_white (r : Fin 32768) (a : Fin 32) (h : Fin 256) :
    val_main_v6 (F := Ideal) x0 x3 (ix3 r a h) = x3 (ix2 (Cert.Spec.rowOf (x0 (ix2 r a))) h) := by
  unfold val_main_v6
  refine (gather_row x3 _ r a h).trans (congrArg x3 (funext fun d => Fin.ext ?_))
  match d with
  | ⟨0, _⟩ =>
    show min (val_main_v5 (F := Ideal) x0 (ix3 r a (0 : Fin 1))).toInt.toNat 40959 = min (x0 (ix2 r a)).toNat 40959
    rw [start_white x0 h0, toInt_toNat _ (h0 _)]
  | ⟨1, _⟩ => rfl

/-- Summed over the 32 feature slots. -/
theorem summed_white (r : Fin 32768) (h : Fin 256) :
    val_main_v7 (F := Ideal) x0 x3 (ix2 r h) = ∑ a : Fin 32, x3 (ix2 (Cert.Spec.rowOf (x0 (ix2 r a))) h) := by
  rw [val_main_v7_apply, val_main_cst_apply, Ideal.ofBits_def, Ideal.ofBits_zero_f32, zero_add]
  refine Finset.sum_congr rfl fun a _ => ?_
  have e : idx_main_v7 (ix2 r h) a = ix3 r a h :=
    funext fun d => Fin.ext (by match d with | ⟨0, _⟩ => rfl | ⟨1, _⟩ => rfl | ⟨2, _⟩ => rfl)
  rw [e, gathered_white x0 x3 h0]

/-- The white side's accumulator array. -/
theorem ft_white : val_main_v11 (F := Ideal) x0 x3 x4 = Cert.Spec.ftSpec x0 x3 x4 := by
  funext i
  obtain ⟨r, h, rfl⟩ : ∃ (r : Fin 32768) (h : Fin 256), i = ix2 r h := ⟨i 0, i 1, eq_ix2 i⟩
  have e : idx_main_v8 (idx_main_v9 (ix2 r h)) = ix1 h :=
    funext fun d => Fin.ext (by match d with | ⟨0, _⟩ => rfl)
  rw [val_main_v11_apply, val_main_call0_v4_apply, val_main_call0_v3_apply, val_main_cst_2_apply, val_main_call0_v2_apply,
    val_main_call0_v1_apply, val_main_call0_v0_apply, val_main_cst_1_apply, val_main_v10_apply, summed_white x0 x3 h0,
    val_main_v9_apply, val_main_v8_apply, e]
  rfl

end White

section Black
variable (x1 : (⟨S32768x32, .i32⟩ : BufTy).Contents (Elt Ideal)) (x3 : (⟨S40960x256, .f32⟩ : BufTy).Contents (Elt Ideal))
  (x4 : (⟨S256, .f32⟩ : BufTy).Contents (Elt Ideal)) (h1 : ∀ i, (x1 i).toNat < 40960)
include h1

theorem start_black (r : Fin 32768) (a : Fin 32) :
    val_main_v17 (F := Ideal) x1 (ix3 r a (0 : Fin 1)) = x1 (ix2 r a) := by
  have e : idx_main_v17 (ix3 r a (0 : Fin 1)) = ix2 r a :=
    funext fun d => Fin.ext (by match d with | ⟨0, _⟩ => rfl | ⟨1, _⟩ => rfl)
  rw [val_main_v17_apply, e, val_main_v16_apply, val_main_v13_apply, val_main_v15_apply, val_main_v12_apply, val_main_c_3_apply,
    val_main_v14_apply, val_main_c_4_apply]
  exact wrap_id _ (h1 _)

theorem gathered_black (r : Fin 32768) (a : Fin 32) (h : Fin 256) :
    val_main_v18 (F := Ideal) x1 x3 (ix3 r a h) = x3 (ix2 (Cert.Spec.rowOf (x1 (ix2 r a))) h) := by
  unfold val_main_v18
  refine (gather_row x3 _ r a h).trans (congrArg x3 (funext fun d => Fin.ext ?_))
  match d with
  | ⟨0, _⟩ =>
    show min (val_main_v17 (F := Ideal) x1 (ix3 r a (0 : Fin 1))).toInt.toNat 40959 = min (x1 (ix2 r a)).toNat 40959
    rw [start_black x1 h1, toInt_toNat _ (h1 _)]
  | ⟨1, _⟩ => rfl

theorem summed_black (r : Fin 32768) (h : Fin 256) :
    val_main_v19 (F := Ideal) x1 x3 (ix2 r h) = ∑ a : Fin 32, x3 (ix2 (Cert.Spec.rowOf (x1 (ix2 r a))) h) := by
  rw [val_main_v19_apply, val_main_cst_5_apply, Ideal.ofBits_def, Ideal.ofBits_zero_f32, zero_add]
  refine Finset.sum_congr rfl fun a _ => ?_
  have e : idx_main_v19 (ix2 r h) a = ix3 r a h :=
    funext fun d => Fin.ext (by match d with | ⟨0, _⟩ => rfl | ⟨1, _⟩ => rfl | ⟨2, _⟩ => rfl)
  rw [e, gathered_black x1 x3 h1]

/-- The black side's accumulator array. -/
theorem ft_black : val_main_v23 (F := Ideal) x1 x3 x4 = Cert.Spec.ftSpec x1 x3 x4 := by
  funext i
  obtain ⟨r, h, rfl⟩ : ∃ (r : Fin 32768) (h : Fin 256), i = ix2 r h := ⟨i 0, i 1, eq_ix2 i⟩
  have e : idx_main_v20 (idx_main_v21 (ix2 r h)) = ix1 h :=
    funext fun d => Fin.ext (by match d with | ⟨0, _⟩ => rfl)
  rw [val_main_v23_apply, val_main_call1_v4_apply, val_main_call1_v3_apply, val_main_cst_7_apply, val_main_call1_v2_apply,
    val_main_call1_v1_apply, val_main_call1_v0_apply, val_main_cst_6_apply, val_main_v22_apply, summed_black x1 x3 h1,
    val_main_v21_apply, val_main_v20_apply, e]
  rfl

end Black

end Cert.ReferenceIdeal.RefValue

end
-- ==== Proof.RefMlp.lean ====
/-
  The reference's mixed features and its three layers, read entry by entry, are the specification's.

  The 512 mixed features weight the two orders of joining the accumulators — white then black, black then white — by the
  side to move and by one minus it. Each layer is a sum of products over the previous layer's outputs plus a bias, the
  first two clipped to [0, 1]. A weight matrix is stored output-major and read transposed, so output `o` meets input
  `k` at the matrix's entry `(o, k)`.
-/
import proofs.«415106_j64158221467786_1_alg».proof.Proof.Gen.ReferenceIdeal.Read
import proofs.«415106_j64158221467786_1_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx Idealize.ShloMosaic.StableHlo

/-! ## Two arrays joined along the feature axis, read at an index

Entry `k` of the 512 joined features is entry `k` of the first array when `k < 256` and entry `k − 256` of the second
otherwise. -/

theorem joined {α : Type} (u v : S32768x256.Idx → α) (r : Fin 32768) (k : Fin 512) :
    concatenate S32768x512 1 [⟨S32768x256, u⟩, ⟨S32768x256, v⟩] concatenates_S32768x256_S32768x256_S32768x512_d1 (ix2 r k)
      = if h : k.val < 256 then u (ix2 r ⟨k.val, h⟩) else v (ix2 r ⟨k.val - 256, by omega⟩) := by
  split
  · next h =>
    exact concatenate_pair_apply_left 1 u v concatenates_S32768x256_S32768x256_S32768x512_d1 (ix2 r k) rfl
      (ix2 r ⟨k.val, h⟩) (fun b => by match b with | ⟨0, _⟩ => rfl | ⟨1, _⟩ => rfl)
  · next h =>
    refine concatenate_pair_apply_right 1 u v concatenates_S32768x256_S32768x256_S32768x512_d1 (ix2 r k) rfl rfl
      (ix2 r ⟨k.val - 256, by omega⟩) (fun b => ?_) ?_
    · match b with
      | ⟨0, _⟩ => exact fun _ => rfl
      | ⟨1, _⟩ => exact fun hne => absurd rfl hne
    · show k.val - 256 + 256 = k.val
      omega

section Mlp
variable (x0 x1 : (⟨S32768x32, .i32⟩ : BufTy).Contents (Elt Ideal)) (x2 : (⟨S32768x1, .f32⟩ : BufTy).Contents (Elt Ideal))
  (x3 : (⟨S40960x256, .f32⟩ : BufTy).Contents (Elt Ideal)) (x4 : (⟨S256, .f32⟩ : BufTy).Contents (Elt Ideal))
  (x5 : (⟨S32x512, .f32⟩ : BufTy).Contents (Elt Ideal)) (x6 : (⟨S32, .f32⟩ : BufTy).Contents (Elt Ideal))
  (x7 : (⟨S32x32, .f32⟩ : BufTy).Contents (Elt Ideal)) (x8 : (⟨S32, .f32⟩ : BufTy).Contents (Elt Ideal))
  (x9 : (⟨S1x32, .f32⟩ : BufTy).Contents (Elt Ideal)) (x10 : (⟨S1, .f32⟩ : BufTy).Contents (Elt Ideal))

/-- White's accumulator then black's. -/
theorem white_black (r : Fin 32768) (k : Fin 512) :
    val_main_v24 (F := Ideal) x0 x1 x3 x4 (ix2 r k)
      = if h : k.val < 256 then val_main_v11 (F := Ideal) x0 x3 x4 (ix2 r ⟨k.val, h⟩)
        else val_main_v23 (F := Ideal) x1 x3 x4 (ix2 r ⟨k.val - 256, by omega⟩) := by
  unfold val_main_v24
  exact joined _ _ r k

/-- Black's accumulator then white's. -/
theorem black_white (r : Fin 32768) (k : Fin 512) :
    val_main_v29 (F := Ideal) x0 x1 x3 x4 (ix2 r k)
      = if h : k.val < 256 then val_main_v23 (F := Ideal) x1 x3 x4 (ix2 r ⟨k.val, h⟩)
        else val_main_v11 (F := Ideal) x0 x3 x4 (ix2 r ⟨k.val - 256, by omega⟩) := by
  unfold val_main_v29
  exact joined _ _ r k

/-- The 512 mixed features of position `r`. -/
theorem mixed (r : Fin 32768) (k : Fin 512) :
    val_main_v32 (F := Ideal) x0 x1 x2 x3 x4 (ix2 r k)
      = Cert.Spec.mixRow (fun h => val_main_v11 (F := Ideal) x0 x3 x4 (ix2 r h))
          (fun h => val_main_v23 (F := Ideal) x1 x3 x4 (ix2 r h)) (x2 (ix2 r (0 : Fin 1))) k := by
  have e25 : idx_main_v25 (ix2 r k) = ix2 r (0 : Fin 1) :=
    funext fun d => Fin.ext (by match d with | ⟨0, _⟩ => rfl | ⟨1, _⟩ => rfl)
  have e30 : idx_main_v30 (ix2 r k) = ix2 r (0 : Fin 1) :=
    funext fun d => Fin.ext (by match d with | ⟨0, _⟩ => rfl | ⟨1, _⟩ => rfl)
  rw [val_main_v32_apply, val_main_v26_apply, val_main_v25_apply, e25, white_black, val_main_v31_apply, val_main_v30_apply, e30,
    val_main_v28_apply, val_main_v27_apply, val_main_cst_8_apply, black_white]
  rfl

/-- The first layer's output `o` at position `r`. -/
theorem first_layer (r : Fin 32768) (o : Fin 32) :
    val_main_v38 (F := Ideal) x0 x1 x2 x3 x4 x5 x6 (ix2 r o)
      = Cert.Spec.layer1 (fun k => val_main_v32 (F := Ideal) x0 x1 x2 x3 x4 (ix2 r k)) x5 x6 o := by
  have el : ∀ k, lidx_main_v34 (ix2 r o) k = ix2 r k := fun k =>
    funext fun d => Fin.ext (by match d with | ⟨0, _⟩ => rfl | ⟨1, _⟩ => rfl)
  have er : ∀ k, idx_main_v33 (ridx_main_v34 (ix2 r o) k) = ix2 o k := fun k =>
    funext fun d => Fin.ext (by match d with | ⟨0, _⟩ => rfl | ⟨1, _⟩ => rfl)
  have eb : idx_main_v35 (idx_main_v36 (ix2 r o)) = ix1 o :=
    funext fun d => Fin.ext (by match d with | ⟨0, _⟩ => rfl)
  rw [val_main_v38_apply, val_main_call2_v4_apply, val_main_call2_v3_apply, val_main_cst_10_apply, val_main_call2_v2_apply,
    val_main_call2_v1_apply, val_main_call2_v0_apply, val_main_cst_9_apply, val_main_v37_apply, val_main_v34_apply,
    val_main_v36_apply, val_main_v35_apply, eb]
  simp only [val_main_v33_apply, el, er]
  rfl

/-- The second layer's output `o` at position `r`. -/
theorem second_layer (r : Fin 32768) (o : Fin 32) :
    val_main_v44 (F := Ideal) x0 x1 x2 x3 x4 x5 x6 x7 x8 (ix2 r o)
      = Cert.Spec.layer2 (fun k => val_main_v38 (F := Ideal) x0 x1 x2 x3 x4 x5 x6 (ix2 r k)) x7 x8 o := by
  have el : ∀ k, lidx_main_v40 (ix2 r o) k = ix2 r k := fun k =>
    funext fun d => Fin.ext (by match d with | ⟨0, _⟩ => rfl | ⟨1, _⟩ => rfl)
  have er : ∀ k, idx_main_v39 (ridx_main_v40 (ix2 r o) k) = ix2 o k := fun k =>
    funext fun d => Fin.ext (by match d with | ⟨0, _⟩ => rfl | ⟨1, _⟩ => rfl)
  have eb : idx_main_v41 (idx_main_v42 (ix2 r o)) = ix1 o :=
    funext fun d => Fin.ext (by match d with | ⟨0, _⟩ => rfl)
  rw [val_main_v44_apply, val_main_call3_v4_apply, val_main_call3_v3_apply, val_main_cst_12_apply, val_main_call3_v2_apply,
    val_main_call3_v1_apply, val_main_call3_v0_apply, val_main_cst_11_apply, val_main_v43_apply, val_main_v40_apply,
    val_main_v42_apply, val_main_v41_apply, eb]
  simp only [val_main_v39_apply, el, er]
  rfl

/-- The evaluation of position `r`. -/
theorem output_layer (r : Fin 32768) (z : Fin 1) :
    val_main_v49 (F := Ideal) x0 x1 x2 x3 x4 x5 x6 x7 x8 x9 x10 (ix2 r z)
      = Cert.Spec.layer3 (fun k => val_main_v44 (F := Ideal) x0 x1 x2 x3 x4 x5 x6 x7 x8 (ix2 r k)) x9 x10 := by
  have hz : z.val = 0 := by have := z.isLt; omega
  have el : ∀ k, lidx_main_v46 (ix2 r z) k = ix2 r k := fun k =>
    funext fun d => Fin.ext (by match d with | ⟨0, _⟩ => rfl | ⟨1, _⟩ => rfl)
  have er : ∀ k, idx_main_v45 (ridx_main_v46 (ix2 r z) k) = ix2 (0 : Fin 1) k := fun k =>
    funext fun d => Fin.ext (by match d with | ⟨0, _⟩ => exact hz | ⟨1, _⟩ => rfl)
  have eb : idx_main_v47 (idx_main_v48 (ix2 r z)) = ix1 (0 : Fin 1) :=
    funext fun d => Fin.ext (by match d with | ⟨0, _⟩ => rfl)
  rw [val_main_v49_apply, val_main_v46_apply, val_main_v48_apply, val_main_v47_apply, eb]
  simp only [val_main_v45_apply, el, er]
  rfl

end Mlp

end Cert.ReferenceIdeal.RefValue

end
-- ==== Proof.RefValue.lean ====
/-
  The reference's result array is the specification of the whole network: the output layer, over the second layer, over
  the first layer, over the mixed features of the two sides' accumulators. The accumulators are the specification's when
  every feature word is a row number of the table (below 40960); the layers and the mix need no hypothesis, being sums
  and products on the extended reals in the same order on both sides.
-/
import proofs.«415106_j64158221467786_1_alg».proof.Proof.RefFt
import proofs.«415106_j64158221467786_1_alg».proof.Proof.RefMlp

noncomputable section

namespace Cert.ReferenceIdeal.RefValue

open Cert.ReferenceIdeal Cert.ReferenceIdeal.Gen Cert.ReferenceIdeal.Read Idealize.ShloMosaic Idealize.ShloMosaic.ValueIdx Idealize.ShloMosaic.StableHlo

/-- The reference's result array is the specification: the output layer of the second layer of the first layer of the
    mixed features, whose two accumulator rows are the specification's under the row-number bounds. -/
theorem ref_eq (x0 x1 : (⟨S32768x32, .i32⟩ : BufTy).Contents (Elt Ideal)) (x2 : (⟨S32768x1, .f32⟩ : BufTy).Contents (Elt Ideal)) (x3 : (⟨S40960x256, .f32⟩ : BufTy).Contents (Elt Ideal)) (x4 : (⟨S256, .f32⟩ : BufTy).Contents (Elt Ideal)) (x5 : (⟨S32x512, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S1x32, .f32⟩ : BufTy).Contents (Elt Ideal)) (x10 : (⟨S1, .f32⟩ : BufTy).Contents (Elt Ideal))
    (h0 : ∀ i, (x0 i).toNat < 40960) (h1 : ∀ i, (x1 i).toNat < 40960) :
    Cert.ReferenceIdeal.Read.val_main_v49 (F := Ideal) x0 x1 x2 x3 x4 x5 x6 x7 x8 x9 x10 = Cert.Spec.netSpec x0 x1 x2 x3 x4 x5 x6 x7 x8 x9 x10 := by
  funext i
  obtain ⟨r, z, rfl⟩ : ∃ (r : Fin 32768) (z : Fin 1), i = ix2 r z := ⟨i 0, i 1, eq_ix2 i⟩
  rw [output_layer]
  simp only [second_layer, first_layer, mixed, ft_white x0 x3 x4 h0, ft_black x1 x3 x4 h1]
  rfl

end Cert.ReferenceIdeal.RefValue

end
-- ==== Proof.PreDecode.lean ====
import proofs.«415106_j64158221467786_1_alg».proof.Pre_finite_inputs
import Idealize.ShloMosaic.PureOps.Ideal
import Idealize.ShloMosaic.Lib.ReduceAll
import Idealize.ShloMosaic.Lib.StableHlo.Predicate
import Idealize.ShloMosaic.Lib.ValueIdx

/-!
# The precondition, read back

The precondition is one `i1` scalar: the conjunction of thirteen `all`-reductions. Nine say that
every entry `x` of a float array has `|x| < +∞`; four say that every entry `w` of the two index
arrays has `0 ≤ w` and `w < 40960` as signed words. Stated to be `1`, it gives: every float entry
is a real number, and every index word, read unsigned, is below `40960`.
-/

namespace Cert.Proof.Pre

open Idealize.ShloMosaic Cert.Pre_finite_inputs

/-- The scalar shape has one index. -/
instance scalarIdxSubsingleton : Subsingleton S_.Idx := ⟨fun a b => funext fun d => d.elim0⟩

/-- An extended real whose absolute value `max x (-x)` is below `+∞` is a real: `⊥` and `⊤` both
    have absolute value `⊤`. -/
theorem real_of_abs_lt_top (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

/-- `all(|x| < +∞) = 1` over a float array: every entry is a real. -/
theorem real_of_all {s : Shape} {axes : List (Fin s.rank)} (hb : S_.BroadcastsInDim s (![] : Fin 0 → Fin s.rank))
    (hr : s.ReducesTo axes S_) (h0 : 0 < S_.numel) (x : FVec Ideal s .f32) (j : S_.Idx)
    (e : Host.reduce IntOp.andi
          (cmpf .olt (Host.absf x) (broadcastInDim s ![] hb (constant (F := Ideal) S_ .f32 0x7F800000#32)))
          (constantI S_ 1 1#1) hr h0 j = 1#1) :
    ∀ i, ∃ r : ℝ, x i = (r : EReal) := by
  intro i
  have hi := Host.reduce_andi_all _ _ hr h0 j e i
  rw [cmpf, StableHlo.Predicate.bcast_scalar hb h0] at hi
  exact real_of_abs_lt_top (x i) hi

/-- `all(0 ≤ w) = 1` over a word array, the comparison signed: every word is nonnegative read signed. -/
theorem nonneg_of_all {s : Shape} {axes : List (Fin s.rank)} (hb : S_.BroadcastsInDim s (![] : Fin 0 → Fin s.rank))
    (hr : s.ReducesTo axes S_) (h0 : 0 < S_.numel) (a : IVec s 32) (j : S_.Idx)
    (e : Host.reduce IntOp.andi (cmpi .sge a (broadcastInDim s ![] hb (constantI S_ 32 0#32)))
          (constantI S_ 1 1#1) hr h0 j = 1#1) :
    ∀ i, 0 ≤ (a i).toInt := by
  intro i
  have hi := Host.reduce_andi_all _ _ hr h0 j e i
  rw [cmpi, StableHlo.Predicate.bcast_scalar hb h0, constantI, IntOp.cmpi_sge] at hi
  simpa using hi

/-- `all(w < 40960) = 1` over a word array, the comparison signed: every word is below `40960` read signed. -/
theorem lt_of_all {s : Shape} {axes : List (Fin s.rank)} (hb : S_.BroadcastsInDim s (![] : Fin 0 → Fin s.rank))
    (hr : s.ReducesTo axes S_) (h0 : 0 < S_.numel) (a : IVec s 32) (j : S_.Idx)
    (e : Host.reduce IntOp.andi (cmpi .slt a (broadcastInDim s ![] hb (constantI S_ 32 40960#32)))
          (constantI S_ 1 1#1) hr h0 j = 1#1) :
    ∀ i, (a i).toInt < 40960 := by
  intro i
  have hi := Host.reduce_andi_all _ _ hr h0 j e i
  rw [cmpi, StableHlo.Predicate.bcast_scalar hb h0, constantI, IntOp.cmpi_slt] at hi
  have : (40960#32 : BitVec 32).toInt = 40960 := by decide
  rwa [this] at hi

/-- A word that is nonnegative and below `40960` read signed is below `40960` read unsigned. -/
theorem toNat_lt (w : BitVec 32) (h0 : 0 ≤ w.toInt) (h1 : w.toInt < 40960) : w.toNat < 40960 := by
  rw [BitVec.toInt_eq_toNat_cond] at h0 h1
  split at h0 <;> omega

/-- The precondition stated to hold, read back: both index arrays hold words below `40960`, and every
    entry of the nine float arrays is a real number. -/
theorem decode [Cert.Pre_finite_inputs.Facts] (a0 a1 : IVec S32768x32 32) (a2 : FVec Ideal S32768x1 .f32)
    (a3 : FVec Ideal S40960x256 .f32) (a4 : FVec Ideal S256 .f32) (a5 : FVec Ideal S32x512 .f32)
    (a6 : FVec Ideal S32 .f32) (a7 : FVec Ideal S32x32 .f32) (a8 : FVec Ideal S32 .f32)
    (a9 : FVec Ideal S1x32 .f32) (a10 : FVec Ideal S1 .f32)
    (h : Cert.Pre_finite_inputs.fn (F := Ideal) a0 a1 a2 a3 a4 a5 a6 a7 a8 a9 a10 = fun _ => 1#1) :
    (∀ i, (a0 i).toNat < 40960) ∧ (∀ i, (a1 i).toNat < 40960)
    ∧ (∀ i, ∃ r : ℝ, a2 i = (r : EReal)) ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, ∃ r : ℝ, a9 i = (r : EReal)) ∧ (∀ i, ∃ r : ℝ, a10 i = (r : EReal)) := by
  have e := congrFun h ValueIdx.ix0
  dsimp only [fn, fn_part1, fn_part2, fn_part3, andi] at e
  simp only [IntOp.andi_eq_one] at e
  obtain ⟨⟨⟨⟨⟨⟨⟨⟨⟨⟨⟨⟨e2, e3⟩, e4⟩, e5⟩, e6⟩, e7⟩, e8⟩, e9⟩, e10⟩, p0⟩, q0⟩, p1⟩, q1⟩ := e
  have n0 := nonneg_of_all _ _ _ a0 _ p0
  have l0 := lt_of_all _ _ _ a0 _ q0
  have n1 := nonneg_of_all _ _ _ a1 _ p1
  have l1 := lt_of_all _ _ _ a1 _ q1
  exact ⟨fun i => toNat_lt _ (n0 i) (l0 i), fun i => toNat_lt _ (n1 i) (l1 i),
    real_of_all _ _ _ a2 _ e2, real_of_all _ _ _ a3 _ e3, real_of_all _ _ _ a4 _ e4, real_of_all _ _ _ a5 _ e5,
    real_of_all _ _ _ a6 _ e6, real_of_all _ _ _ a7 _ e7, real_of_all _ _ _ a8 _ e8, real_of_all _ _ _ a9 _ e9,
    real_of_all _ _ _ a10 _ e10⟩

end Cert.Proof.Pre
-- ==== Proof.lean ====
/-
  An NNUE-style evaluation network: each side's 32 active features name rows of a 40960 × 256 table; a side's
  accumulator is the sum of its rows plus a bias, clipped to [0, 1]; the side to move orders the two accumulators into
  512 mixed features, and three affine layers (the first two clipped) give the evaluation.

  The kernel program computes a side's accumulator WITHOUT a gather: per row block it runs through the table in 40
  slabs of 1024 rows, builds for each slab the multi-hot count matrix "how many of this position's 32 indices name this
  row" by comparing a column-number pattern with each index column, multiplies it with the slab on the matrix unit and
  accumulates; at the last slab it adds the bias and clips. The reference gathers the 32 rows and sums them. On the
  extended reals the two agree for indices that are row numbers: a count of zero or more ones times a row is that row
  added that many times (non-negative coefficients distribute), every other row is multiplied by zero, and sums may be
  regrouped freely. For an index that is no row number the reference's gather wraps or clamps while no column of the
  kernel's pattern matches it, so the precondition asks both index arrays to hold row numbers (beside every float input
  being finite). The evaluation layers are the same arithmetic in both programs up to layout.

  The three frames: the two kernel programs run their host stretch and their three regions in order, each region's
  body obligation proved at every grid point (the accumulator carried from one reduction step to the next); the
  reference is a straight-line host program. `preserves` has no entry: the idealization rewrote no operation.
-/
import proofs.«415106_j64158221467786_1_alg».proof.Defs
import proofs.«415106_j64158221467786_1_alg».proof.Proof.Gen.Kernel
import proofs.«415106_j64158221467786_1_alg».proof.Proof.Gen.KernelIdeal
import proofs.«415106_j64158221467786_1_alg».proof.Proof.Gen.ReferenceIdeal
import proofs.«415106_j64158221467786_1_alg».proof.Proof.Gen.ReferenceIdeal.Run
import proofs.«415106_j64158221467786_1_alg».proof.Proof.Gen.ReferenceIdeal.Read
import proofs.«415106_j64158221467786_1_alg».proof.Proof.Gen.Pre_finite_inputs
import proofs.«415106_j64158221467786_1_alg».proof.Proof.KMainRun
import proofs.«415106_j64158221467786_1_alg».proof.Proof.MainRun
import proofs.«415106_j64158221467786_1_alg».proof.Proof.NetValue
import proofs.«415106_j64158221467786_1_alg».proof.Proof.RefValue
import proofs.«415106_j64158221467786_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a straight-line host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to restate. -/
theorem preserves : Cert.preserves_Kernel_KernelIdeal := trivial

/-- Both idealized programs end with the network of the arguments in their result array. -/
theorem algebraic : Cert.algebraic_KernelIdeal_ReferenceIdeal := by
  intro m ρ m' ρ' hpre hagree
  have hd := fun c => Cert.Proof.Pre.decode _ _ _ _ _ _ _ _ _ _ _ (hpre c)
  refine ⟨fun c => Cert.Spec.netSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨?_, ?_⟩) (Cert.KernelIdeal.Hand.run_all (F := Ideal) m ρ)
    · exact (h c _ (Cert.KernelIdeal.Hand.mem_uc Cert.KernelIdeal.main_v3 (by decide))).trans
        (Cert.KernelIdeal.NetValue.net_value m ρ c (hd c).1 (hd c).2.1)
    · exact ⟨(h c _ (Cert.KernelIdeal.Hand.mem_uc Cert.KernelIdeal.main_arg0 (by decide))).trans (Cert.KernelIdeal.Hand.W4_main_arg0 m ρ c),
        (h c _ (Cert.KernelIdeal.Hand.mem_uc Cert.KernelIdeal.main_arg1 (by decide))).trans (Cert.KernelIdeal.Hand.W4_main_arg1 m ρ c),
        (h c _ (Cert.KernelIdeal.Hand.mem_uc Cert.KernelIdeal.main_arg2 (by decide))).trans (Cert.KernelIdeal.Hand.W4_main_arg2 m ρ c),
        (h c _ (Cert.KernelIdeal.Hand.mem_uc Cert.KernelIdeal.main_arg3 (by decide))).trans (Cert.KernelIdeal.Hand.W4_main_arg3 m ρ c),
        (h c _ (Cert.KernelIdeal.Hand.mem_uc Cert.KernelIdeal.main_arg4 (by decide))).trans (Cert.KernelIdeal.Hand.W4_main_arg4 m ρ c),
        (h c _ (Cert.KernelIdeal.Hand.mem_uc Cert.KernelIdeal.main_arg5 (by decide))).trans (Cert.KernelIdeal.Hand.W4_main_arg5 m ρ c),
        (h c _ (Cert.KernelIdeal.Hand.mem_uc Cert.KernelIdeal.main_arg6 (by decide))).trans (Cert.KernelIdeal.Hand.W4_main_arg6 m ρ c),
        (h c _ (Cert.KernelIdeal.Hand.mem_uc Cert.KernelIdeal.main_arg7 (by decide))).trans (Cert.KernelIdeal.Hand.W4_main_arg7 m ρ c),
        (h c _ (Cert.KernelIdeal.Hand.mem_uc Cert.KernelIdeal.main_arg8 (by decide))).trans (Cert.KernelIdeal.Hand.W4_main_arg8 m ρ c),
        (h c _ (Cert.KernelIdeal.Hand.mem_uc Cert.KernelIdeal.main_arg9 (by decide))).trans (Cert.KernelIdeal.Hand.W4_main_arg9 m ρ c),
        (h c _ (Cert.KernelIdeal.Hand.mem_uc Cert.KernelIdeal.main_arg10 (by decide))).trans (Cert.KernelIdeal.Hand.W4_main_arg10 m ρ c)⟩
  · refine (θ_run Cert.ReferenceIdeal.defs _ _).mono (fun r h c => ⟨?_, (h c).2⟩) (Cert.ReferenceIdeal.Value.run (F := Ideal) m' ρ')
    rw [(h c).1, Cert.ReferenceIdeal.Read.val_main_v49_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]
    exact Cert.ReferenceIdeal.RefValue.ref_eq _ _ _ _ _ _ _ _ _ _ _ (hd c).1 (hd c).2.1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
